-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x1024x40 : Shape := ⟨3, ![1024, 1024, 40]⟩
abbrev S37x20 : Shape := ⟨2, ![37, 20]⟩
abbrev S20 : Shape := ⟨1, ![20]⟩
abbrev S20x128 : Shape := ⟨2, ![20, 128]⟩
abbrev S128 : Shape := ⟨1, ![128]⟩
abbrev S128x64 : Shape := ⟨2, ![128, 64]⟩
abbrev S64 : Shape := ⟨1, ![64]⟩
abbrev S64x16 : Shape := ⟨2, ![64, 16]⟩
abbrev S16 : Shape := ⟨1, ![16]⟩
abbrev S16x1 : Shape := ⟨2, ![16, 1]⟩
abbrev S1 : Shape := ⟨1, ![1]⟩
abbrev S4x1 : Shape := ⟨2, ![4, 1]⟩
abbrev S_ : Shape := ⟨0, ![]⟩

class Facts : Prop where
  bcast_S_S1024x1024x40 : S_.BroadcastsInDim S1024x1024x40 (![] : Fin 0 → Fin S1024x1024x40.rank)
  reducesTo_S1024x1024x40_S_d0_1_2 : S1024x1024x40.ReducesTo [0, 1, 2] S_
  h_S_ : 0 < S_.numel
  bcast_S_S37x20 : S_.BroadcastsInDim S37x20 (![] : Fin 0 → Fin S37x20.rank)
  reducesTo_S37x20_S_d0_1 : S37x20.ReducesTo [0, 1] S_
  bcast_S_S20 : S_.BroadcastsInDim S20 (![] : Fin 0 → Fin S20.rank)
  reducesTo_S20_S_d0 : S20.ReducesTo [0] S_
  bcast_S_S20x128 : S_.BroadcastsInDim S20x128 (![] : Fin 0 → Fin S20x128.rank)
  reducesTo_S20x128_S_d0_1 : S20x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_
  bcast_S_S4x1 : S_.BroadcastsInDim S4x1 (![] : Fin 0 → Fin S4x1.rank)
  reducesTo_S4x1_S_d0_1 : S4x1.ReducesTo [0, 1] S_

variable [Facts]

def fn_part3 {F : FTy → Type} [FloatOps F] (main_arg11 : FVec F S4x1 .f32) (main_arg12 : FVec F S1 .f32) (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  let main_v54 : FVec F S4x1 .f32 := Host.absf main_arg11
  let main_cst_20 : FVec F S_ .f32 := constant S_ .f32 0x7F800000#32
  let main_v55 : FVec F S4x1 .f32 := broadcastInDim S4x1 ![] bcast_S_S4x1 main_cst_20
  let main_v56 : IVec S4x1 1 := cmpf .olt main_v54 main_v55
  let main_c_21 : IVec S_ 1 := constantI S_ 1 1#1
  let main_v57 : IVec S_ 1 := (fun x v => Host.reduce IntOp.andi x v reducesTo_S4x1_S_d0_1 h_S_) main_v56 main_c_21
  let main_v58 : IVec S_ 1 := andi main_v53 main_v57
  let main_v59 : FVec F S1 .f32 := Host.absf main_arg12
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg7 : FVec F S64x16 .f32) (main_arg8 : FVec F S16 .f32) (main_arg9 : FVec F S16x1 .f32) (main_arg10 : FVec F S1 .f32) (main_arg11 : FVec F S4x1 .f32) (main_arg12 : FVec F S1 .f32) (main_v33 : IVec S_ 1) : IVec S_ 1 :=
  let main_v34 : FVec F S64x16 .f32 := Host.absf main_arg7
  let main_cst_12 : FVec F S_ .f32 := constant S_ .f32 0x7F800000#32
  let main_v35 : FVec F S64x16 .f32 := broadcastInDim S64x16 ![] bcast_S_S64x16 main_cst_12
  let main_v36 : IVec S64x16 1 := cmpf .olt main_v34 main_v35
  let main_c_13 : IVec S_ 1 := constantI S_ 1 1#1
  let main_v37 : IVec S_ 1 := (fun x v => Host.reduce IntOp.andi x v reducesTo_S64x16_S_d0_1 h_S_) main_v36 main_c_13
  let main_v38 : IVec S_ 1 := andi main_v33 main_v37
  let main_v39 : FVec F S16 .f32 := Host.absf main_arg8
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  let main_v44 : FVec F S16x1 .f32 := Host.absf main_arg9
  let main_cst_16 : FVec F S_ .f32 := constant S_ .f32 0x7F800000#32
  let main_v45 : FVec F S16x1 .f32 := broadcastInDim S16x1 ![] bcast_S_S16x1 main_cst_16
  let main_v46 : IVec S16x1 1 := cmpf .olt main_v44 main_v45
  let main_c_17 : IVec S_ 1 := constantI S_ 1 1#1
  let main_v47 : IVec S_ 1 := (fun x v => Host.reduce IntOp.andi x v reducesTo_S16x1_S_d0_1 h_S_) main_v46 main_c_17
  let main_v48 : IVec S_ 1 := andi main_v43 main_v47
  let main_v49 : FVec F S1 .f32 := Host.absf main_arg10
  let main_cst_18 : FVec F S_ .f32 := constant S_ .f32 0x7F800000#32
  let main_v50 : FVec F S1 .f32 := broadcastInDim S1 ![] bcast_S_S1 main_cst_18
  fn_part3 (F := F) main_arg11 main_arg12 main_v48 main_v49 main_v50

def fn_part1 {F : FTy → Type} [FloatOps F] (main_arg4 : FVec F S128 .f32) (main_arg5 : FVec F S128x64 .f32) (main_arg6 : FVec F S64 .f32) (main_arg7 : FVec F S64x16 .f32) (main_arg8 : FVec F S16 .f32) (main_arg9 : FVec F S16x1 .f32) (main_arg10 : FVec F S1 .f32) (main_arg11 : FVec F S4x1 .f32) (main_arg12 : FVec F S1 .f32) (main_v13 : IVec S_ 1) (main_v16 : IVec S20x128 1) : IVec S_ 1 :=
  let main_c_5 : IVec S_ 1 := constantI S_ 1 1#1
  let main_v17 : IVec S_ 1 := (fun x v => Host.reduce IntOp.andi x v reducesTo_S20x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg5
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S1024x1024x40 .f32) (main_arg1 : FVec F S37x20 .f32) (main_arg2 : FVec F S20 .f32) (main_arg3 : FVec F S20x128 .f32) (main_arg4 : FVec F S128 .f32) (main_arg5 : FVec F S128x64 .f32) (main_arg6 : FVec F S64 .f32) (main_arg7 : FVec F S64x16 .f32) (main_arg8 : FVec F S16 .f32) (main_arg9 : FVec F S16x1 .f32) (main_arg10 : FVec F S1 .f32) (main_arg11 : FVec F S4x1 .f32) (main_arg12 : FVec F S1 .f32) : IVec S_ 1 :=
  let main_v0 : FVec F S1024x1024x40 .f32 := Host.absf main_arg0
  let main_cst : FVec F S_ .f32 := constant S_ .f32 0x7F800000#32
  let main_v1 : FVec F S1024x1024x40 .f32 := broadcastInDim S1024x1024x40 ![] bcast_S_S1024x1024x40 main_cst
  let main_v2 : IVec S1024x1024x40 1 := cmpf .olt main_v0 main_v1
  let main_c : IVec S_ 1 := constantI S_ 1 1#1
  let main_v3 : IVec S_ 1 := (fun x v => Host.reduce IntOp.andi x v reducesTo_S1024x1024x40_S_d0_1_2 h_S_) main_v2 main_c
  let main_v4 : FVec F S37x20 .f32 := Host.absf main_arg1
  let main_cst_0 : FVec F S_ .f32 := constant S_ .f32 0x7F800000#32
  let main_v5 : FVec F S37x20 .f32 := broadcastInDim S37x20 ![] bcast_S_S37x20 main_cst_0
  let main_v6 : IVec S37x20 1 := cmpf .olt main_v4 main_v5
  let main_c_1 : IVec S_ 1 := constantI S_ 1 1#1
  let main_v7 : IVec S_ 1 := (fun x v => Host.reduce IntOp.andi x v reducesTo_S37x20_S_d0_1 h_S_) main_v6 main_c_1
  let main_v8 : IVec S_ 1 := andi main_v3 main_v7
  let main_v9 : FVec F S20 .f32 := Host.absf main_arg2
  let main_cst_2 : FVec F S_ .f32 := constant S_ .f32 0x7F800000#32
  let main_v10 : FVec F S20 .f32 := broadcastInDim S20 ![] bcast_S_S20 main_cst_2
  let main_v11 : IVec S20 1 := cmpf .olt main_v9 main_v10
  let main_c_3 : IVec S_ 1 := constantI S_ 1 1#1
  let main_v12 : IVec S_ 1 := (fun x v => Host.reduce IntOp.andi x v reducesTo_S20_S_d0 h_S_) main_v11 main_c_3
  let main_v13 : IVec S_ 1 := andi main_v8 main_v12
  let main_v14 : FVec F S20x128 .f32 := Host.absf main_arg3
  let main_cst_4 : FVec F S_ .f32 := constant S_ .f32 0x7F800000#32
  let main_v15 : FVec F S20x128 .f32 := broadcastInDim S20x128 ![] bcast_S_S20x128 main_cst_4
  let main_v16 : IVec S20x128 1 := cmpf .olt main_v14 main_v15
  fn_part1 (F := F) main_arg4 main_arg5 main_arg6 main_arg7 main_arg8 main_arg9 main_arg10 main_arg11 main_arg12 main_v13 main_v16
-- ==== Kernel.lean ====
abbrev S1024x1024x40 : Shape := ⟨3, ![1024, 1024, 40]⟩
abbrev S37x20 : Shape := ⟨2, ![37, 20]⟩
abbrev S20 : Shape := ⟨1, ![20]⟩
abbrev S20x128 : Shape := ⟨2, ![20, 128]⟩
abbrev S128 : Shape := ⟨1, ![128]⟩
abbrev S128x64 : Shape := ⟨2, ![128, 64]⟩
abbrev S64 : Shape := ⟨1, ![64]⟩
abbrev S64x16 : Shape := ⟨2, ![64, 16]⟩
abbrev S16 : Shape := ⟨1, ![16]⟩
abbrev S16x1 : Shape := ⟨2, ![16, 1]⟩
abbrev S1 : Shape := ⟨1, ![1]⟩
abbrev S4x1 : Shape := ⟨2, ![4, 1]⟩
abbrev S_ : Shape := ⟨0, ![]⟩
abbrev S3x20 : Shape := ⟨2, ![3, 20]⟩
abbrev S40x20 : Shape := ⟨2, ![40, 20]⟩
abbrev S40x40 : Shape := ⟨2, ![40, 40]⟩
abbrev S80x40 : Shape := ⟨2, ![80, 40]⟩
abbrev S40 : Shape := ⟨1, ![40]⟩
abbrev S1x40 : Shape := ⟨2, ![1, 40]⟩
abbrev S1024x512x80 : Shape := ⟨3, ![1024, 512, 80]⟩
abbrev S1x128 : Shape := ⟨2, ![1, 128]⟩
abbrev S1x64 : Shape := ⟨2, ![1, 64]⟩
abbrev S1x16 : Shape := ⟨2, ![1, 16]⟩
abbrev S1x1 : Shape := ⟨2, ![1, 1]⟩
abbrev S1024x1 : Shape := ⟨2, ![1024, 1]⟩
abbrev S32x128x80 : Shape := ⟨3, ![32, 128, 80]⟩
abbrev S32x1 : Shape := ⟨2, ![32, 1]⟩
abbrev S4096x80 : Shape := ⟨2, ![4096, 80]⟩
abbrev S4096x40 : Shape := ⟨2, ![4096, 40]⟩
abbrev S32x128x40 : Shape := ⟨3, ![32, 128, 40]⟩
abbrev S32x40 : Shape := ⟨2, ![32, 40]⟩
abbrev S32x20 : Shape := ⟨2, ![32, 20]⟩
abbrev S32x128 : Shape := ⟨2, ![32, 128]⟩
abbrev S32x64 : Shape := ⟨2, ![32, 64]⟩
abbrev S32x16 : Shape := ⟨2, ![32, 16]⟩
abbrev S32x1x3 : Shape := ⟨3, ![32, 1, 3]⟩
abbrev S32x3 : Shape := ⟨2, ![32, 3]⟩
abbrev S32x4 : Shape := ⟨2, ![32, 4]⟩

abbrev nBuf : Space → Nat
  | .hbm => 35
  | .vmem => 22
  | .smem => 0
  | _ => 0

abbrev bufTy : (tb : Table) → Fin (tcTables nBuf tb) → BufTy
  | .hbm, ⟨0, _⟩ => ⟨S1024x1024x40, .f32⟩
  | .hbm, ⟨1, _⟩ => ⟨S37x20, .f32⟩
  | .hbm, ⟨2, _⟩ => ⟨S20, .f32⟩
  | .hbm, ⟨3, _⟩ => ⟨S20x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S64x16, .f32⟩
  | .hbm, ⟨8, _⟩ => ⟨S16, .f32⟩
  | .hbm, ⟨9, _⟩ => ⟨S16x1, .f32⟩
  | .hbm, ⟨10, _⟩ => ⟨S1, .f32⟩
  | .hbm, ⟨11, _⟩ => ⟨S4x1, .f32⟩
  | .hbm, ⟨12, _⟩ => ⟨S1, .f32⟩
  | .hbm, ⟨13, _⟩ => ⟨S_, .f32⟩
  | .hbm, ⟨14, _⟩ => ⟨S3x20, .f32⟩
  | .hbm, ⟨15, _⟩ => ⟨S40x20, .f32⟩
  | .hbm, ⟨16, _⟩ => ⟨S_, .f32⟩
  | .hbm, ⟨17, _⟩ => ⟨S40x20, .f32⟩
  | .hbm, ⟨18, _⟩ => ⟨S40x40, .f32⟩
  | .hbm, ⟨19, _⟩ => ⟨S40x40, .f32⟩
  | .hbm, ⟨20, _⟩ => ⟨S80x40, .f32⟩
  | .hbm, ⟨21, _⟩ => ⟨S40, .f32⟩
  | .hbm, ⟨22, _⟩ => ⟨S1x40, .f32⟩
  | .hbm, ⟨23, _⟩ => ⟨S1024x512x80, .f32⟩
  | .hbm, ⟨24, _⟩ => ⟨S1x128, .f32⟩
  | .hbm, ⟨25, _⟩ => ⟨S1x64, .f32⟩
  | .hbm, ⟨26, _⟩ => ⟨S1x16, .f32⟩
  | .hbm, ⟨27, _⟩ => ⟨S1x1, .f32⟩
  | .hbm, ⟨28, _⟩ => ⟨S1x1, .f32⟩
  | .hbm, ⟨29, _⟩ => ⟨S1x128, .f32⟩
  | .hbm, ⟨30, _⟩ => ⟨S1x64, .f32⟩
  | .hbm, ⟨31, _⟩ => ⟨S1x16, .f32⟩
  | .hbm, ⟨32, _⟩ => ⟨S1x1, .f32⟩
  | .hbm, ⟨33, _⟩ => ⟨S1x1, .f32⟩
  | .hbm, ⟨34, _⟩ => ⟨S1024x1, .f32⟩
  | .local _ .vmem, ⟨0, _⟩ => ⟨S32x128x80, .f32⟩
  | .local _ .vmem, ⟨1, _⟩ => ⟨S32x128x80, .f32⟩
  | .local _ .vmem, ⟨2, _⟩ => ⟨S32x128x80, .f32⟩
  | .local _ .vmem, ⟨3, _⟩ => ⟨S32x128x80, .f32⟩
  | .local _ .vmem, ⟨4, _⟩ => ⟨S32x128x80, .f32⟩
  | .local _ .vmem, ⟨5, _⟩ => ⟨S32x128x80, .f32⟩
  | .local _ .vmem, ⟨6, _⟩ => ⟨S32x128x80, .f32⟩
  | .local _ .vmem, ⟨7, _⟩ => ⟨S32x128x80, .f32⟩
  | .local _ .vmem, ⟨8, _⟩ => ⟨S80x40, .f32⟩
  | .local _ .vmem, ⟨9, _⟩ => ⟨S1x40, .f32⟩
  | .local _ .vmem, ⟨10, _⟩ => ⟨S20x128, .f32⟩
  | .local _ .vmem, ⟨11, _⟩ => ⟨S1x128, .f32⟩
  | .local _ .vmem, ⟨12, _⟩ => ⟨S128x64, .f32⟩
  | .local _ .vmem, ⟨13, _⟩ => ⟨S1x64, .f32⟩
  | .local _ .vmem, ⟨14, _⟩ => ⟨S64x16, .f32⟩
  | .local _ .vmem, ⟨15, _⟩ => ⟨S1x16, .f32⟩
  | .local _ .vmem, ⟨16, _⟩ => ⟨S16x1, .f32⟩
  | .local _ .vmem, ⟨17, _⟩ => ⟨S1x1, .f32⟩
  | .local _ .vmem, ⟨18, _⟩ => ⟨S4x1, .f32⟩
  | .local _ .vmem, ⟨19, _⟩ => ⟨S1x1, .f32⟩
  | .local _ .vmem, ⟨20, _⟩ => ⟨S32x1, .f32⟩
  | .local _ .vmem, ⟨21, _⟩ => ⟨S32x1, .f32⟩
  | _, _ => ⟨S1024x1024x40, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_cst_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg16_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem16_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![arg0.toNat, c1_i32.toNat, c0_i32.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![arg0.toNat, c2_i32.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![arg0.toNat, c3_i32.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x128x80 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x128x80 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x128x80 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x128x80 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S80x40 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x40 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S20x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x16 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x16 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S16x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S4x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S32x1 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

class Facts₀ : Prop where
  bcast_S_S3x20 : S_.BroadcastsInDim S3x20 (![] : Fin 0 → Fin S3x20.rank)
  concatenates_S37x20_S3x20_S40x20_d0 : Shape.Concatenates [S37x20, S3x20] S40x20 0
  bcast_S_S40x20 : S_.BroadcastsInDim S40x20 (![] : Fin 0 → Fin S40x20.rank)
  concatenates_S40x20_S40x20_S40x40_d1 : Shape.Concatenates [S40x20, S40x20] S40x40 1
  concatenates_S40x40_S40x40_S80x40_d0 : Shape.Concatenates [S40x40, S40x40] S80x40 0
  concatenates_S20_S20_S40_d0 : Shape.Concatenates [S20, S20] S40 0
  shapeCasts_S40_S1x40 : S40.ShapeCasts S1x40
  shapeCasts_S1024x1024x40_S1024x512x80 : S1024x1024x40.ShapeCasts S1024x512x80
  shapeCasts_S128_S1x128 : S128.ShapeCasts S1x128
  shapeCasts_S64_S1x64 : S64.ShapeCasts S1x64
  shapeCasts_S16_S1x16 : S16.ShapeCasts S1x16
  shapeCasts_S1_S1x1 : S1.ShapeCasts S1x1
  inb_S32x128x80_S32x128x80_0_0_0 : ∀ a, (![0, 0, 0] : Fin 3 → Nat) a + S32x128x80.size a ≤ S32x128x80.size a
  h_S32x128x80 : 0 < S32x128x80.numel
  shapeCasts_S32x128x80_S32x128x80 : S32x128x80.ShapeCasts S32x128x80
  shapeCasts_S32x128x80_S4096x80 : S32x128x80.ShapeCasts S4096x80
  inb_S80x40_S80x40_0_0 : ∀ a, (![0, 0] : Fin 2 → Nat) a + S80x40.size a ≤ S80x40.size a
  h_S80x40 : 0 < S80x40.numel
  shapeCasts_S80x40_S80x40 : S80x40.ShapeCasts S80x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S4096x40 : S1x40.Broadcasts S4096x40
  shapeCasts_S4096x40_S32x128x40 : S4096x40.ShapeCasts S32x128x40
  reduces_S32x128x40_S32x40 : S32x128x40.Reduces [1] S32x40
  slices_S32x40_o0_0_S32x20 : S32x40.Slices ![0, 0] S32x20
  slices_S32x40_o0_20_S32x20 : S32x40.Slices ![0, 20] S32x20
  inb_S20x128_S20x128_0_0 : ∀ a, (![0, 0] : Fin 2 → Nat) a + S20x128.size a ≤ S20x128.size a
  h_S20x128 : 0 < S20x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S32x128 : S1x128.Broadcasts S32x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S32x64 : S1x64.Broadcasts S32x64
  inb_S64x16_S64x16_0_0 : ∀ a, (![0, 0] : Fin 2 → Nat) a + S64x16.size a ≤ S64x16.size a
  h_S64x16 : 0 < S64x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S32x16 : S1x16.Broadcasts S32x16
  inb_S16x1_S16x1_0_0 : ∀ a, (![0, 0] : Fin 2 → Nat) a + S16x1.size a ≤ S16x1.size a
  h_S16x1 : 0 < S16x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S32x1 : S1x1.Broadcasts S32x1
  slices_S32x128x80_o0_0_37_S32x1x3 : S32x128x80.Slices ![0, 0, 37] S32x1x3
  shapeCasts_S32x1x3_S32x3 : S32x1x3.ShapeCasts S32x3
  concatenates_S32x1_S32x3_S32x4_d1 : Shape.Concatenates [S32x1, S32x3] S32x4 1
  inb_S4x1_S4x1_0_0 : ∀ a, (![0, 0] : Fin 2 → Nat) a + S4x1.size a ≤ S4x1.size a
  h_S4x1 : 0 < S4x1.numel
  inb_S32x1_S32x1_0_0 : ∀ a, (![0, 0] : Fin 2 → Nat) a + S32x1.size a ≤ S32x1.size a
  h_S32x1 : 0 < S32x1.numel
  dot_S4096x80_S80x40_S4096x40_1_0_0_1_n_n_wf : DotDims.WF S4096x80 S80x40 S4096x40 [1] [0] [0] [1] [] []
  dot_S32x20_S20x128_S32x128_1_0_0_1_n_n_wf : DotDims.WF S32x20 S20x128 S32x128 [1] [0] [0] [1] [] []
  dot_S32x128_S128x64_S32x64_1_0_0_1_n_n_wf : DotDims.WF S32x128 S128x64 S32x64 [1] [0] [0] [1] [] []
  dot_S32x64_S64x16_S32x16_1_0_0_1_n_n_wf : DotDims.WF S32x64 S64x16 S32x16 [1] [0] [0] [1] [] []
  dot_S32x16_S16x1_S32x1_1_0_0_1_n_n_wf : DotDims.WF S32x16 S16x1 S32x1 [1] [0] [0] [1] [] []
  dot_S32x4_S4x1_S32x1_1_0_0_1_n_n_wf : DotDims.WF S32x4 S4x1 S32x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x128x80.size a ≤ S1024x512x80.size a
  hwx0_0 : ∀ i : grid0.Coords, EltTy.bits .f32 = 32 ∨ (Rect.block (s := S1024x512x80) S32x128x80.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x128x80.size a ≤ S1024x512x80.size a
  hwx0_1 : ∀ i : grid0.Coords, EltTy.bits .f32 = 32 ∨ (Rect.block (s := S1024x512x80) S32x128x80.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x128x80.size a ≤ S1024x512x80.size a
  hwx0_2 : ∀ i : grid0.Coords, EltTy.bits .f32 = 32 ∨ (Rect.block (s := S1024x512x80) S32x128x80.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x128x80.size a ≤ S1024x512x80.size a
  hwx0_3 : ∀ i : grid0.Coords, EltTy.bits .f32 = 32 ∨ (Rect.block (s := S1024x512x80) S32x128x80.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S80x40.size a ≤ S80x40.size a
  hwx0_4 : ∀ i : grid0.Coords, EltTy.bits .f32 = 32 ∨ (Rect.block (s := S80x40) S80x40.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x40.size a ≤ S1x40.size a
  hwx0_5 : ∀ i : grid0.Coords, EltTy.bits .f32 = 32 ∨ (Rect.block (s := S1x40) S1x40.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S20x128.size a ≤ S20x128.size a
  hwx0_6 : ∀ i : grid0.Coords, EltTy.bits .f32 = 32 ∨ (Rect.block (s := S20x128) S20x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x64.size a ≤ S128x64.size a
  hwx0_8 : ∀ i : grid0.Coords, EltTy.bits .f32 = 32 ∨ (Rect.block (s := S128x64) S128x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x64.size a ≤ S1x64.size a
  hwx0_9 : ∀ i : grid0.Coords, EltTy.bits .f32 = 32 ∨ (Rect.block (s := S1x64) S1x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S64x16.size a ≤ S64x16.size a
  hwx0_10 : ∀ i : grid0.Coords, EltTy.bits .f32 = 32 ∨ (Rect.block (s := S64x16) S64x16.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x16.size a ≤ S1x16.size a
  hwx0_11 : ∀ i : grid0.Coords, EltTy.bits .f32 = 32 ∨ (Rect.block (s := S1x16) S1x16.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S16x1.size a ≤ S16x1.size a
  hwx0_12 : ∀ i : grid0.Coords, EltTy.bits .f32 = 32 ∨ (Rect.block (s := S16x1) S16x1.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x1.size a ≤ S1x1.size a
  hwx0_13 : ∀ i : grid0.Coords, EltTy.bits .f32 = 32 ∨ (Rect.block (s := S1x1) S1x1.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S4x1.size a ≤ S4x1.size a
  hwx0_14 : ∀ i : grid0.Coords, EltTy.bits .f32 = 32 ∨ (Rect.block (s := S4x1) S4x1.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x1.size a ≤ S1x1.size a
  hwx0_15 : ∀ i : grid0.Coords, EltTy.bits .f32 = 32 ∨ (Rect.block (s := S1x1) S1x1.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S32x1.size a ≤ S1024x1.size a
  hwx0_16 : ∀ i : grid0.Coords, EltTy.bits .f32 = 32 ∨ (Rect.block (s := S1024x1) S32x1.size (cc0_transform_16 i) (hinb0_16 i)).WholeWords (EltTy.packing .f32)

variable [Facts₀]

def dot_S4096x80_S80x40_S4096x40_1_0_0_1_n_n : DotDims S4096x80 S80x40 S4096x40 where
  lhsContracting := [1]
  rhsContracting := [0]
  lhsNonContracting := [0]
  rhsNonContracting := [1]
  lhsBatch := []
  rhsBatch := []
  wf := dot_S4096x80_S80x40_S4096x40_1_0_0_1_n_n_wf
def dot_S32x20_S20x128_S32x128_1_0_0_1_n_n : DotDims S32x20 S20x128 S32x128 where
  lhsContracting := [1]
  rhsContracting := [0]
  lhsNonContracting := [0]
  rhsNonContracting := [1]
  lhsBatch := []
  rhsBatch := []
  wf := dot_S32x20_S20x128_S32x128_1_0_0_1_n_n_wf
def dot_S32x128_S128x64_S32x64_1_0_0_1_n_n : DotDims S32x128 S128x64 S32x64 where
  lhsContracting := [1]
  rhsContracting := [0]
  lhsNonContracting := [0]
  rhsNonContracting := [1]
  lhsBatch := []
  rhsBatch := []
  wf := dot_S32x128_S128x64_S32x64_1_0_0_1_n_n_wf
def dot_S32x64_S64x16_S32x16_1_0_0_1_n_n : DotDims S32x64 S64x16 S32x16 where
  lhsContracting := [1]
  rhsContracting := [0]
  lhsNonContracting := [0]
  rhsNonContracting := [1]
  lhsBatch := []
  rhsBatch := []
  wf := dot_S32x64_S64x16_S32x16_1_0_0_1_n_n_wf
def dot_S32x16_S16x1_S32x1_1_0_0_1_n_n : DotDims S32x16 S16x1 S32x1 where
  lhsContracting := [1]
  rhsContracting := [0]
  lhsNonContracting := [0]
  rhsNonContracting := [1]
  lhsBatch := []
  rhsBatch := []
  wf := dot_S32x16_S16x1_S32x1_1_0_0_1_n_n_wf
def dot_S32x4_S4x1_S32x1_1_0_0_1_n_n : DotDims S32x4 S4x1 S32x1 where
  lhsContracting := [1]
  rhsContracting := [0]
  lhsNonContracting := [0]
  rhsNonContracting := [1]
  lhsBatch := []
  rhsBatch := []
  wf := dot_S32x4_S4x1_S32x1_1_0_0_1_n_n_wf

abbrev win0_0 : Pipeline.Window sig grid0 :=
  Pipeline.Window.ofSpec (Memref.whole main_v8) S32x128x80.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S32x128x80.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S32x128x80.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S32x128x80.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S80x40.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x40.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg3) S20x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v14) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg5) S128x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v15) S1x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg7) S64x16.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v16) S1x16.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg9) S16x1.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v17) S1x1.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg11) S4x1.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v18) S1x1.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v19) S32x1.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S1024x1024x40 : Shape := ⟨3, ![1024, 1024, 40]⟩
abbrev S37x20 : Shape := ⟨2, ![37, 20]⟩
abbrev S20 : Shape := ⟨1, ![20]⟩
abbrev S20x128 : Shape := ⟨2, ![20, 128]⟩
abbrev S128 : Shape := ⟨1, ![128]⟩
abbrev S128x64 : Shape := ⟨2, ![128, 64]⟩
abbrev S64 : Shape := ⟨1, ![64]⟩
abbrev S64x16 : Shape := ⟨2, ![64, 16]⟩
abbrev S16 : Shape := ⟨1, ![16]⟩
abbrev S16x1 : Shape := ⟨2, ![16, 1]⟩
abbrev S1 : Shape := ⟨1, ![1]⟩
abbrev S4x1 : Shape := ⟨2, ![4, 1]⟩
abbrev S1024x1x3 : Shape := ⟨3, ![1024, 1, 3]⟩
abbrev S1024x3 : Shape := ⟨2, ![1024, 3]⟩
abbrev S1024x1024x37 : Shape := ⟨3, ![1024, 1024, 37]⟩
abbrev S1024x1024x20 : Shape := ⟨3, ![1024, 1024, 20]⟩
abbrev S1x1x20 : Shape := ⟨3, ![1, 1, 20]⟩
abbrev S_ : Shape := ⟨0, ![]⟩
abbrev S1024x20 : Shape := ⟨2, ![1024, 20]⟩
abbrev S1024x128 : Shape := ⟨2, ![1024, 128]⟩
abbrev S1x128 : Shape := ⟨2, ![1, 128]⟩
abbrev S1024x64 : Shape := ⟨2, ![1024, 64]⟩
abbrev S1x64 : Shape := ⟨2, ![1, 64]⟩
abbrev S1024x16 : Shape := ⟨2, ![1024, 16]⟩
abbrev S1x16 : Shape := ⟨2, ![1, 16]⟩
abbrev S1024x1 : Shape := ⟨2, ![1024, 1]⟩
abbrev S1x1 : Shape := ⟨2, ![1, 1]⟩
abbrev S1024x4 : Shape := ⟨2, ![1024, 4]⟩

abbrev nBuf : Space → Nat
  | .hbm => 52
  | .vmem => 0
  | .smem => 0
  | _ => 0

abbrev bufTy : (tb : Table) → Fin (tcTables nBuf tb) → BufTy
  | .hbm, ⟨0, _⟩ => ⟨S1024x1024x40, .f32⟩
  | .hbm, ⟨1, _⟩ => ⟨S37x20, .f32⟩
  | .hbm, ⟨2, _⟩ => ⟨S20, .f32⟩
  | .hbm, ⟨3, _⟩ => ⟨S20x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S64x16, .f32⟩
  | .hbm, ⟨8, _⟩ => ⟨S16, .f32⟩
  | .hbm, ⟨9, _⟩ => ⟨S16x1, .f32⟩
  | .hbm, ⟨10, _⟩ => ⟨S1, .f32⟩
  | .hbm, ⟨11, _⟩ => ⟨S4x1, .f32⟩
  | .hbm, ⟨12, _⟩ => ⟨S1, .f32⟩
  | .hbm, ⟨13, _⟩ => ⟨S1024x1x3, .f32⟩
  | .hbm, ⟨14, _⟩ => ⟨S1024x3, .f32⟩
  | .hbm, ⟨15, _⟩ => ⟨S1024x1024x37, .f32⟩
  | .hbm, ⟨16, _⟩ => ⟨S1024x1024x20, .f32⟩
  | .hbm, ⟨17, _⟩ => ⟨S1x1x20, .f32⟩
  | .hbm, ⟨18, _⟩ => ⟨S1024x1024x20, .f32⟩
  | .hbm, ⟨19, _⟩ => ⟨S1024x1024x20, .f32⟩
  | .hbm, ⟨20, _⟩ => ⟨S_, .f32⟩
  | .hbm, ⟨21, _⟩ => ⟨S1024x1024x20, .f32⟩
  | .hbm, ⟨22, _⟩ => ⟨S1024x1024x20, .f32⟩
  | .hbm, ⟨23, _⟩ => ⟨S_, .f32⟩
  | .hbm, ⟨24, _⟩ => ⟨S1024x20, .f32⟩
  | .hbm, ⟨25, _⟩ => ⟨S1024x128, .f32⟩
  | .hbm, ⟨26, _⟩ => ⟨S1x128, .f32⟩
  | .hbm, ⟨27, _⟩ => ⟨S1024x128, .f32⟩
  | .hbm, ⟨28, _⟩ => ⟨S1024x128, .f32⟩
  | .hbm, ⟨29, _⟩ => ⟨S_, .f32⟩
  | .hbm, ⟨30, _⟩ => ⟨S1024x128, .f32⟩
  | .hbm, ⟨31, _⟩ => ⟨S1024x128, .f32⟩
  | .hbm, ⟨32, _⟩ => ⟨S1024x64, .f32⟩
  | .hbm, ⟨33, _⟩ => ⟨S1x64, .f32⟩
  | .hbm, ⟨34, _⟩ => ⟨S1024x64, .f32⟩
  | .hbm, ⟨35, _⟩ => ⟨S1024x64, .f32⟩
  | .hbm, ⟨36, _⟩ => ⟨S_, .f32⟩
  | .hbm, ⟨37, _⟩ => ⟨S1024x64, .f32⟩
  | .hbm, ⟨38, _⟩ => ⟨S1024x64, .f32⟩
  | .hbm, ⟨39, _⟩ => ⟨S1024x16, .f32⟩
  | .hbm, ⟨40, _⟩ => ⟨S1x16, .f32⟩
  | .hbm, ⟨41, _⟩ => ⟨S1024x16, .f32⟩
  | .hbm, ⟨42, _⟩ => ⟨S1024x16, .f32⟩
  | .hbm, ⟨43, _⟩ => ⟨S1024x1, .f32⟩
  | .hbm, ⟨44, _⟩ => ⟨S1x1, .f32⟩
  | .hbm, ⟨45, _⟩ => ⟨S1024x1, .f32⟩
  | .hbm, ⟨46, _⟩ => ⟨S1024x1, .f32⟩
  | .hbm, ⟨47, _⟩ => ⟨S1024x4, .f32⟩
  | .hbm, ⟨48, _⟩ => ⟨S1024x1, .f32⟩
  | .hbm, ⟨49, _⟩ => ⟨S1x1, .f32⟩
  | .hbm, ⟨50, _⟩ => ⟨S1024x1, .f32⟩
  | .hbm, ⟨51, _⟩ => ⟨S1024x1, .f32⟩
  | _, _ => ⟨S1024x1024x40, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_call0_cst : Ref sig .tc := ⟨.hbm, 20, rfl⟩
abbrev main_call0_v0 : Ref sig .tc := ⟨.hbm, 21, rfl⟩
abbrev main_v7 : Ref sig .tc := ⟨.hbm, 22, rfl⟩
abbrev main_cst : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_call1_cst : Ref sig .tc := ⟨.hbm, 29, rfl⟩
abbrev main_call1_v0 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_call2_cst : Ref sig .tc := ⟨.hbm, 36, rfl⟩
abbrev main_call2_v0 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩

abbrev nD : Nat := 1
abbrev τ : Topo := Topo.v7x

variable {F : FTy → Type} [FloatOps F]

class Facts₀ : Prop where
  slices_S1024x1024x40_S1024x1x3_0_0_37 : S1024x1024x40.Slices ![0, 0, 37] S1024x1x3
  shapeCasts_S1024x1x3_S1024x3 : S1024x1x3.ShapeCasts S1024x3
  slices_S1024x1024x40_S1024x1024x37_0_0_0 : S1024x1024x40.Slices ![0, 0, 0] S1024x1024x37
  bcast_S20_S1x1x20_2 : S20.BroadcastsInDim S1x1x20 (![2] : Fin 1 → Fin S1x1x20.rank)
  bcast_S1x1x20_S1024x1024x20_0_1_2 : S1x1x20.BroadcastsInDim S1024x1024x20 (![0, 1, 2] : Fin 3 → Fin S1024x1024x20.rank)
  bcast_S_S1024x1024x20 : S_.BroadcastsInDim S1024x1024x20 (![] : Fin 0 → Fin S1024x1024x20.rank)
  reducesTo_S1024x1024x20_S1024x20_d1 : S1024x1024x20.ReducesTo [1] S1024x20
  h_S_ : 0 < S_.numel
  bcast_S128_S1x128_1 : S128.BroadcastsInDim S1x128 (![1] : Fin 1 → Fin S1x128.rank)
  bcast_S1x128_S1024x128_0_1 : S1x128.BroadcastsInDim S1024x128 (![0, 1] : Fin 2 → Fin S1024x128.rank)
  bcast_S_S1024x128 : S_.BroadcastsInDim S1024x128 (![] : Fin 0 → Fin S1024x128.rank)
  bcast_S64_S1x64_1 : S64.BroadcastsInDim S1x64 (![1] : Fin 1 → Fin S1x64.rank)
  bcast_S1x64_S1024x64_0_1 : S1x64.BroadcastsInDim S1024x64 (![0, 1] : Fin 2 → Fin S1024x64.rank)
  bcast_S_S1024x64 : S_.BroadcastsInDim S1024x64 (![] : Fin 0 → Fin S1024x64.rank)
  bcast_S16_S1x16_1 : S16.BroadcastsInDim S1x16 (![1] : Fin 1 → Fin S1x16.rank)
  bcast_S1x16_S1024x16_0_1 : S1x16.BroadcastsInDim S1024x16 (![0, 1] : Fin 2 → Fin S1024x16.rank)
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  concatenates_S1024x1_S1024x3_S1024x4_d1 : Shape.Concatenates [S1024x1, S1024x3] S1024x4 1
  dot_S1024x1024x37_S37x20_S1024x1024x20_2_0_01_1_n_n_wf : DotDims.WF S1024x1024x37 S37x20 S1024x1024x20 [2] [0] [0, 1] [1] [] []
  dot_S1024x20_S20x128_S1024x128_1_0_0_1_n_n_wf : DotDims.WF S1024x20 S20x128 S1024x128 [1] [0] [0] [1] [] []
  dot_S1024x128_S128x64_S1024x64_1_0_0_1_n_n_wf : DotDims.WF S1024x128 S128x64 S1024x64 [1] [0] [0] [1] [] []
  dot_S1024x64_S64x16_S1024x16_1_0_0_1_n_n_wf : DotDims.WF S1024x64 S64x16 S1024x16 [1] [0] [0] [1] [] []
  dot_S1024x16_S16x1_S1024x1_1_0_0_1_n_n_wf : DotDims.WF S1024x16 S16x1 S1024x1 [1] [0] [0] [1] [] []
  dot_S1024x4_S4x1_S1024x1_1_0_0_1_n_n_wf : DotDims.WF S1024x4 S4x1 S1024x1 [1] [0] [0] [1] [] []

variable [Facts₀]

def dot_S1024x1024x37_S37x20_S1024x1024x20_2_0_01_1_n_n : DotDims S1024x1024x37 S37x20 S1024x1024x20 where
  lhsContracting := [2]
  rhsContracting := [0]
  lhsNonContracting := [0, 1]
  rhsNonContracting := [1]
  lhsBatch := []
  rhsBatch := []
  wf := dot_S1024x1024x37_S37x20_S1024x1024x20_2_0_01_1_n_n_wf
def dot_S1024x20_S20x128_S1024x128_1_0_0_1_n_n : DotDims S1024x20 S20x128 S1024x128 where
  lhsContracting := [1]
  rhsContracting := [0]
  lhsNonContracting := [0]
  rhsNonContracting := [1]
  lhsBatch := []
  rhsBatch := []
  wf := dot_S1024x20_S20x128_S1024x128_1_0_0_1_n_n_wf
def dot_S1024x128_S128x64_S1024x64_1_0_0_1_n_n : DotDims S1024x128 S128x64 S1024x64 where
  lhsContracting := [1]
  rhsContracting := [0]
  lhsNonContracting := [0]
  rhsNonContracting := [1]
  lhsBatch := []
  rhsBatch := []
  wf := dot_S1024x128_S128x64_S1024x64_1_0_0_1_n_n_wf
def dot_S1024x64_S64x16_S1024x16_1_0_0_1_n_n : DotDims S1024x64 S64x16 S1024x16 where
  lhsContracting := [1]
  rhsContracting := [0]
  lhsNonContracting := [0]
  rhsNonContracting := [1]
  lhsBatch := []
  rhsBatch := []
  wf := dot_S1024x64_S64x16_S1024x16_1_0_0_1_n_n_wf
def dot_S1024x16_S16x1_S1024x1_1_0_0_1_n_n : DotDims S1024x16 S16x1 S1024x1 where
  lhsContracting := [1]
  rhsContracting := [0]
  lhsNonContracting := [0]
  rhsNonContracting := [1]
  lhsBatch := []
  rhsBatch := []
  wf := dot_S1024x16_S16x1_S1024x1_1_0_0_1_n_n_wf
def dot_S1024x4_S4x1_S1024x1_1_0_0_1_n_n : DotDims S1024x4 S4x1 S1024x1 where
  lhsContracting := [1]
  rhsContracting := [0]
  lhsNonContracting := [0]
  rhsNonContracting := [1]
  lhsBatch := []
  rhsBatch := []
  wf := dot_S1024x4_S4x1_S1024x1_1_0_0_1_n_n_wf

class Facts : Prop extends Facts₀ where

variable [Facts]
-- ==== Proof.K.Base.lean ====
/- The region of the fused kernel as @main reaches it: what every TensorCore buffer holds when the one kernel
   region is entered (the host operations before it have built the block-diagonal weight matrix, the doubled
   bias row and the two-atoms-per-row view of the input), that those operations leave the thirteen argument
   arrays alone, and what each input window's staging buffer holds at a grid point: the block of its array
   that the window's index map names there. -/
import proofs.«144514_g55645596287706_cont_9to1_m_505_7_alg».proof.Proof.Gen.Kernel.Launch
import proofs.«144514_g55645596287706_cont_9to1_m_505_7_alg».proof.Proof.Gen.Kernel.Skeleton
import proofs.«144514_g55645596287706_cont_9to1_m_505_7_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffers when the region is entered: the launch contents after the host operations. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The host operations before the region never write argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The host operations before the region never write argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The host operations before the region never write argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The host operations before the region never write argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The host operations before the region never write argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The host operations before the region never write argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The host operations before the region never write argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The host operations before the region never write argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The host operations before the region never write argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The host operations before the region never write argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The host operations before the region never write argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The host operations before the region never write argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The host operations before the region never write argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block of the region-entry array at every point, fetched there or
    kept from the point before (its block index has not moved). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block of the region-entry array at every point, fetched there or
    kept from the point before (its block index has not moved). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block of the region-entry array at every point, fetched there or
    kept from the point before (its block index has not moved). -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block of the region-entry array at every point, fetched there or
    kept from the point before (its block index has not moved). -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block of the region-entry array at every point, fetched there or
    kept from the point before (its block index has not moved). -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block of the region-entry array at every point, fetched there or
    kept from the point before (its block index has not moved). -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's staging buffer holds its block of the region-entry array at every point, fetched there or
    kept from the point before (its block index has not moved). -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's staging buffer holds its block of the region-entry array at every point, fetched there or
    kept from the point before (its block index has not moved). -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's staging buffer holds its block of the region-entry array at every point, fetched there or
    kept from the point before (its block index has not moved). -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's staging buffer holds its block of the region-entry array at every point, fetched there or
    kept from the point before (its block index has not moved). -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's staging buffer holds its block of the region-entry array at every point, fetched there or
    kept from the point before (its block index has not moved). -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's staging buffer holds its block of the region-entry array at every point, fetched there or
    kept from the point before (its block index has not moved). -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's staging buffer holds its block of the region-entry array at every point, fetched there or
    kept from the point before (its block index has not moved). -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's staging buffer holds its block of the region-entry array at every point, fetched there or
    kept from the point before (its block index has not moved). -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's staging buffer holds its block of the region-entry array at every point, fetched there or
    kept from the point before (its block index has not moved). -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- Input window 15's staging buffer holds its block of the region-entry array at every point, fetched there or
    kept from the point before (its block index has not moved). -/
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)

end Cert.Kernel.Hand

end
-- ==== Proof.K.Body.lean ====
/- What one grid point of the fused kernel leaves behind. The body reads its sixteen input blocks whole (four blocks
   of the two-atoms-per-row input, the block-diagonal rule weights and their bias row, and the dense head's five
   weight matrices and bias rows), computes, and overwrites the whole 32-row output block once; so the output
   buffer afterwards is one pure function of the inputs: the per-pair hidden features, rectified and summed over the
   512 pair-rows of each of the 32 graphs, folded from 40 to 20 channels, then the dense head with the three physics
   columns of the first atom appended before the last layer. -/
import proofs.«144514_g55645596287706_cont_9to1_m_505_7_alg».proof.Proof.K.Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses: every load and the one store cover a whole buffer -/

abbrev rS32x128x80 : Rect S32x128x80 := Rect.unit (s := S32x128x80) ![0, 0, 0] S32x128x80.size inb_S32x128x80_S32x128x80_0_0_0
abbrev rS80x40 : Rect S80x40 := Rect.unit (s := S80x40) ![0, 0] S80x40.size inb_S80x40_S80x40_0_0
abbrev rS1x40 : Rect S1x40 := Rect.unit (s := S1x40) ![0, 0] S1x40.size inb_S1x40_S1x40_0_0
abbrev rS20x128 : Rect S20x128 := Rect.unit (s := S20x128) ![0, 0] S20x128.size inb_S20x128_S20x128_0_0
abbrev rS1x128 : Rect S1x128 := Rect.unit (s := S1x128) ![0, 0] S1x128.size inb_S1x128_S1x128_0_0
abbrev rS128x64 : Rect S128x64 := Rect.unit (s := S128x64) ![0, 0] S128x64.size inb_S128x64_S128x64_0_0
abbrev rS1x64 : Rect S1x64 := Rect.unit (s := S1x64) ![0, 0] S1x64.size inb_S1x64_S1x64_0_0
abbrev rS64x16 : Rect S64x16 := Rect.unit (s := S64x16) ![0, 0] S64x16.size inb_S64x16_S64x16_0_0
abbrev rS1x16 : Rect S1x16 := Rect.unit (s := S1x16) ![0, 0] S1x16.size inb_S1x16_S1x16_0_0
abbrev rS16x1 : Rect S16x1 := Rect.unit (s := S16x1) ![0, 0] S16x1.size inb_S16x1_S16x1_0_0
abbrev rS1x1 : Rect S1x1 := Rect.unit (s := S1x1) ![0, 0] S1x1.size inb_S1x1_S1x1_0_0
abbrev rS4x1 : Rect S4x1 := Rect.unit (s := S4x1) ![0, 0] S4x1.size inb_S4x1_S4x1_0_0
abbrev rS32x1 : Rect S32x1 := Rect.unit (s := S32x1) ![0, 0] S32x1.size inb_S32x1_S32x1_0_0

/-! ## What the body leaves in the output window's buffer -/

/-- The output block after the body, from the input blocks: its one store, of the kernel's value. -/
def out0_16 (x0 : Vec F S32x128x80 .f32) (x1 : Vec F S32x128x80 .f32) (x2 : Vec F S32x128x80 .f32) (x3 : Vec F S32x128x80 .f32) (x4 : Vec F S80x40 .f32) (x5 : Vec F S1x40 .f32) (x6 : Vec F S20x128 .f32) (x7 : Vec F S1x128 .f32) (x8 : Vec F S128x64 .f32) (x9 : Vec F S1x64 .f32) (x10 : Vec F S64x16 .f32) (x11 : Vec F S1x16 .f32) (x12 : Vec F S16x1 .f32) (x13 : Vec F S1x1 .f32) (x14 : Vec F S4x1 .f32) (x15 : Vec F S1x1 .f32) : Vec F S32x1 .f32 :=
  View.canon [⟨rS32x1, k0_pay1 (k0_pay5 (View.ld x0 rS32x128x80)) (k0_pay6 (k0_pay2 (View.ld x0 rS32x128x80) (View.ld x4 rS80x40) (View.ld x5 rS1x40) (View.ld x1 rS32x128x80) (View.ld x4 rS80x40) (View.ld x5 rS1x40)) (k0_pay3 (View.ld x2 rS32x128x80)) (k0_pay4 (View.ld x4 rS80x40)) (View.ld x5 rS1x40) (View.ld x3 rS32x128x80) (View.ld x4 rS80x40) (View.ld x5 rS1x40) (View.ld x6 rS20x128) (View.ld x7 rS1x128)) (Scalar.ofBits .f32 0x00000000#32) (View.ld x8 rS128x64) (View.ld x9 rS1x64) (View.ld x10 rS64x16) (View.ld x11 rS1x16) (View.ld x12 rS16x1) (View.ld x13 rS1x1) (View.ld x14 rS4x1) (View.ld x15 rS1x1)⟩]

/-- The store covers the buffer. -/
theorem cover0_16 (p0 : Vec F S32x1 .f32) (y : S32x1.Idx) :
    ∃ pc ∈ ([⟨rS32x1, p0⟩] : List (View.Piece (Elt F) S32x1 .f32)), y ∈ pc.1.set :=
  View.cover_of_tiled [⟨rS32x1, p0⟩] S32x1.size (by rfl) y

/-! ## The body's triple -/

set_option maxHeartbeats 4000000 in
/-- The kernel body on whole staging buffers, the inputs' at contents `xW` and the output's at anything, runs to a
    state holding the inputs' as they were and the output's at `out0_16` of the inputs'. -/
theorem sound_kernel (c : Dev nD) (E : Set ℕ) (i : grid0.Coords) (arg1 : Memref sig .tc .vmem S32x128x80 .f32) (harg1 : arg1.IsWhole) (arg2 : Memref sig .tc .vmem S32x128x80 .f32) (harg2 : arg2.IsWhole) (arg3 : Memref sig .tc .vmem S32x128x80 .f32) (harg3 : arg3.IsWhole) (arg4 : Memref sig .tc .vmem S32x128x80 .f32) (harg4 : arg4.IsWhole) (arg5 : Memref sig .tc .vmem S80x40 .f32) (harg5 : arg5.IsWhole) (arg6 : Memref sig .tc .vmem S1x40 .f32) (harg6 : arg6.IsWhole) (arg7 : Memref sig .tc .vmem S20x128 .f32) (harg7 : arg7.IsWhole) (arg8 : Memref sig .tc .vmem S1x128 .f32) (harg8 : arg8.IsWhole) (arg9 : Memref sig .tc .vmem S128x64 .f32) (harg9 : arg9.IsWhole) (arg10 : Memref sig .tc .vmem S1x64 .f32) (harg10 : arg10.IsWhole) (arg11 : Memref sig .tc .vmem S64x16 .f32) (harg11 : arg11.IsWhole) (arg12 : Memref sig .tc .vmem S1x16 .f32) (harg12 : arg12.IsWhole) (arg13 : Memref sig .tc .vmem S16x1 .f32) (harg13 : arg13.IsWhole) (arg14 : Memref sig .tc .vmem S1x1 .f32) (harg14 : arg14.IsWhole) (arg15 : Memref sig .tc .vmem S4x1 .f32) (harg15 : arg15.IsWhole) (arg16 : Memref sig .tc .vmem S1x1 .f32) (harg16 : arg16.IsWhole) (arg17 : Memref sig .tc .vmem S32x1 .f32) (harg17 : arg17.IsWhole)
    (x0 : Vec F S32x128x80 .f32) (x1 : Vec F S32x128x80 .f32) (x2 : Vec F S32x128x80 .f32) (x3 : Vec F S32x128x80 .f32) (x4 : Vec F S80x40 .f32) (x5 : Vec F S1x40 .f32) (x6 : Vec F S20x128 .f32) (x7 : Vec F S1x128 .f32) (x8 : Vec F S128x64 .f32) (x9 : Vec F S1x64 .f32) (x10 : Vec F S64x16 .f32) (x11 : Vec F S1x16 .f32) (x12 : Vec F S16x1 .f32) (x13 : Vec F S1x1 .f32) (x14 : Vec F S4x1 .f32) (x15 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ d, owns (c : Thread nD τ) arg17 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare (out0_16 x0 x1 x2 x3 x4 x5 x6 x7 x8 x9 x10 x11 x12 x13 x14 x15)) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0__fused_kernel_eq_skeleton]; unfold cc0__fused_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, Hk⟩
  subst hf0 hf1 hf2 hf3 hf4 hf5 hf6 hf7 hf8 hf9 hf10 hf11 hf12 hf13 hf14 hf15
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  iexists _; isplitr
  swap; · iexact H16
  ipureintro
  exact View.read_writes_eq_canon _ _ _ (cover0_16 _)

end Cert.Kernel.Hand

end
-- ==== Proof.K.Dats.lean ====
/- The proof data of the kernel region and its body obligation. After the body at a grid point every input window's
   staging buffer still holds its block and the output window's holds the kernel's value of those blocks; the region
   keeps nothing else between points. The four windows on the two-atoms-per-row input share that one array, each
   holding a quarter of it; every other input holds its array whole. -/
import proofs.«144514_g55645596287706_cont_9to1_m_505_7_alg».proof.Proof.K.Body

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The shares of the arrays -/

/-- The full share cut in four: the two halves of each half. -/
def quarter : Fin 4 → PosShare TreeShare
  | 0 => fullShare.left.left
  | 1 => fullShare.left.right
  | 2 => fullShare.right.left
  | 3 => fullShare.right.right

/-! ## The proof data -/

/-- Core `c`'s proof data: the arrays as the region finds them; after the body at point `t` each input's buffer at
    its block and the output's at the kernel's value of the sixteen blocks; between points only the scoped buffers
    that are no staging buffer (there is none); nothing owed; the shared input array a quarter per window. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨_ + 17, h⟩ => absurd h (Nat.not_lt.2 (Nat.le_add_left _ _))
  Φ _ := Pipeline.scopedRest spec0 c
  q w := match w with
    | ⟨0, _⟩ => quarter 0
    | ⟨1, _⟩ => quarter 1
    | ⟨2, _⟩ => quarter 2
    | ⟨3, _⟩ => quarter 3
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
    | ⟨11, _⟩ => fullShare
    | ⟨12, _⟩ => fullShare
    | ⟨13, _⟩ => fullShare
    | ⟨14, _⟩ => fullShare
    | ⟨15, _⟩ => fullShare
    | ⟨16, _⟩ => fullShare
    | ⟨_ + 17, h⟩ => absurd h (Nat.not_lt.2 (Nat.le_add_left _ _))
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t))

/-- The body at any point: the inputs' buffers hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply (sound_kernel c Set.univ (grid0.coords t) _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  iintro ⟨H0, H1, H2, H3, H4, H5, H6, H7, H8, H9, H10, H11, H12, H13, H14, H15, H16⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.K.Run.lean ====
/- The kernel region's run. The launch hands the region every array behind a window whole; the two-atoms-per-row
   input stands behind four input windows, so its full share is halved twice and each window holds a quarter, which
   is enough to read it. Every other array is held whole by its one window. From the body obligation the region
   then runs to its end on every core, every window's array at what the write-backs of the proof data leave in it and
   every other unscoped buffer as the region found it; read at the thirteen argument arrays, none of which the host
   operations or the region write, that is the frame, with the output array named. -/
import proofs.«144514_g55645596287706_cont_9to1_m_505_7_alg».proof.Proof.K.Dats

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The shares -/

theorem share0_0 (c : Dev nD) : (dats m 0 c).share 0 = quarter 0 := by unfold Dat.share; rw [if_neg (by decide)]; dsimp only [dats]
theorem share0_1 (c : Dev nD) : (dats m 0 c).share 1 = quarter 1 := by unfold Dat.share; rw [if_neg (by decide)]; dsimp only [dats]
theorem share0_2 (c : Dev nD) : (dats m 0 c).share 2 = quarter 2 := by unfold Dat.share; rw [if_neg (by decide)]; dsimp only [dats]
theorem share0_3 (c : Dev nD) : (dats m 0 c).share 3 = quarter 3 := by unfold Dat.share; rw [if_neg (by decide)]; dsimp only [dats]
theorem share0_4 (c : Dev nD) : (dats m 0 c).share 4 = fullShare := by unfold Dat.share; rw [if_neg (by decide)]; dsimp only [dats]
theorem share0_5 (c : Dev nD) : (dats m 0 c).share 5 = fullShare := by unfold Dat.share; rw [if_neg (by decide)]; dsimp only [dats]
theorem share0_6 (c : Dev nD) : (dats m 0 c).share 6 = fullShare := by unfold Dat.share; rw [if_neg (by decide)]; dsimp only [dats]
theorem share0_7 (c : Dev nD) : (dats m 0 c).share 7 = fullShare := by unfold Dat.share; rw [if_neg (by decide)]; dsimp only [dats]
theorem share0_8 (c : Dev nD) : (dats m 0 c).share 8 = fullShare := by unfold Dat.share; rw [if_neg (by decide)]; dsimp only [dats]
theorem share0_9 (c : Dev nD) : (dats m 0 c).share 9 = fullShare := by unfold Dat.share; rw [if_neg (by decide)]; dsimp only [dats]
theorem share0_10 (c : Dev nD) : (dats m 0 c).share 10 = fullShare := by unfold Dat.share; rw [if_neg (by decide)]; dsimp only [dats]
theorem share0_11 (c : Dev nD) : (dats m 0 c).share 11 = fullShare := by unfold Dat.share; rw [if_neg (by decide)]; dsimp only [dats]
theorem share0_12 (c : Dev nD) : (dats m 0 c).share 12 = fullShare := by unfold Dat.share; rw [if_neg (by decide)]; dsimp only [dats]
theorem share0_13 (c : Dev nD) : (dats m 0 c).share 13 = fullShare := by unfold Dat.share; rw [if_neg (by decide)]; dsimp only [dats]
theorem share0_14 (c : Dev nD) : (dats m 0 c).share 14 = fullShare := by unfold Dat.share; rw [if_neg (by decide)]; dsimp only [dats]
theorem share0_15 (c : Dev nD) : (dats m 0 c).share 15 = fullShare := by unfold Dat.share; rw [if_neg (by decide)]; dsimp only [dats]
theorem share0_16 (c : Dev nD) : (dats m 0 c).share 16 = fullShare := by unfold Dat.share; rw [if_pos (by decide)]

/-- Each window's array, by name. -/
theorem arrRef0_0 : Pipeline.arrRef spec0 0 = main_v8 := rfl
theorem arrRef0_1 : Pipeline.arrRef spec0 1 = main_v8 := rfl
theorem arrRef0_2 : Pipeline.arrRef spec0 2 = main_v8 := rfl
theorem arrRef0_3 : Pipeline.arrRef spec0 3 = main_v8 := rfl
theorem arrRef0_4 : Pipeline.arrRef spec0 4 = main_v5 := rfl
theorem arrRef0_5 : Pipeline.arrRef spec0 5 = main_v7 := rfl
theorem arrRef0_6 : Pipeline.arrRef spec0 6 = main_arg3 := rfl
theorem arrRef0_7 : Pipeline.arrRef spec0 7 = main_v14 := rfl
theorem arrRef0_8 : Pipeline.arrRef spec0 8 = main_arg5 := rfl
theorem arrRef0_9 : Pipeline.arrRef spec0 9 = main_v15 := rfl
theorem arrRef0_10 : Pipeline.arrRef spec0 10 = main_arg7 := rfl
theorem arrRef0_11 : Pipeline.arrRef spec0 11 = main_v16 := rfl
theorem arrRef0_12 : Pipeline.arrRef spec0 12 = main_arg9 := rfl
theorem arrRef0_13 : Pipeline.arrRef spec0 13 = main_v17 := rfl
theorem arrRef0_14 : Pipeline.arrRef spec0 14 = main_arg11 := rfl
theorem arrRef0_15 : Pipeline.arrRef spec0 15 = main_v18 := rfl
theorem arrRef0_16 : Pipeline.arrRef spec0 16 = main_v19 := rfl

/-- Before the first point an array holds its entry contents. -/
theorem arrAt_zero (c : Dev nD) (w : Fin cfg0.W) : (dats m 0 c).arrAt w 0 = V m c (Pipeline.arrRef spec0 w) := by
  show (dats m 0 c).A w = _
  exact A_eq m c w

/-- A whole array's points-to over its view's index set is the buffer's points-to. -/
theorem arr_pt (c : Dev nD) (w : Fin cfg0.W) (q : PosShare TreeShare) (f : Buf (Elt F) ((cfg0.win w).arr.view.loc (c.tc : Thread nD τ))) :
    ((cfg0.win w).arr.view.loc (c.tc : Thread nD τ) ↦[(cfg0.win w).arr.view.set]{q} f : sProp 𝕄)
      = (((c.tc : Thread nD τ).loc (Pipeline.arrRef spec0 w)) ↦{q} f) := by
  rw [(arr_whole0 w).set_eq_univ]

/-- The buffers behind the windows' arrays, whole, make the proof data's arrays at entry: the shared input array split
    into its four quarters, one per window on it. -/
theorem hsplit (c : Dev nD) :
    (Pipeline.arrBufs spec0 c (V m c) : sProp 𝕄) ⊢ (dats m 0 c).arrays ((dats m 0 c).arrAt · 0) := by
  unfold Pipeline.arrBufs Dat.arrays
  have eL : (bigSep (Finset.univ.image (Pipeline.arrRef spec0)) fun b => (((c.tc : Thread nD τ).loc b) ↦{fullShare} V m c b : sProp 𝕄))
      = iprop((((c.tc : Thread nD τ).loc main_v8) ↦{fullShare} V m c main_v8) ∗ (((c.tc : Thread nD τ).loc main_v5) ↦{fullShare} V m c main_v5) ∗ (((c.tc : Thread nD τ).loc main_v7) ↦{fullShare} V m c main_v7) ∗ (((c.tc : Thread nD τ).loc main_arg3) ↦{fullShare} V m c main_arg3) ∗ (((c.tc : Thread nD τ).loc main_v14) ↦{fullShare} V m c main_v14) ∗ (((c.tc : Thread nD τ).loc main_arg5) ↦{fullShare} V m c main_arg5) ∗ (((c.tc : Thread nD τ).loc main_v15) ↦{fullShare} V m c main_v15) ∗ (((c.tc : Thread nD τ).loc main_arg7) ↦{fullShare} V m c main_arg7) ∗ (((c.tc : Thread nD τ).loc main_v16) ↦{fullShare} V m c main_v16) ∗ (((c.tc : Thread nD τ).loc main_arg9) ↦{fullShare} V m c main_arg9) ∗ (((c.tc : Thread nD τ).loc main_v17) ↦{fullShare} V m c main_v17) ∗ (((c.tc : Thread nD τ).loc main_arg11) ↦{fullShare} V m c main_arg11) ∗ (((c.tc : Thread nD τ).loc main_v18) ↦{fullShare} V m c main_v18) ∗ (((c.tc : Thread nD τ).loc main_v19) ↦{fullShare} V m c main_v19)) :=
    bigSep_eq_bigSepL_of_eq [main_v8, main_v5, main_v7, main_arg3, main_v14, main_arg5, main_v15, main_arg7, main_v16, main_arg9, main_v17, main_arg11, main_v18, main_v19] (by decide) (by decide) _
  rw [eL, bigSep_W0]
  simp only [arr_pt, arrAt_zero, quarter, View.set_whole,
    arrRef0_0, arrRef0_1, arrRef0_2, arrRef0_3, arrRef0_4, arrRef0_5, arrRef0_6, arrRef0_7, arrRef0_8, arrRef0_9, arrRef0_10, arrRef0_11, arrRef0_12, arrRef0_13, arrRef0_14, arrRef0_15, arrRef0_16,
    share0_0, share0_1, share0_2, share0_3, share0_4, share0_5, share0_6, share0_7, share0_8, share0_9, share0_10, share0_11, share0_12, share0_13, share0_14, share0_15, share0_16]
  iintro ⟨H8, H5, H7, Ha3, H14, Ha5, H15, Ha7, H16, Ha9, H17, Ha11, H18, H19⟩
  ihave H8 := (pointsTo_share (PosShare.mem_left_op_right fullShare)).1 $$ H8
  icases H8 with ⟨HL, HR⟩
  ihave HL := (pointsTo_share (PosShare.mem_left_op_right fullShare.left)).1 $$ HL
  ihave HR := (pointsTo_share (PosShare.mem_left_op_right fullShare.right)).1 $$ HR
  icases HL with ⟨HLL, HLR⟩
  icases HR with ⟨HRL, HRR⟩
  isplitl [HLL]; · iexact HLL
  isplitl [HLR]; · iexact HLR
  isplitl [HRL]; · iexact HRL
  isplitl [HRR]; · iexact HRR
  isplitl [H5]; · iexact H5
  isplitl [H7]; · iexact H7
  isplitl [Ha3]; · iexact Ha3
  isplitl [H14]; · iexact H14
  isplitl [Ha5]; · iexact Ha5
  isplitl [H15]; · iexact H15
  isplitl [Ha7]; · iexact Ha7
  isplitl [H16]; · iexact H16
  isplitl [Ha9]; · iexact Ha9
  isplitl [H17]; · iexact H17
  isplitl [Ha11]; · iexact Ha11
  isplitl [H18]; · iexact H18
  iexact H19

/-! ## The run -/

/-- What the region's run ends in: every window's array at what the proof data's write-backs leave, every unscoped
    buffer that is no window's array as the region found it. -/
def RunPost (r : PUnit × MemSt nD τ sig (Elt F)) : Prop :=
  ∀ c : Dev nD, (∀ w, r.2.mem (((cfg0).spec w).arr.view.loc (c.tc : Thread nD τ)) = (dats m 0 c).arrAt w cfg0.N)
    ∧ ∀ b ∈ Pipeline.restRefs sig spec0, r.2.mem ((c.tc : Thread nD τ).loc b) = V m c b

set_option backward.isDefEq.respectTransparency.types false in
/-- From any memory with zero counters, every weakly fair execution of @main on the TensorCores terminates in `RunPost`. -/
theorem run_main : θ_run defs (onTc (τ := τ) (main (F := F))) (s₀ m ρ) (RunPost m) := by
  classical
  exact Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m) (hmain := hmain m Variants.none) (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H; isplitr; · iempintro
      iexact H)
    (hin := fun c => by
      rw [show (dats m 0 c).Φ 0 = Pipeline.scopedRest spec0 c from rfl]
      iintro ⟨-, H⟩; iexact H)
    (hout := fun c => by
      rw [show (dats m 0 c).Φ (Fin.last cfg0.N) = Pipeline.scopedRest spec0 c from rfl]
      iintro H; isplitr; · iempintro
      iexact H)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (Q := RunPost m) (hQ := fun s h => by unfold RunPost; exact h)

/-! ## The frame, with the output array named -/

/-- The frame claim's post with one more conjunct in front: the result array ends at what the sixteen write-backs of
    the output window leave in it. -/
theorem run_named : θ_run defs (onTc (τ := τ) (main (F := F))) ⟨m, fun _ => 0, ρ⟩ (fun r => ∀ c : Dev nD,
      r.2.mem ((c.tc : Thread nD τ).loc main_v19) = (dats m 0 c).arrAt 16 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨(h c).1 16,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 6).trans (((dats m 0 c).arrAt_in 6 rfl _).trans ((A_eq m c 6).trans (V_main_arg3 m c))),
      ((h c).2 main_arg4 (Pipeline.mem_restRefs_of main_arg4 (by decide) (by decide))).trans (V_main_arg4 m c),
      ((h c).1 8).trans (((dats m 0 c).arrAt_in 8 rfl _).trans ((A_eq m c 8).trans (V_main_arg5 m c))),
      ((h c).2 main_arg6 (Pipeline.mem_restRefs_of main_arg6 (by decide) (by decide))).trans (V_main_arg6 m c),
      ((h c).1 10).trans (((dats m 0 c).arrAt_in 10 rfl _).trans ((A_eq m c 10).trans (V_main_arg7 m c))),
      ((h c).2 main_arg8 (Pipeline.mem_restRefs_of main_arg8 (by decide) (by decide))).trans (V_main_arg8 m c),
      ((h c).1 12).trans (((dats m 0 c).arrAt_in 12 rfl _).trans ((A_eq m c 12).trans (V_main_arg9 m c))),
      ((h c).2 main_arg10 (Pipeline.mem_restRefs_of main_arg10 (by decide) (by decide))).trans (V_main_arg10 m c),
      ((h c).1 14).trans (((dats m 0 c).arrAt_in 14 rfl _).trans ((A_eq m c 14).trans (V_main_arg11 m c))),
      ((h c).2 main_arg12 (Pipeline.mem_restRefs_of main_arg12 (by decide) (by decide))).trans (V_main_arg12 m c)⟩) (run_main m ρ)

/-- The frame. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => (h c).2) (run_named m ρ)

end Cert.Kernel.Hand

end
-- ==== Proof.KI.Base.lean ====
/- The region of the fused kernel as @main reaches it: what every TensorCore buffer holds when the one kernel
   region is entered (the host operations before it have built the block-diagonal weight matrix, the doubled
   bias row and the two-atoms-per-row view of the input), that those operations leave the thirteen argument
   arrays alone, and what each input window's staging buffer holds at a grid point: the block of its array
   that the window's index map names there. -/
import proofs.«144514_g55645596287706_cont_9to1_m_505_7_alg».proof.Proof.Gen.KernelIdeal.Launch
import proofs.«144514_g55645596287706_cont_9to1_m_505_7_alg».proof.Proof.Gen.KernelIdeal.Skeleton
import proofs.«144514_g55645596287706_cont_9to1_m_505_7_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffers when the region is entered: the launch contents after the host operations. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The host operations before the region never write argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The host operations before the region never write argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The host operations before the region never write argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The host operations before the region never write argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The host operations before the region never write argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The host operations before the region never write argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The host operations before the region never write argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The host operations before the region never write argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The host operations before the region never write argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The host operations before the region never write argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The host operations before the region never write argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The host operations before the region never write argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The host operations before the region never write argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block of the region-entry array at every point, fetched there or
    kept from the point before (its block index has not moved). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block of the region-entry array at every point, fetched there or
    kept from the point before (its block index has not moved). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block of the region-entry array at every point, fetched there or
    kept from the point before (its block index has not moved). -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block of the region-entry array at every point, fetched there or
    kept from the point before (its block index has not moved). -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block of the region-entry array at every point, fetched there or
    kept from the point before (its block index has not moved). -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block of the region-entry array at every point, fetched there or
    kept from the point before (its block index has not moved). -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's staging buffer holds its block of the region-entry array at every point, fetched there or
    kept from the point before (its block index has not moved). -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's staging buffer holds its block of the region-entry array at every point, fetched there or
    kept from the point before (its block index has not moved). -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's staging buffer holds its block of the region-entry array at every point, fetched there or
    kept from the point before (its block index has not moved). -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's staging buffer holds its block of the region-entry array at every point, fetched there or
    kept from the point before (its block index has not moved). -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's staging buffer holds its block of the region-entry array at every point, fetched there or
    kept from the point before (its block index has not moved). -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's staging buffer holds its block of the region-entry array at every point, fetched there or
    kept from the point before (its block index has not moved). -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's staging buffer holds its block of the region-entry array at every point, fetched there or
    kept from the point before (its block index has not moved). -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's staging buffer holds its block of the region-entry array at every point, fetched there or
    kept from the point before (its block index has not moved). -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's staging buffer holds its block of the region-entry array at every point, fetched there or
    kept from the point before (its block index has not moved). -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- Input window 15's staging buffer holds its block of the region-entry array at every point, fetched there or
    kept from the point before (its block index has not moved). -/
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)

end Cert.KernelIdeal.Hand

end
-- ==== Proof.KI.Body.lean ====
/- What one grid point of the fused kernel leaves behind. The body reads its sixteen input blocks whole (four blocks
   of the two-atoms-per-row input, the block-diagonal rule weights and their bias row, and the dense head's five
   weight matrices and bias rows), computes, and overwrites the whole 32-row output block once; so the output
   buffer afterwards is one pure function of the inputs: the per-pair hidden features, rectified and summed over the
   512 pair-rows of each of the 32 graphs, folded from 40 to 20 channels, then the dense head with the three physics
   columns of the first atom appended before the last layer. -/
import proofs.«144514_g55645596287706_cont_9to1_m_505_7_alg».proof.Proof.KI.Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses: every load and the one store cover a whole buffer -/

abbrev rS32x128x80 : Rect S32x128x80 := Rect.unit (s := S32x128x80) ![0, 0, 0] S32x128x80.size inb_S32x128x80_S32x128x80_0_0_0
abbrev rS80x40 : Rect S80x40 := Rect.unit (s := S80x40) ![0, 0] S80x40.size inb_S80x40_S80x40_0_0
abbrev rS1x40 : Rect S1x40 := Rect.unit (s := S1x40) ![0, 0] S1x40.size inb_S1x40_S1x40_0_0
abbrev rS20x128 : Rect S20x128 := Rect.unit (s := S20x128) ![0, 0] S20x128.size inb_S20x128_S20x128_0_0
abbrev rS1x128 : Rect S1x128 := Rect.unit (s := S1x128) ![0, 0] S1x128.size inb_S1x128_S1x128_0_0
abbrev rS128x64 : Rect S128x64 := Rect.unit (s := S128x64) ![0, 0] S128x64.size inb_S128x64_S128x64_0_0
abbrev rS1x64 : Rect S1x64 := Rect.unit (s := S1x64) ![0, 0] S1x64.size inb_S1x64_S1x64_0_0
abbrev rS64x16 : Rect S64x16 := Rect.unit (s := S64x16) ![0, 0] S64x16.size inb_S64x16_S64x16_0_0
abbrev rS1x16 : Rect S1x16 := Rect.unit (s := S1x16) ![0, 0] S1x16.size inb_S1x16_S1x16_0_0
abbrev rS16x1 : Rect S16x1 := Rect.unit (s := S16x1) ![0, 0] S16x1.size inb_S16x1_S16x1_0_0
abbrev rS1x1 : Rect S1x1 := Rect.unit (s := S1x1) ![0, 0] S1x1.size inb_S1x1_S1x1_0_0
abbrev rS4x1 : Rect S4x1 := Rect.unit (s := S4x1) ![0, 0] S4x1.size inb_S4x1_S4x1_0_0
abbrev rS32x1 : Rect S32x1 := Rect.unit (s := S32x1) ![0, 0] S32x1.size inb_S32x1_S32x1_0_0

/-! ## What the body leaves in the output window's buffer -/

/-- The output block after the body, from the input blocks: its one store, of the kernel's value. -/
def out0_16 (x0 : Vec F S32x128x80 .f32) (x1 : Vec F S32x128x80 .f32) (x2 : Vec F S32x128x80 .f32) (x3 : Vec F S32x128x80 .f32) (x4 : Vec F S80x40 .f32) (x5 : Vec F S1x40 .f32) (x6 : Vec F S20x128 .f32) (x7 : Vec F S1x128 .f32) (x8 : Vec F S128x64 .f32) (x9 : Vec F S1x64 .f32) (x10 : Vec F S64x16 .f32) (x11 : Vec F S1x16 .f32) (x12 : Vec F S16x1 .f32) (x13 : Vec F S1x1 .f32) (x14 : Vec F S4x1 .f32) (x15 : Vec F S1x1 .f32) : Vec F S32x1 .f32 :=
  View.canon [⟨rS32x1, k0_pay1 (k0_pay5 (View.ld x0 rS32x128x80)) (k0_pay6 (k0_pay2 (View.ld x0 rS32x128x80) (View.ld x4 rS80x40) (View.ld x5 rS1x40) (View.ld x1 rS32x128x80) (View.ld x4 rS80x40) (View.ld x5 rS1x40)) (k0_pay3 (View.ld x2 rS32x128x80)) (k0_pay4 (View.ld x4 rS80x40)) (View.ld x5 rS1x40) (View.ld x3 rS32x128x80) (View.ld x4 rS80x40) (View.ld x5 rS1x40) (View.ld x6 rS20x128) (View.ld x7 rS1x128)) (Scalar.ofBits .f32 0x00000000#32) (View.ld x8 rS128x64) (View.ld x9 rS1x64) (View.ld x10 rS64x16) (View.ld x11 rS1x16) (View.ld x12 rS16x1) (View.ld x13 rS1x1) (View.ld x14 rS4x1) (View.ld x15 rS1x1)⟩]

/-- The store covers the buffer. -/
theorem cover0_16 (p0 : Vec F S32x1 .f32) (y : S32x1.Idx) :
    ∃ pc ∈ ([⟨rS32x1, p0⟩] : List (View.Piece (Elt F) S32x1 .f32)), y ∈ pc.1.set :=
  View.cover_of_tiled [⟨rS32x1, p0⟩] S32x1.size (by rfl) y

/-! ## The body's triple -/

set_option maxHeartbeats 4000000 in
/-- The kernel body on whole staging buffers, the inputs' at contents `xW` and the output's at anything, runs to a
    state holding the inputs' as they were and the output's at `out0_16` of the inputs'. -/
theorem sound_kernel (c : Dev nD) (E : Set ℕ) (i : grid0.Coords) (arg1 : Memref sig .tc .vmem S32x128x80 .f32) (harg1 : arg1.IsWhole) (arg2 : Memref sig .tc .vmem S32x128x80 .f32) (harg2 : arg2.IsWhole) (arg3 : Memref sig .tc .vmem S32x128x80 .f32) (harg3 : arg3.IsWhole) (arg4 : Memref sig .tc .vmem S32x128x80 .f32) (harg4 : arg4.IsWhole) (arg5 : Memref sig .tc .vmem S80x40 .f32) (harg5 : arg5.IsWhole) (arg6 : Memref sig .tc .vmem S1x40 .f32) (harg6 : arg6.IsWhole) (arg7 : Memref sig .tc .vmem S20x128 .f32) (harg7 : arg7.IsWhole) (arg8 : Memref sig .tc .vmem S1x128 .f32) (harg8 : arg8.IsWhole) (arg9 : Memref sig .tc .vmem S128x64 .f32) (harg9 : arg9.IsWhole) (arg10 : Memref sig .tc .vmem S1x64 .f32) (harg10 : arg10.IsWhole) (arg11 : Memref sig .tc .vmem S64x16 .f32) (harg11 : arg11.IsWhole) (arg12 : Memref sig .tc .vmem S1x16 .f32) (harg12 : arg12.IsWhole) (arg13 : Memref sig .tc .vmem S16x1 .f32) (harg13 : arg13.IsWhole) (arg14 : Memref sig .tc .vmem S1x1 .f32) (harg14 : arg14.IsWhole) (arg15 : Memref sig .tc .vmem S4x1 .f32) (harg15 : arg15.IsWhole) (arg16 : Memref sig .tc .vmem S1x1 .f32) (harg16 : arg16.IsWhole) (arg17 : Memref sig .tc .vmem S32x1 .f32) (harg17 : arg17.IsWhole)
    (x0 : Vec F S32x128x80 .f32) (x1 : Vec F S32x128x80 .f32) (x2 : Vec F S32x128x80 .f32) (x3 : Vec F S32x128x80 .f32) (x4 : Vec F S80x40 .f32) (x5 : Vec F S1x40 .f32) (x6 : Vec F S20x128 .f32) (x7 : Vec F S1x128 .f32) (x8 : Vec F S128x64 .f32) (x9 : Vec F S1x64 .f32) (x10 : Vec F S64x16 .f32) (x11 : Vec F S1x16 .f32) (x12 : Vec F S16x1 .f32) (x13 : Vec F S1x1 .f32) (x14 : Vec F S4x1 .f32) (x15 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ d, owns (c : Thread nD τ) arg17 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare (out0_16 x0 x1 x2 x3 x4 x5 x6 x7 x8 x9 x10 x11 x12 x13 x14 x15)) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0__fused_kernel_eq_skeleton]; unfold cc0__fused_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, Hk⟩
  subst hf0 hf1 hf2 hf3 hf4 hf5 hf6 hf7 hf8 hf9 hf10 hf11 hf12 hf13 hf14 hf15
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  iexists _; isplitr
  swap; · iexact H16
  ipureintro
  exact View.read_writes_eq_canon _ _ _ (cover0_16 _)

end Cert.KernelIdeal.Hand

end
-- ==== Proof.KI.Dats.lean ====
/- The proof data of the kernel region and its body obligation. After the body at a grid point every input window's
   staging buffer still holds its block and the output window's holds the kernel's value of those blocks; the region
   keeps nothing else between points. The four windows on the two-atoms-per-row input share that one array, each
   holding a quarter of it; every other input holds its array whole. -/
import proofs.«144514_g55645596287706_cont_9to1_m_505_7_alg».proof.Proof.KI.Body

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The shares of the arrays -/

/-- The full share cut in four: the two halves of each half. -/
def quarter : Fin 4 → PosShare TreeShare
  | 0 => fullShare.left.left
  | 1 => fullShare.left.right
  | 2 => fullShare.right.left
  | 3 => fullShare.right.right

/-! ## The proof data -/

/-- Core `c`'s proof data: the arrays as the region finds them; after the body at point `t` each input's buffer at
    its block and the output's at the kernel's value of the sixteen blocks; between points only the scoped buffers
    that are no staging buffer (there is none); nothing owed; the shared input array a quarter per window. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨_ + 17, h⟩ => absurd h (Nat.not_lt.2 (Nat.le_add_left _ _))
  Φ _ := Pipeline.scopedRest spec0 c
  q w := match w with
    | ⟨0, _⟩ => quarter 0
    | ⟨1, _⟩ => quarter 1
    | ⟨2, _⟩ => quarter 2
    | ⟨3, _⟩ => quarter 3
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
    | ⟨11, _⟩ => fullShare
    | ⟨12, _⟩ => fullShare
    | ⟨13, _⟩ => fullShare
    | ⟨14, _⟩ => fullShare
    | ⟨15, _⟩ => fullShare
    | ⟨16, _⟩ => fullShare
    | ⟨_ + 17, h⟩ => absurd h (Nat.not_lt.2 (Nat.le_add_left _ _))
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t))

/-- The body at any point: the inputs' buffers hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply (sound_kernel c Set.univ (grid0.coords t) _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  iintro ⟨H0, H1, H2, H3, H4, H5, H6, H7, H8, H9, H10, H11, H12, H13, H14, H15, H16⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KI.Run.lean ====
/- The kernel region's run. The launch hands the region every array behind a window whole; the two-atoms-per-row
   input stands behind four input windows, so its full share is halved twice and each window holds a quarter, which
   is enough to read it. Every other array is held whole by its one window. From the body obligation the region
   then runs to its end on every core, every window's array at what the write-backs of the proof data leave in it and
   every other unscoped buffer as the region found it; read at the thirteen argument arrays, none of which the host
   operations or the region write, that is the frame, with the output array named. -/
import proofs.«144514_g55645596287706_cont_9to1_m_505_7_alg».proof.Proof.KI.Dats

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The shares -/

theorem share0_0 (c : Dev nD) : (dats m 0 c).share 0 = quarter 0 := by unfold Dat.share; rw [if_neg (by decide)]; dsimp only [dats]
theorem share0_1 (c : Dev nD) : (dats m 0 c).share 1 = quarter 1 := by unfold Dat.share; rw [if_neg (by decide)]; dsimp only [dats]
theorem share0_2 (c : Dev nD) : (dats m 0 c).share 2 = quarter 2 := by unfold Dat.share; rw [if_neg (by decide)]; dsimp only [dats]
theorem share0_3 (c : Dev nD) : (dats m 0 c).share 3 = quarter 3 := by unfold Dat.share; rw [if_neg (by decide)]; dsimp only [dats]
theorem share0_4 (c : Dev nD) : (dats m 0 c).share 4 = fullShare := by unfold Dat.share; rw [if_neg (by decide)]; dsimp only [dats]
theorem share0_5 (c : Dev nD) : (dats m 0 c).share 5 = fullShare := by unfold Dat.share; rw [if_neg (by decide)]; dsimp only [dats]
theorem share0_6 (c : Dev nD) : (dats m 0 c).share 6 = fullShare := by unfold Dat.share; rw [if_neg (by decide)]; dsimp only [dats]
theorem share0_7 (c : Dev nD) : (dats m 0 c).share 7 = fullShare := by unfold Dat.share; rw [if_neg (by decide)]; dsimp only [dats]
theorem share0_8 (c : Dev nD) : (dats m 0 c).share 8 = fullShare := by unfold Dat.share; rw [if_neg (by decide)]; dsimp only [dats]
theorem share0_9 (c : Dev nD) : (dats m 0 c).share 9 = fullShare := by unfold Dat.share; rw [if_neg (by decide)]; dsimp only [dats]
theorem share0_10 (c : Dev nD) : (dats m 0 c).share 10 = fullShare := by unfold Dat.share; rw [if_neg (by decide)]; dsimp only [dats]
theorem share0_11 (c : Dev nD) : (dats m 0 c).share 11 = fullShare := by unfold Dat.share; rw [if_neg (by decide)]; dsimp only [dats]
theorem share0_12 (c : Dev nD) : (dats m 0 c).share 12 = fullShare := by unfold Dat.share; rw [if_neg (by decide)]; dsimp only [dats]
theorem share0_13 (c : Dev nD) : (dats m 0 c).share 13 = fullShare := by unfold Dat.share; rw [if_neg (by decide)]; dsimp only [dats]
theorem share0_14 (c : Dev nD) : (dats m 0 c).share 14 = fullShare := by unfold Dat.share; rw [if_neg (by decide)]; dsimp only [dats]
theorem share0_15 (c : Dev nD) : (dats m 0 c).share 15 = fullShare := by unfold Dat.share; rw [if_neg (by decide)]; dsimp only [dats]
theorem share0_16 (c : Dev nD) : (dats m 0 c).share 16 = fullShare := by unfold Dat.share; rw [if_pos (by decide)]

/-- Each window's array, by name. -/
theorem arrRef0_0 : Pipeline.arrRef spec0 0 = main_v8 := rfl
theorem arrRef0_1 : Pipeline.arrRef spec0 1 = main_v8 := rfl
theorem arrRef0_2 : Pipeline.arrRef spec0 2 = main_v8 := rfl
theorem arrRef0_3 : Pipeline.arrRef spec0 3 = main_v8 := rfl
theorem arrRef0_4 : Pipeline.arrRef spec0 4 = main_v5 := rfl
theorem arrRef0_5 : Pipeline.arrRef spec0 5 = main_v7 := rfl
theorem arrRef0_6 : Pipeline.arrRef spec0 6 = main_arg3 := rfl
theorem arrRef0_7 : Pipeline.arrRef spec0 7 = main_v14 := rfl
theorem arrRef0_8 : Pipeline.arrRef spec0 8 = main_arg5 := rfl
theorem arrRef0_9 : Pipeline.arrRef spec0 9 = main_v15 := rfl
theorem arrRef0_10 : Pipeline.arrRef spec0 10 = main_arg7 := rfl
theorem arrRef0_11 : Pipeline.arrRef spec0 11 = main_v16 := rfl
theorem arrRef0_12 : Pipeline.arrRef spec0 12 = main_arg9 := rfl
theorem arrRef0_13 : Pipeline.arrRef spec0 13 = main_v17 := rfl
theorem arrRef0_14 : Pipeline.arrRef spec0 14 = main_arg11 := rfl
theorem arrRef0_15 : Pipeline.arrRef spec0 15 = main_v18 := rfl
theorem arrRef0_16 : Pipeline.arrRef spec0 16 = main_v19 := rfl

/-- Before the first point an array holds its entry contents. -/
theorem arrAt_zero (c : Dev nD) (w : Fin cfg0.W) : (dats m 0 c).arrAt w 0 = V m c (Pipeline.arrRef spec0 w) := by
  show (dats m 0 c).A w = _
  exact A_eq m c w

/-- A whole array's points-to over its view's index set is the buffer's points-to. -/
theorem arr_pt (c : Dev nD) (w : Fin cfg0.W) (q : PosShare TreeShare) (f : Buf (Elt F) ((cfg0.win w).arr.view.loc (c.tc : Thread nD τ))) :
    ((cfg0.win w).arr.view.loc (c.tc : Thread nD τ) ↦[(cfg0.win w).arr.view.set]{q} f : sProp 𝕄)
      = (((c.tc : Thread nD τ).loc (Pipeline.arrRef spec0 w)) ↦{q} f) := by
  rw [(arr_whole0 w).set_eq_univ]

/-- The buffers behind the windows' arrays, whole, make the proof data's arrays at entry: the shared input array split
    into its four quarters, one per window on it. -/
theorem hsplit (c : Dev nD) :
    (Pipeline.arrBufs spec0 c (V m c) : sProp 𝕄) ⊢ (dats m 0 c).arrays ((dats m 0 c).arrAt · 0) := by
  unfold Pipeline.arrBufs Dat.arrays
  have eL : (bigSep (Finset.univ.image (Pipeline.arrRef spec0)) fun b => (((c.tc : Thread nD τ).loc b) ↦{fullShare} V m c b : sProp 𝕄))
      = iprop((((c.tc : Thread nD τ).loc main_v8) ↦{fullShare} V m c main_v8) ∗ (((c.tc : Thread nD τ).loc main_v5) ↦{fullShare} V m c main_v5) ∗ (((c.tc : Thread nD τ).loc main_v7) ↦{fullShare} V m c main_v7) ∗ (((c.tc : Thread nD τ).loc main_arg3) ↦{fullShare} V m c main_arg3) ∗ (((c.tc : Thread nD τ).loc main_v14) ↦{fullShare} V m c main_v14) ∗ (((c.tc : Thread nD τ).loc main_arg5) ↦{fullShare} V m c main_arg5) ∗ (((c.tc : Thread nD τ).loc main_v15) ↦{fullShare} V m c main_v15) ∗ (((c.tc : Thread nD τ).loc main_arg7) ↦{fullShare} V m c main_arg7) ∗ (((c.tc : Thread nD τ).loc main_v16) ↦{fullShare} V m c main_v16) ∗ (((c.tc : Thread nD τ).loc main_arg9) ↦{fullShare} V m c main_arg9) ∗ (((c.tc : Thread nD τ).loc main_v17) ↦{fullShare} V m c main_v17) ∗ (((c.tc : Thread nD τ).loc main_arg11) ↦{fullShare} V m c main_arg11) ∗ (((c.tc : Thread nD τ).loc main_v18) ↦{fullShare} V m c main_v18) ∗ (((c.tc : Thread nD τ).loc main_v19) ↦{fullShare} V m c main_v19)) :=
    bigSep_eq_bigSepL_of_eq [main_v8, main_v5, main_v7, main_arg3, main_v14, main_arg5, main_v15, main_arg7, main_v16, main_arg9, main_v17, main_arg11, main_v18, main_v19] (by decide) (by decide) _
  rw [eL, bigSep_W0]
  simp only [arr_pt, arrAt_zero, quarter, View.set_whole,
    arrRef0_0, arrRef0_1, arrRef0_2, arrRef0_3, arrRef0_4, arrRef0_5, arrRef0_6, arrRef0_7, arrRef0_8, arrRef0_9, arrRef0_10, arrRef0_11, arrRef0_12, arrRef0_13, arrRef0_14, arrRef0_15, arrRef0_16,
    share0_0, share0_1, share0_2, share0_3, share0_4, share0_5, share0_6, share0_7, share0_8, share0_9, share0_10, share0_11, share0_12, share0_13, share0_14, share0_15, share0_16]
  iintro ⟨H8, H5, H7, Ha3, H14, Ha5, H15, Ha7, H16, Ha9, H17, Ha11, H18, H19⟩
  ihave H8 := (pointsTo_share (PosShare.mem_left_op_right fullShare)).1 $$ H8
  icases H8 with ⟨HL, HR⟩
  ihave HL := (pointsTo_share (PosShare.mem_left_op_right fullShare.left)).1 $$ HL
  ihave HR := (pointsTo_share (PosShare.mem_left_op_right fullShare.right)).1 $$ HR
  icases HL with ⟨HLL, HLR⟩
  icases HR with ⟨HRL, HRR⟩
  isplitl [HLL]; · iexact HLL
  isplitl [HLR]; · iexact HLR
  isplitl [HRL]; · iexact HRL
  isplitl [HRR]; · iexact HRR
  isplitl [H5]; · iexact H5
  isplitl [H7]; · iexact H7
  isplitl [Ha3]; · iexact Ha3
  isplitl [H14]; · iexact H14
  isplitl [Ha5]; · iexact Ha5
  isplitl [H15]; · iexact H15
  isplitl [Ha7]; · iexact Ha7
  isplitl [H16]; · iexact H16
  isplitl [Ha9]; · iexact Ha9
  isplitl [H17]; · iexact H17
  isplitl [Ha11]; · iexact Ha11
  isplitl [H18]; · iexact H18
  iexact H19

/-! ## The run -/

/-- What the region's run ends in: every window's array at what the proof data's write-backs leave, every unscoped
    buffer that is no window's array as the region found it. -/
def RunPost (r : PUnit × MemSt nD τ sig (Elt F)) : Prop :=
  ∀ c : Dev nD, (∀ w, r.2.mem (((cfg0).spec w).arr.view.loc (c.tc : Thread nD τ)) = (dats m 0 c).arrAt w cfg0.N)
    ∧ ∀ b ∈ Pipeline.restRefs sig spec0, r.2.mem ((c.tc : Thread nD τ).loc b) = V m c b

set_option backward.isDefEq.respectTransparency.types false in
/-- From any memory with zero counters, every weakly fair execution of @main on the TensorCores terminates in `RunPost`. -/
theorem run_main : θ_run defs (onTc (τ := τ) (main (F := F))) (s₀ m ρ) (RunPost m) := by
  classical
  exact Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m) (hmain := hmain m Variants.none) (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H; isplitr; · iempintro
      iexact H)
    (hin := fun c => by
      rw [show (dats m 0 c).Φ 0 = Pipeline.scopedRest spec0 c from rfl]
      iintro ⟨-, H⟩; iexact H)
    (hout := fun c => by
      rw [show (dats m 0 c).Φ (Fin.last cfg0.N) = Pipeline.scopedRest spec0 c from rfl]
      iintro H; isplitr; · iempintro
      iexact H)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (Q := RunPost m) (hQ := fun s h => by unfold RunPost; exact h)

/-! ## The frame, with the output array named -/

/-- The frame claim's post with one more conjunct in front: the result array ends at what the sixteen write-backs of
    the output window leave in it. -/
theorem run_named : θ_run defs (onTc (τ := τ) (main (F := F))) ⟨m, fun _ => 0, ρ⟩ (fun r => ∀ c : Dev nD,
      r.2.mem ((c.tc : Thread nD τ).loc main_v19) = (dats m 0 c).arrAt 16 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨(h c).1 16,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 6).trans (((dats m 0 c).arrAt_in 6 rfl _).trans ((A_eq m c 6).trans (V_main_arg3 m c))),
      ((h c).2 main_arg4 (Pipeline.mem_restRefs_of main_arg4 (by decide) (by decide))).trans (V_main_arg4 m c),
      ((h c).1 8).trans (((dats m 0 c).arrAt_in 8 rfl _).trans ((A_eq m c 8).trans (V_main_arg5 m c))),
      ((h c).2 main_arg6 (Pipeline.mem_restRefs_of main_arg6 (by decide) (by decide))).trans (V_main_arg6 m c),
      ((h c).1 10).trans (((dats m 0 c).arrAt_in 10 rfl _).trans ((A_eq m c 10).trans (V_main_arg7 m c))),
      ((h c).2 main_arg8 (Pipeline.mem_restRefs_of main_arg8 (by decide) (by decide))).trans (V_main_arg8 m c),
      ((h c).1 12).trans (((dats m 0 c).arrAt_in 12 rfl _).trans ((A_eq m c 12).trans (V_main_arg9 m c))),
      ((h c).2 main_arg10 (Pipeline.mem_restRefs_of main_arg10 (by decide) (by decide))).trans (V_main_arg10 m c),
      ((h c).1 14).trans (((dats m 0 c).arrAt_in 14 rfl _).trans ((A_eq m c 14).trans (V_main_arg11 m c))),
      ((h c).2 main_arg12 (Pipeline.mem_restRefs_of main_arg12 (by decide) (by decide))).trans (V_main_arg12 m c)⟩) (run_main m ρ)

/-- The frame. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => (h c).2) (run_named m ρ)

end Cert.KernelIdeal.Hand

end
-- ==== Proof.KI.Blocks.lean ====
/- From blocks to arrays. Each of the four input windows on the two-atoms-per-row array reads, at grid point t, the
   32 graphs 32 t .. 32 t + 31 and its own 128 of the 512 pair-rows; every weight and bias window stages its whole array
   at every point; and the output window writes rows 32 t .. 32 t + 31 of the result at point t, so after the 32
   points row b of the result is row b % 32 of what point b / 32 left. -/
import proofs.«144514_g55645596287706_cont_9to1_m_505_7_alg».proof.Proof.KI.Dats
import Idealize.ShloMosaic.Lib.ValueIdx
import Idealize.ShloMosaic.Lib.Pipeline.Value

set_option maxRecDepth 16384

noncomputable section

open Idealize.ShloMosaic Idealize.ShloMosaic.TcCoe Idealize.ShloMosaic.ValueIdx
open Idealize.SL.Sem
open scoped BigOperators

namespace Cert.KernelIdeal.Blocks

open Cert.KernelIdeal Cert.KernelIdeal.Gen Cert.KernelIdeal.Hand

variable (m : (ℓ : Loc nD τ sig) → Buf (Elt Ideal) ℓ) (c : Dev nD)

/-- Window 0's block index at point `t` is `(t, 0, 0)`. -/
theorem idx0 : ∀ t : Fin cfg0.N, win0_0.index t (0 : Fin 3) = t.val ∧ win0_0.index t (1 : Fin 3) = 0 ∧ win0_0.index t (2 : Fin 3) = 0 :=
  (by decide +kernel : ∀ t : Fin grid0.N, _)

/-- Window 0's block at point `t`: graphs `32 t ..`, pair-rows `0 ..` of the two-atoms-per-row input. -/
theorem iblk0_apply (t : Fin cfg0.N) (ht : t.val < 32) (r : Fin 32) (n' : Fin 128) (f : Fin 80) :
    (iblk m c 0 t : S32x128x80.Idx → EReal) (ix3 r n' f)
      = (V m c main_v8 : S1024x512x80.Idx → EReal) (ix3 (⟨32 * t.val + r.val, by omega⟩ : Fin 1024) (⟨0 + n'.val, by omega⟩ : Fin 512) f) := by
  obtain ⟨e0, e1, e2⟩ := idx0 t
  show V m c main_v8 (((cfg0.win 0).blk t).view.emb (ix3 r n' f)) = V m c main_v8 _
  refine congrArg _ ?_
  funext a; apply Fin.ext
  match a with
  | ⟨0, _⟩ => show win0_0.index t (0 : Fin 3) * 32 + 1 * r.val = 32 * t.val + r.val; omega
  | ⟨1, _⟩ => show win0_0.index t (1 : Fin 3) * 128 + 1 * n'.val = 0 + n'.val; omega
  | ⟨2, _⟩ => show win0_0.index t (2 : Fin 3) * 80 + 1 * f.val = f.val; omega

/-- Window 1's block index at point `t` is `(t, 1, 0)`. -/
theorem idx1 : ∀ t : Fin cfg0.N, win0_1.index t (0 : Fin 3) = t.val ∧ win0_1.index t (1 : Fin 3) = 1 ∧ win0_1.index t (2 : Fin 3) = 0 :=
  (by decide +kernel : ∀ t : Fin grid0.N, _)

/-- Window 1's block at point `t`: graphs `32 t ..`, pair-rows `128 ..` of the two-atoms-per-row input. -/
theorem iblk1_apply (t : Fin cfg0.N) (ht : t.val < 32) (r : Fin 32) (n' : Fin 128) (f : Fin 80) :
    (iblk m c 1 t : S32x128x80.Idx → EReal) (ix3 r n' f)
      = (V m c main_v8 : S1024x512x80.Idx → EReal) (ix3 (⟨32 * t.val + r.val, by omega⟩ : Fin 1024) (⟨128 + n'.val, by omega⟩ : Fin 512) f) := by
  obtain ⟨e0, e1, e2⟩ := idx1 t
  show V m c main_v8 (((cfg0.win 1).blk t).view.emb (ix3 r n' f)) = V m c main_v8 _
  refine congrArg _ ?_
  funext a; apply Fin.ext
  match a with
  | ⟨0, _⟩ => show win0_1.index t (0 : Fin 3) * 32 + 1 * r.val = 32 * t.val + r.val; omega
  | ⟨1, _⟩ => show win0_1.index t (1 : Fin 3) * 128 + 1 * n'.val = 128 + n'.val; omega
  | ⟨2, _⟩ => show win0_1.index t (2 : Fin 3) * 80 + 1 * f.val = f.val; omega

/-- Window 2's block index at point `t` is `(t, 2, 0)`. -/
theorem idx2 : ∀ t : Fin cfg0.N, win0_2.index t (0 : Fin 3) = t.val ∧ win0_2.index t (1 : Fin 3) = 2 ∧ win0_2.index t (2 : Fin 3) = 0 :=
  (by decide +kernel : ∀ t : Fin grid0.N, _)

/-- Window 2's block at point `t`: graphs `32 t ..`, pair-rows `256 ..` of the two-atoms-per-row input. -/
theorem iblk2_apply (t : Fin cfg0.N) (ht : t.val < 32) (r : Fin 32) (n' : Fin 128) (f : Fin 80) :
    (iblk m c 2 t : S32x128x80.Idx → EReal) (ix3 r n' f)
      = (V m c main_v8 : S1024x512x80.Idx → EReal) (ix3 (⟨32 * t.val + r.val, by omega⟩ : Fin 1024) (⟨256 + n'.val, by omega⟩ : Fin 512) f) := by
  obtain ⟨e0, e1, e2⟩ := idx2 t
  show V m c main_v8 (((cfg0.win 2).blk t).view.emb (ix3 r n' f)) = V m c main_v8 _
  refine congrArg _ ?_
  funext a; apply Fin.ext
  match a with
  | ⟨0, _⟩ => show win0_2.index t (0 : Fin 3) * 32 + 1 * r.val = 32 * t.val + r.val; omega
  | ⟨1, _⟩ => show win0_2.index t (1 : Fin 3) * 128 + 1 * n'.val = 256 + n'.val; omega
  | ⟨2, _⟩ => show win0_2.index t (2 : Fin 3) * 80 + 1 * f.val = f.val; omega

/-- Window 3's block index at point `t` is `(t, 3, 0)`. -/
theorem idx3 : ∀ t : Fin cfg0.N, win0_3.index t (0 : Fin 3) = t.val ∧ win0_3.index t (1 : Fin 3) = 3 ∧ win0_3.index t (2 : Fin 3) = 0 :=
  (by decide +kernel : ∀ t : Fin grid0.N, _)

/-- Window 3's block at point `t`: graphs `32 t ..`, pair-rows `384 ..` of the two-atoms-per-row input. -/
theorem iblk3_apply (t : Fin cfg0.N) (ht : t.val < 32) (r : Fin 32) (n' : Fin 128) (f : Fin 80) :
    (iblk m c 3 t : S32x128x80.Idx → EReal) (ix3 r n' f)
      = (V m c main_v8 : S1024x512x80.Idx → EReal) (ix3 (⟨32 * t.val + r.val, by omega⟩ : Fin 1024) (⟨384 + n'.val, by omega⟩ : Fin 512) f) := by
  obtain ⟨e0, e1, e2⟩ := idx3 t
  show V m c main_v8 (((cfg0.win 3).blk t).view.emb (ix3 r n' f)) = V m c main_v8 _
  refine congrArg _ ?_
  funext a; apply Fin.ext
  match a with
  | ⟨0, _⟩ => show win0_3.index t (0 : Fin 3) * 32 + 1 * r.val = 32 * t.val + r.val; omega
  | ⟨1, _⟩ => show win0_3.index t (1 : Fin 3) * 128 + 1 * n'.val = 384 + n'.val; omega
  | ⟨2, _⟩ => show win0_3.index t (2 : Fin 3) * 80 + 1 * f.val = f.val; omega

/-- Window 4's block index is `(0, 0)` at every point. -/
theorem idx4 : ∀ t : Fin cfg0.N, win0_4.index t (0 : Fin 2) = 0 ∧ win0_4.index t (1 : Fin 2) = 0 :=
  (by decide +kernel : ∀ t : Fin grid0.N, _)

/-- Window 4 stages its whole array at every point. -/
theorem iblk4_eq (t : Fin cfg0.N) : (iblk m c 4 t : S80x40.Idx → EReal) = (V m c main_v5 : S80x40.Idx → EReal) := by
  obtain ⟨e0, e1⟩ := idx4 t
  funext y
  show V m c main_v5 (((cfg0.win 4).blk t).view.emb y) = V m c main_v5 y
  refine congrArg _ ?_
  funext a; apply Fin.ext
  match a with
  | ⟨0, _⟩ => show win0_4.index t (0 : Fin 2) * 80 + 1 * (y 0).val = (y 0).val; omega
  | ⟨1, _⟩ => show win0_4.index t (1 : Fin 2) * 40 + 1 * (y 1).val = (y 1).val; omega

/-- Window 5's block index is `(0, 0)` at every point. -/
theorem idx5 : ∀ t : Fin cfg0.N, win0_5.index t (0 : Fin 2) = 0 ∧ win0_5.index t (1 : Fin 2) = 0 :=
  (by decide +kernel : ∀ t : Fin grid0.N, _)

/-- Window 5 stages its whole array at every point. -/
theorem iblk5_eq (t : Fin cfg0.N) : (iblk m c 5 t : S1x40.Idx → EReal) = (V m c main_v7 : S1x40.Idx → EReal) := by
  obtain ⟨e0, e1⟩ := idx5 t
  funext y
  show V m c main_v7 (((cfg0.win 5).blk t).view.emb y) = V m c main_v7 y
  refine congrArg _ ?_
  funext a; apply Fin.ext
  match a with
  | ⟨0, _⟩ => show win0_5.index t (0 : Fin 2) * 1 + 1 * (y 0).val = (y 0).val; omega
  | ⟨1, _⟩ => show win0_5.index t (1 : Fin 2) * 40 + 1 * (y 1).val = (y 1).val; omega

/-- Window 6's block index is `(0, 0)` at every point. -/
theorem idx6 : ∀ t : Fin cfg0.N, win0_6.index t (0 : Fin 2) = 0 ∧ win0_6.index t (1 : Fin 2) = 0 :=
  (by decide +kernel : ∀ t : Fin grid0.N, _)

/-- Window 6 stages its whole array at every point. -/
theorem iblk6_eq (t : Fin cfg0.N) : (iblk m c 6 t : S20x128.Idx → EReal) = (V m c main_arg3 : S20x128.Idx → EReal) := by
  obtain ⟨e0, e1⟩ := idx6 t
  funext y
  show V m c main_arg3 (((cfg0.win 6).blk t).view.emb y) = V m c main_arg3 y
  refine congrArg _ ?_
  funext a; apply Fin.ext
  match a with
  | ⟨0, _⟩ => show win0_6.index t (0 : Fin 2) * 20 + 1 * (y 0).val = (y 0).val; omega
  | ⟨1, _⟩ => show win0_6.index t (1 : Fin 2) * 128 + 1 * (y 1).val = (y 1).val; omega

/-- Window 7's block index is `(0, 0)` at every point. -/
theorem idx7 : ∀ t : Fin cfg0.N, win0_7.index t (0 : Fin 2) = 0 ∧ win0_7.index t (1 : Fin 2) = 0 :=
  (by decide +kernel : ∀ t : Fin grid0.N, _)

/-- Window 7 stages its whole array at every point. -/
theorem iblk7_eq (t : Fin cfg0.N) : (iblk m c 7 t : S1x128.Idx → EReal) = (V m c main_v14 : S1x128.Idx → EReal) := by
  obtain ⟨e0, e1⟩ := idx7 t
  funext y
  show V m c main_v14 (((cfg0.win 7).blk t).view.emb y) = V m c main_v14 y
  refine congrArg _ ?_
  funext a; apply Fin.ext
  match a with
  | ⟨0, _⟩ => show win0_7.index t (0 : Fin 2) * 1 + 1 * (y 0).val = (y 0).val; omega
  | ⟨1, _⟩ => show win0_7.index t (1 : Fin 2) * 128 + 1 * (y 1).val = (y 1).val; omega

/-- Window 8's block index is `(0, 0)` at every point. -/
theorem idx8 : ∀ t : Fin cfg0.N, win0_8.index t (0 : Fin 2) = 0 ∧ win0_8.index t (1 : Fin 2) = 0 :=
  (by decide +kernel : ∀ t : Fin grid0.N, _)

/-- Window 8 stages its whole array at every point. -/
theorem iblk8_eq (t : Fin cfg0.N) : (iblk m c 8 t : S128x64.Idx → EReal) = (V m c main_arg5 : S128x64.Idx → EReal) := by
  obtain ⟨e0, e1⟩ := idx8 t
  funext y
  show V m c main_arg5 (((cfg0.win 8).blk t).view.emb y) = V m c main_arg5 y
  refine congrArg _ ?_
  funext a; apply Fin.ext
  match a with
  | ⟨0, _⟩ => show win0_8.index t (0 : Fin 2) * 128 + 1 * (y 0).val = (y 0).val; omega
  | ⟨1, _⟩ => show win0_8.index t (1 : Fin 2) * 64 + 1 * (y 1).val = (y 1).val; omega

/-- Window 9's block index is `(0, 0)` at every point. -/
theorem idx9 : ∀ t : Fin cfg0.N, win0_9.index t (0 : Fin 2) = 0 ∧ win0_9.index t (1 : Fin 2) = 0 :=
  (by decide +kernel : ∀ t : Fin grid0.N, _)

/-- Window 9 stages its whole array at every point. -/
theorem iblk9_eq (t : Fin cfg0.N) : (iblk m c 9 t : S1x64.Idx → EReal) = (V m c main_v15 : S1x64.Idx → EReal) := by
  obtain ⟨e0, e1⟩ := idx9 t
  funext y
  show V m c main_v15 (((cfg0.win 9).blk t).view.emb y) = V m c main_v15 y
  refine congrArg _ ?_
  funext a; apply Fin.ext
  match a with
  | ⟨0, _⟩ => show win0_9.index t (0 : Fin 2) * 1 + 1 * (y 0).val = (y 0).val; omega
  | ⟨1, _⟩ => show win0_9.index t (1 : Fin 2) * 64 + 1 * (y 1).val = (y 1).val; omega

/-- Window 10's block index is `(0, 0)` at every point. -/
theorem idx10 : ∀ t : Fin cfg0.N, win0_10.index t (0 : Fin 2) = 0 ∧ win0_10.index t (1 : Fin 2) = 0 :=
  (by decide +kernel : ∀ t : Fin grid0.N, _)

/-- Window 10 stages its whole array at every point. -/
theorem iblk10_eq (t : Fin cfg0.N) : (iblk m c 10 t : S64x16.Idx → EReal) = (V m c main_arg7 : S64x16.Idx → EReal) := by
  obtain ⟨e0, e1⟩ := idx10 t
  funext y
  show V m c main_arg7 (((cfg0.win 10).blk t).view.emb y) = V m c main_arg7 y
  refine congrArg _ ?_
  funext a; apply Fin.ext
  match a with
  | ⟨0, _⟩ => show win0_10.index t (0 : Fin 2) * 64 + 1 * (y 0).val = (y 0).val; omega
  | ⟨1, _⟩ => show win0_10.index t (1 : Fin 2) * 16 + 1 * (y 1).val = (y 1).val; omega

/-- Window 11's block index is `(0, 0)` at every point. -/
theorem idx11 : ∀ t : Fin cfg0.N, win0_11.index t (0 : Fin 2) = 0 ∧ win0_11.index t (1 : Fin 2) = 0 :=
  (by decide +kernel : ∀ t : Fin grid0.N, _)

/-- Window 11 stages its whole array at every point. -/
theorem iblk11_eq (t : Fin cfg0.N) : (iblk m c 11 t : S1x16.Idx → EReal) = (V m c main_v16 : S1x16.Idx → EReal) := by
  obtain ⟨e0, e1⟩ := idx11 t
  funext y
  show V m c main_v16 (((cfg0.win 11).blk t).view.emb y) = V m c main_v16 y
  refine congrArg _ ?_
  funext a; apply Fin.ext
  match a with
  | ⟨0, _⟩ => show win0_11.index t (0 : Fin 2) * 1 + 1 * (y 0).val = (y 0).val; omega
  | ⟨1, _⟩ => show win0_11.index t (1 : Fin 2) * 16 + 1 * (y 1).val = (y 1).val; omega

/-- Window 12's block index is `(0, 0)` at every point. -/
theorem idx12 : ∀ t : Fin cfg0.N, win0_12.index t (0 : Fin 2) = 0 ∧ win0_12.index t (1 : Fin 2) = 0 :=
  (by decide +kernel : ∀ t : Fin grid0.N, _)

/-- Window 12 stages its whole array at every point. -/
theorem iblk12_eq (t : Fin cfg0.N) : (iblk m c 12 t : S16x1.Idx → EReal) = (V m c main_arg9 : S16x1.Idx → EReal) := by
  obtain ⟨e0, e1⟩ := idx12 t
  funext y
  show V m c main_arg9 (((cfg0.win 12).blk t).view.emb y) = V m c main_arg9 y
  refine congrArg _ ?_
  funext a; apply Fin.ext
  match a with
  | ⟨0, _⟩ => show win0_12.index t (0 : Fin 2) * 16 + 1 * (y 0).val = (y 0).val; omega
  | ⟨1, _⟩ => show win0_12.index t (1 : Fin 2) * 1 + 1 * (y 1).val = (y 1).val; omega

/-- Window 13's block index is `(0, 0)` at every point. -/
theorem idx13 : ∀ t : Fin cfg0.N, win0_13.index t (0 : Fin 2) = 0 ∧ win0_13.index t (1 : Fin 2) = 0 :=
  (by decide +kernel : ∀ t : Fin grid0.N, _)

/-- Window 13 stages its whole array at every point. -/
theorem iblk13_eq (t : Fin cfg0.N) : (iblk m c 13 t : S1x1.Idx → EReal) = (V m c main_v17 : S1x1.Idx → EReal) := by
  obtain ⟨e0, e1⟩ := idx13 t
  funext y
  show V m c main_v17 (((cfg0.win 13).blk t).view.emb y) = V m c main_v17 y
  refine congrArg _ ?_
  funext a; apply Fin.ext
  match a with
  | ⟨0, _⟩ => show win0_13.index t (0 : Fin 2) * 1 + 1 * (y 0).val = (y 0).val; omega
  | ⟨1, _⟩ => show win0_13.index t (1 : Fin 2) * 1 + 1 * (y 1).val = (y 1).val; omega

/-- Window 14's block index is `(0, 0)` at every point. -/
theorem idx14 : ∀ t : Fin cfg0.N, win0_14.index t (0 : Fin 2) = 0 ∧ win0_14.index t (1 : Fin 2) = 0 :=
  (by decide +kernel : ∀ t : Fin grid0.N, _)

/-- Window 14 stages its whole array at every point. -/
theorem iblk14_eq (t : Fin cfg0.N) : (iblk m c 14 t : S4x1.Idx → EReal) = (V m c main_arg11 : S4x1.Idx → EReal) := by
  obtain ⟨e0, e1⟩ := idx14 t
  funext y
  show V m c main_arg11 (((cfg0.win 14).blk t).view.emb y) = V m c main_arg11 y
  refine congrArg _ ?_
  funext a; apply Fin.ext
  match a with
  | ⟨0, _⟩ => show win0_14.index t (0 : Fin 2) * 4 + 1 * (y 0).val = (y 0).val; omega
  | ⟨1, _⟩ => show win0_14.index t (1 : Fin 2) * 1 + 1 * (y 1).val = (y 1).val; omega

/-- Window 15's block index is `(0, 0)` at every point. -/
theorem idx15 : ∀ t : Fin cfg0.N, win0_15.index t (0 : Fin 2) = 0 ∧ win0_15.index t (1 : Fin 2) = 0 :=
  (by decide +kernel : ∀ t : Fin grid0.N, _)

/-- Window 15 stages its whole array at every point. -/
theorem iblk15_eq (t : Fin cfg0.N) : (iblk m c 15 t : S1x1.Idx → EReal) = (V m c main_v18 : S1x1.Idx → EReal) := by
  obtain ⟨e0, e1⟩ := idx15 t
  funext y
  show V m c main_v18 (((cfg0.win 15).blk t).view.emb y) = V m c main_v18 y
  refine congrArg _ ?_
  funext a; apply Fin.ext
  match a with
  | ⟨0, _⟩ => show win0_15.index t (0 : Fin 2) * 1 + 1 * (y 0).val = (y 0).val; omega
  | ⟨1, _⟩ => show win0_15.index t (1 : Fin 2) * 1 + 1 * (y 1).val = (y 1).val; omega

/-! ## The result array -/

/-- The output window's block index at point `t` is `(t, 0)`. -/
theorem idx16 : ∀ t : Fin cfg0.N, win0_16.index t (0 : Fin 2) = t.val ∧ win0_16.index t (1 : Fin 2) = 0 :=
  (by decide +kernel : ∀ t : Fin grid0.N, _)

/-- The grid point whose block holds row `b` of the result: `b / 32`. -/
def pointOf (b : Nat) (hb : b < 1024) : Fin cfg0.N := ⟨b / 32, by rw [show cfg0.N = 32 from N_0]; omega⟩

/-- What point `t` leaves in the output window's block. -/
abbrev leftAt (t : Fin cfg0.N) : S32x1.Idx → EReal :=
  out0_16 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)

/-- The result as one function of the region-entry arrays: row `b` is row `b % 32` of what point `b / 32` leaves. -/
def resultArr (i : S1024x1.Idx) : EReal :=
  leftAt m c (pointOf (i 0).val (i 0).isLt) (ix2 (⟨(i 0).val % 32, Nat.mod_lt _ (by decide)⟩ : Fin 32) 0)

/-- The result function at a row of point `t`'s block is what point `t` leaves there. -/
theorem resultArr_at (t : Fin cfg0.N) (i : S1024x1.Idx) (y : S32x1.Idx) (h0 : (i 0).val = 32 * t.val + (y 0).val) :
    resultArr m c i = leftAt m c t y := by
  have hy0 : (y 0).val < 32 := (y 0).isLt
  have hy1 : (y 1).val < 1 := (y 1).isLt
  have e1 : pointOf (i 0).val (i 0).isLt = t := Fin.ext (by show (i 0).val / 32 = t.val; omega)
  have e2 : ix2 (⟨(i 0).val % 32, Nat.mod_lt _ (by decide)⟩ : Fin 32) (0 : Fin 1) = y := by
    funext a
    match a with
    | ⟨0, _⟩ => exact Fin.ext (by show (i 0).val % 32 = (y 0).val; omega)
    | ⟨1, _⟩ => exact Fin.ext (by show 0 = (y 1).val; omega)
  unfold resultArr
  rw [e1, e2]

/-- What point `t` writes back is block `t` of the result function. -/
theorem flushed16_eq (t : Fin cfg0.N) :
    (dats m 0 c).flushed 16 t = ((cfg0.win 16).blk t).view.read (Elt Ideal) (resultArr m c) := by
  show (cfg0.win 16).cut (grid0.coords t) ((dats m 0 c).after 16 t) = _
  rw [after0_16]
  obtain ⟨e0, e1⟩ := idx16 t
  funext y
  show leftAt m c t y = resultArr m c (((cfg0.win 16).blk t).view.emb y)
  refine (resultArr_at m c t _ y ?_).symm
  show win0_16.index t (0 : Fin 2) * 32 + 1 * (y 0).val = 32 * t.val + (y 0).val
  omega

/-- A row of the result is in point `t`'s block iff each coordinate is in the block's range on its axis. -/
theorem mem_blk16 (t : Fin cfg0.N) (i : S1024x1.Idx) :
    i ∈ ((cfg0.win 16).blk t).view.set ↔ ∀ a : Fin 2, win0_16.index t a * S32x1.size a ≤ (i a).val ∧ (i a).val < win0_16.index t a * S32x1.size a + S32x1.size a := by
  show i ∈ ((View.whole main_v19).slice (win0_16.rect t)).set ↔ _
  rw [View.set_slice_whole, Rect.mem_set_unit]
  exact Iff.rfl

/-- Every row of the result is in the block of the point `row / 32`, which writes it back. -/
theorem cover16 (i : S1024x1.Idx) : ∃ t : Fin cfg0.N, (cfg0.win 16).flush t = true ∧ i ∈ ((cfg0.win 16).blk t).view.set := by
  have hi0 : (i 0).val < 1024 := (i 0).isLt
  have hi1 : (i 1).val < 1 := (i 1).isLt
  refine ⟨pointOf (i 0).val (i 0).isLt, flush0_16 _, ?_⟩
  obtain ⟨e0, e1⟩ := idx16 (pointOf (i 0).val (i 0).isLt)
  have ep : (pointOf (i 0).val (i 0).isLt).val = (i 0).val / 32 := rfl
  rw [mem_blk16]
  intro a
  match a with
  | ⟨0, _⟩ => show win0_16.index (pointOf (i 0).val (i 0).isLt) (0 : Fin 2) * 32 ≤ (i 0).val ∧ (i 0).val < win0_16.index (pointOf (i 0).val (i 0).isLt) (0 : Fin 2) * 32 + 32; omega
  | ⟨1, _⟩ => show win0_16.index (pointOf (i 0).val (i 0).isLt) (1 : Fin 2) * 1 ≤ (i 1).val ∧ (i 1).val < win0_16.index (pointOf (i 0).val (i 0).isLt) (1 : Fin 2) * 1 + 1; omega

/-- The result array after the region's 32 points is the result function. -/
theorem final16 : (dats m 0 c).arrAt 16 cfg0.N = resultArr m c :=
  (dats m 0 c).arrAt_eq_of_cover 16 (resultArr m c) (fun t _ => flushed16_eq m c t) cover16

/-- The result array after the run, at graph `b`: row `b % 32` of what the body left at point `b / 32`. -/
theorem final_apply (b : Fin 1024) (t : Fin cfg0.N) (ht : t.val = b.val / 32) :
    ((dats m 0 c).arrAt 16 cfg0.N : S1024x1.Idx → EReal) (ix2 b 0)
      = out0_16 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix2 (⟨b.val % 32, by omega⟩ : Fin 32) 0) := by
  have hb : b.val < 1024 := b.isLt
  rw [final16]
  refine resultArr_at m c t (ix2 b 0) (ix2 (⟨b.val % 32, by omega⟩ : Fin 32) 0) ?_
  show b.val = 32 * t.val + b.val % 32
  omega

end Cert.KernelIdeal.Blocks

end
-- ==== Proof.Spec.lean ====
/- What the two programs compute, as plain functions on the extended reals over finite index types.

   A graph has 1024 atoms of 40 features; the first 37 are atom features, the last 3 of atom 0 are the graph's physics
   columns. The rule layer sends an atom's 37 features through a 37×20 matrix, adds a bias and rectifies; the readout
   sums the 1024 atoms; the dense head is four affine layers (the first two rectified) with the physics columns
   appended before the last.

   The kernel reads the input two atoms to a row (512 rows of 80), in four blocks of 128 rows per grid point, and
   multiplies by an 80×40 block-diagonal copy of the rule matrix whose rows 37-39 and 77-79 are zero; it then adds
   channel o+20 to channel o. `kg_eq_readout` says that this is the readout. -/
import Mathlib.Data.EReal.Basic
import Mathlib.Algebra.BigOperators.Fin
import Mathlib.Algebra.BigOperators.Group.Finset.Basic

noncomputable section

namespace Cert.Spec

open scoped BigOperators

/-! ## The reference's arrangement -/

/-- Hidden feature `o` of atom `n` of graph `b`: the rule layer, rectified. -/
def hid (x : Fin 1024 → Fin 1024 → Fin 40 → EReal) (wr : Fin 37 → Fin 20 → EReal) (br : Fin 20 → EReal)
    (b n : Fin 1024) (o : Fin 20) : EReal :=
  max ((∑ f : Fin 37, x b n (Fin.castLE (by decide) f) * wr f o) + br o) 0

/-- The graph readout: the hidden features summed over the atoms. -/
def readout (x : Fin 1024 → Fin 1024 → Fin 40 → EReal) (wr : Fin 37 → Fin 20 → EReal) (br : Fin 20 → EReal)
    (b : Fin 1024) (o : Fin 20) : EReal :=
  ∑ n : Fin 1024, hid x wr br b n o

/-- The dense head of one graph, from its readout `g` and its three physics columns `ph`. -/
def head (g : Fin 20 → EReal) (ph : Fin 3 → EReal) (wc : Fin 20 → Fin 128 → EReal) (bc : Fin 128 → EReal)
    (w1 : Fin 128 → Fin 64 → EReal) (b1 : Fin 64 → EReal) (w5 : Fin 64 → Fin 16 → EReal) (b5 : Fin 16 → EReal)
    (w6 : Fin 16 → EReal) (b6 : EReal) (w7 : Fin 4 → EReal) (b7 : EReal) : EReal :=
  let c : Fin 128 → EReal := fun j => max ((∑ o : Fin 20, g o * wc o j) + bc j) 0
  let d1 : Fin 64 → EReal := fun j => max ((∑ k : Fin 128, c k * w1 k j) + b1 j) 0
  let d5 : Fin 16 → EReal := fun j => (∑ k : Fin 64, d1 k * w5 k j) + b5 j
  let mv : EReal := (∑ k : Fin 16, d5 k * w6 k) + b6
  (∑ k : Fin 4, (Fin.cases (motive := fun _ => EReal) mv ph k) * w7 k) + b7

/-! ## The kernel's arrangement, one grid point (32 graphs) at a time -/

/-- One 128-row block's share of channel `o'` (of 40) of graph-row `r`: pair-rows through the block-diagonal
    matrix, rectified, summed over the block's rows. -/
def kpart (xq : Fin 32 → Fin 128 → Fin 80 → EReal) (wbd : Fin 80 → Fin 40 → EReal) (bbd : Fin 40 → EReal)
    (r : Fin 32) (o' : Fin 40) : EReal :=
  ∑ n' : Fin 128, max ((∑ f : Fin 80, xq r n' f * wbd f o') + bbd o') 0

/-- The four blocks' shares added in the kernel's order. -/
def kparts (x0 x1 x2 x3 : Fin 32 → Fin 128 → Fin 80 → EReal) (wbd : Fin 80 → Fin 40 → EReal) (bbd : Fin 40 → EReal)
    (r : Fin 32) (o' : Fin 40) : EReal :=
  ((kpart x0 wbd bbd r o' + kpart x1 wbd bbd r o') + kpart x2 wbd bbd r o') + kpart x3 wbd bbd r o'

/-- The kernel's readout of graph-row `r`: channel `o` plus channel `o + 20`. -/
def kg (x0 x1 x2 x3 : Fin 32 → Fin 128 → Fin 80 → EReal) (wbd : Fin 80 → Fin 40 → EReal) (bbd : Fin 40 → EReal)
    (r : Fin 32) (o : Fin 20) : EReal :=
  kparts x0 x1 x2 x3 wbd bbd r (Fin.castLE (by decide) o) + kparts x0 x1 x2 x3 wbd bbd r ⟨20 + o.val, by omega⟩

end Cert.Spec

end
-- ==== Proof.KI.BlockShare.lean ====
/- One 128-row block's share of the kernel's readout, read at an index: the block flattened to 4096 pair-rows,
   multiplied into the 80×40 matrix (a sum over the 80 columns), the bias row added, rectified, regrouped as 32 graphs
   of 128 rows and summed over the rows. -/
import proofs.«144514_g55645596287706_cont_9to1_m_505_7_alg».proof.Proof.KI.Body
import proofs.«144514_g55645596287706_cont_9to1_m_505_7_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open Idealize.ShloMosaic Idealize.ShloMosaic.TcCoe Idealize.ShloMosaic.ValueIdx
open Idealize.SL.Sem
open scoped BigOperators

namespace Cert.KernelIdeal.KVal

open Cert.KernelIdeal Cert.KernelIdeal.Gen

/-- The block flattened: pair-row `128 r + n'` of the 4096 is row `n'` of graph `r`. -/
theorem flat_apply (v : FVec Ideal S32x128x80 .f32) (r : Fin 32) (n' : Fin 128) (f : Fin 80) :
    shapeCast S4096x80 v shapeCasts_S32x128x80_S4096x80 (ix2 (⟨128 * r.val + n'.val, by omega⟩ : Fin 4096) f) = v (ix3 r n' f) := by
  refine shapeCast_apply v shapeCasts_S32x128x80_S4096x80 _ (ix3 r n' f) ?_
  rw [Shape.rowMajor_val_three, Shape.rowMajor_val_two]
  show (r.val * 128 + n'.val) * 80 + f.val = (128 * r.val + n'.val) * 80 + f.val
  omega

/-- The matrix product's left operand index keeps the output's row on axis 0. -/
theorem lhs_dot_0 (i : S4096x40.Idx) (q : dot_S4096x80_S80x40_S4096x40_1_0_0_1_n_n.contr.Idx) :
    (dot_S4096x80_S80x40_S4096x40_1_0_0_1_n_n.lhsIdx i q 0).val = (i 0).val := by
  unfold DotDims.lhsIdx
  rw [dif_neg (show ¬(0 : Fin S4096x80.rank) ∈ dot_S4096x80_S80x40_S4096x40_1_0_0_1_n_n.lhsBatch by decide), dif_pos (show (0 : Fin S4096x80.rank) ∈ dot_S4096x80_S80x40_S4096x40_1_0_0_1_n_n.lhsNonContracting by decide)]
  rfl
/-- … and carries the contraction coordinate on axis 1. -/
theorem lhs_dot_1 (i : S4096x40.Idx) (q : dot_S4096x80_S80x40_S4096x40_1_0_0_1_n_n.contr.Idx) :
    (dot_S4096x80_S80x40_S4096x40_1_0_0_1_n_n.lhsIdx i q 1).val = (q ⟨0, by decide⟩).val :=
  dot_S4096x80_S80x40_S4096x40_1_0_0_1_n_n.lhsIdx_val_of_single rfl i q
/-- The right operand index carries the contraction coordinate on axis 0. -/
theorem rhs_dot_0 (i : S4096x40.Idx) (q : dot_S4096x80_S80x40_S4096x40_1_0_0_1_n_n.contr.Idx) :
    (dot_S4096x80_S80x40_S4096x40_1_0_0_1_n_n.rhsIdx i q 0).val = (q ⟨0, by decide⟩).val :=
  dot_S4096x80_S80x40_S4096x40_1_0_0_1_n_n.rhsIdx_val_of_single rfl i q
/-- … and keeps the output's column on axis 1. -/
theorem rhs_dot_1 (i : S4096x40.Idx) (q : dot_S4096x80_S80x40_S4096x40_1_0_0_1_n_n.contr.Idx) :
    (dot_S4096x80_S80x40_S4096x40_1_0_0_1_n_n.rhsIdx i q 1).val = (i 1).val := by
  unfold DotDims.rhsIdx
  rw [dif_neg (show ¬(1 : Fin S80x40.rank) ∈ dot_S4096x80_S80x40_S4096x40_1_0_0_1_n_n.rhsBatch by decide), dif_pos (show (1 : Fin S80x40.rank) ∈ dot_S4096x80_S80x40_S4096x40_1_0_0_1_n_n.rhsNonContracting by decide)]
  rfl

/-- The matrix product into a zero accumulator, read at row `p` and column `o'`: the sum over the 80 columns of the left operand. -/
theorem matmul_zero_apply (X : FVec Ideal S4096x80 .f32) (W : FVec Ideal S80x40 .f32) (p : Fin 4096) (o' : Fin 40) :
    matmul dot_S4096x80_S80x40_S4096x40_1_0_0_1_n_n none X W (constant (F := Ideal) S4096x40 .f32 0x00000000#32) (ix2 p o')
      = ∑ f : Fin 80, X (ix2 p f) * W (ix2 f o') := by
  simp only [matmul]
  rw [Ideal.matmul_constant_zero_apply, ← Equiv.sum_comp (ValueIdx.contrEquiv1 dot_S4096x80_S80x40_S4096x40_1_0_0_1_n_n 80 rfl rfl).symm]
  refine Finset.sum_congr rfl fun k _ => ?_
  have hk := ValueIdx.contrEquiv1_symm_val dot_S4096x80_S80x40_S4096x40_1_0_0_1_n_n 80 rfl rfl k
  have el : dot_S4096x80_S80x40_S4096x40_1_0_0_1_n_n.lhsIdx (ix2 p o') ((ValueIdx.contrEquiv1 dot_S4096x80_S80x40_S4096x40_1_0_0_1_n_n 80 rfl rfl).symm k) = ix2 p k := funext fun a => Fin.ext (by
    match a with
    | ⟨0, _⟩ => exact lhs_dot_0 _ _
    | ⟨1, _⟩ => exact (lhs_dot_1 _ _).trans hk)
  have er : dot_S4096x80_S80x40_S4096x40_1_0_0_1_n_n.rhsIdx (ix2 p o') ((ValueIdx.contrEquiv1 dot_S4096x80_S80x40_S4096x40_1_0_0_1_n_n 80 rfl rfl).symm k) = ix2 k o' := funext fun a => Fin.ext (by
    match a with
    | ⟨0, _⟩ => exact (rhs_dot_0 _ _).trans hk
    | ⟨1, _⟩ => exact rhs_dot_1 _ _)
  rw [el, er]

/-- A block's share of channel `o'` of graph-row `r`, from the flattened block `X`, the matrix `W` and the bias row `B`. -/
theorem blockShare (X : FVec Ideal S4096x80 .f32) (W : FVec Ideal S80x40 .f32) (B : FVec Ideal S1x40 .f32) (r : Fin 32) (o' : Fin 40) :
    multiReduction .add [1] S32x40
        (shapeCast S32x128x40
          (maximumf (addf (matmul dot_S4096x80_S80x40_S4096x40_1_0_0_1_n_n none X W (constant S4096x40 .f32 0x00000000#32))
              (broadcastTo S4096x40 B broadcasts_S1x40_S4096x40))
            (broadcast S4096x40 (Scalar.ofBits .f32 0x00000000#32)))
          shapeCasts_S4096x40_S32x128x40)
        0x00000000#32 reduces_S32x128x40_S32x40 (.inl rfl) rfl (ix2 r o')
      = ∑ n' : Fin 128, max ((∑ f : Fin 80, X (ix2 (⟨128 * r.val + n'.val, by omega⟩ : Fin 4096) f) * W (ix2 f o')) + B (ix2 0 o')) 0 := by
  refine (Ideal.multiReduction_add_single _ 0x00000000#32 reduces_S32x128x40_S32x40 (.inl rfl) rfl (ix2 r o')).trans ?_
  refine Finset.sum_congr rfl fun (n' : Fin 128) _ => ?_
  have hl : reduces_S32x128x40_S32x40.lift (ix2 r o') n' = ix3 r n' o' := funext fun c => Fin.ext (by
    match c with
    | ⟨0, _⟩ => rfl
    | ⟨1, _⟩ => rfl
    | ⟨2, _⟩ => rfl)
  rw [hl]
  refine (shapeCast_apply _ shapeCasts_S4096x40_S32x128x40 (ix3 r n' o') (ix2 (⟨128 * r.val + n'.val, by omega⟩ : Fin 4096) o') ?_).trans ?_
  · rw [Shape.rowMajor_val_three, Shape.rowMajor_val_two]
    show (128 * r.val + n'.val) * 40 + o'.val = (r.val * 128 + n'.val) * 40 + o'.val
    omega
  · rw [maximumf_apply, addf_apply, broadcast_apply, matmul_zero_apply, broadcastTo_1b_ab_apply]
    exact congrArg (max _) Ideal.ofBits_zero_f32

/-- The first two blocks' shares, added. -/
theorem pay2_apply (v0 : Vec Ideal S32x128x80 .f32) (v3 : Vec Ideal S80x40 .f32) (v6 : Vec Ideal S1x40 .f32)
    (v14 : Vec Ideal S32x128x80 .f32) (v17 : Vec Ideal S80x40 .f32) (v20 : Vec Ideal S1x40 .f32) (r : Fin 32) (o' : Fin 40) :
    k0_pay2 (F := Ideal) v0 v3 v6 v14 v17 v20 (ix2 r o')
      = Cert.Spec.kpart (fun a b c => v0 (ix3 a b c)) (fun a b => v3 (ix2 a b)) (fun a => v6 (ix2 0 a)) r o' + Cert.Spec.kpart (fun a b c => v14 (ix3 a b c)) (fun a b => v17 (ix2 a b)) (fun a => v20 (ix2 0 a)) r o' := by
  unfold k0_pay2
  refine (addf_apply _ _ _).trans ?_
  refine congrArg₂ (· + ·) ?_ ?_
  · rw [shapeCast_self v0, shapeCast_self v3, shapeCast_self v6]
    refine (blockShare _ _ _ r o').trans ?_
    unfold Cert.Spec.kpart
    simp only [flat_apply]
  · rw [shapeCast_self v14, shapeCast_self v17, shapeCast_self v20]
    refine (blockShare _ _ _ r o').trans ?_
    unfold Cert.Spec.kpart
    simp only [flat_apply]

/-- The third block, flattened. -/
theorem pay3_apply (v29 : Vec Ideal S32x128x80 .f32) (r : Fin 32) (n' : Fin 128) (f : Fin 80) :
    k0_pay3 (F := Ideal) v29 (ix2 (⟨128 * r.val + n'.val, by omega⟩ : Fin 4096) f) = v29 (ix3 r n' f) := by
  unfold k0_pay3
  rw [shapeCast_self]
  exact flat_apply v29 r n' f

theorem pay4_eq (v32 : Vec Ideal S80x40 .f32) : k0_pay4 (F := Ideal) v32 = v32 := by
  unfold k0_pay4
  exact shapeCast_self _ _

theorem pay5_eq (v62 : Vec Ideal S32x128x80 .f32) : k0_pay5 (F := Ideal) v62 = v62 := by
  unfold k0_pay5
  exact shapeCast_self _ _

end Cert.KernelIdeal.KVal

end
-- ==== Proof.KI.PayHead.lean ====
/- The kernel's value of one grid point, read at a graph-row: the four blocks' shares added, channel o + 20 folded
   onto channel o, then the dense head, with the three physics columns of the row's first atom (columns 37-39 of the
   first block's first pair-row) appended before the last layer. -/
import proofs.«144514_g55645596287706_cont_9to1_m_505_7_alg».proof.Proof.KI.BlockShare

set_option maxRecDepth 16384

noncomputable section

open Idealize.ShloMosaic Idealize.ShloMosaic.TcCoe Idealize.ShloMosaic.ValueIdx
open Idealize.SL.Sem
open scoped BigOperators

namespace Cert.KernelIdeal.KVal

open Cert.KernelIdeal Cert.KernelIdeal.Gen

namespace Head

/-- A plain matrix product into the zero accumulator, read at `(r, c)`: the sum over the contracted axis. -/
theorem mm_apply {m k n : Nat} (D : DotDims ⟨2, ![m, k]⟩ ⟨2, ![k, n]⟩ ⟨2, ![m, n]⟩)
    (hr : D.contr.rank = 1) (hs : D.contr.size ⟨0, by omega⟩ = k)
    (hl0 : ∀ (i : (⟨2, ![m, n]⟩ : Shape).Idx) (q : D.contr.Idx), (D.lhsIdx i q 0).val = (i 0).val)
    (hl1 : ∀ (i : (⟨2, ![m, n]⟩ : Shape).Idx) (q : D.contr.Idx), (D.lhsIdx i q 1).val = (q ⟨0, by omega⟩).val)
    (hr0 : ∀ (i : (⟨2, ![m, n]⟩ : Shape).Idx) (q : D.contr.Idx), (D.rhsIdx i q 0).val = (q ⟨0, by omega⟩).val)
    (hr1 : ∀ (i : (⟨2, ![m, n]⟩ : Shape).Idx) (q : D.contr.Idx), (D.rhsIdx i q 1).val = (i 1).val)
    (A : FVec Ideal ⟨2, ![m, k]⟩ .f32) (B : FVec Ideal ⟨2, ![k, n]⟩ .f32) (r : Fin m) (c : Fin n) :
    matmul D none A B (constant (F := Ideal) ⟨2, ![m, n]⟩ .f32 0x00000000#32) (ix2 r c) = ∑ j : Fin k, A (ix2 r j) * B (ix2 j c) := by
  show FloatOps.matmul D none A B (constant (F := Ideal) ⟨2, ![m, n]⟩ .f32 0x00000000#32) (ix2 r c) = _
  rw [Ideal.matmul_constant_zero_apply, ← Equiv.sum_comp (contrEquiv1 D k hr hs).symm]
  refine Finset.sum_congr rfl fun j _ => ?_
  have hk := contrEquiv1_symm_val D k hr hs j
  have el : D.lhsIdx (ix2 r c) ((contrEquiv1 D k hr hs).symm j) = ix2 r j := funext fun a => Fin.ext (by
    match a with
    | ⟨0, _⟩ => exact hl0 _ _
    | ⟨1, _⟩ => exact (hl1 _ _).trans hk)
  have er : D.rhsIdx (ix2 r c) ((contrEquiv1 D k hr hs).symm j) = ix2 j c := funext fun a => Fin.ext (by
    match a with
    | ⟨0, _⟩ => exact (hr0 _ _).trans hk
    | ⟨1, _⟩ => exact hr1 _ _)
  rw [el, er]

theorem lhs_20_128_0 (i : S32x128.Idx) (q : dot_S32x20_S20x128_S32x128_1_0_0_1_n_n.contr.Idx) :
    (dot_S32x20_S20x128_S32x128_1_0_0_1_n_n.lhsIdx i q 0).val = (i 0).val := by
  unfold DotDims.lhsIdx
  rw [dif_neg (show ¬(0 : Fin S32x20.rank) ∈ dot_S32x20_S20x128_S32x128_1_0_0_1_n_n.lhsBatch by decide), dif_pos (show (0 : Fin S32x20.rank) ∈ dot_S32x20_S20x128_S32x128_1_0_0_1_n_n.lhsNonContracting by decide)]
  rfl
theorem lhs_20_128_1 (i : S32x128.Idx) (q : dot_S32x20_S20x128_S32x128_1_0_0_1_n_n.contr.Idx) :
    (dot_S32x20_S20x128_S32x128_1_0_0_1_n_n.lhsIdx i q 1).val = (q ⟨0, by decide⟩).val :=
  dot_S32x20_S20x128_S32x128_1_0_0_1_n_n.lhsIdx_val_of_single rfl i q
theorem rhs_20_128_0 (i : S32x128.Idx) (q : dot_S32x20_S20x128_S32x128_1_0_0_1_n_n.contr.Idx) :
    (dot_S32x20_S20x128_S32x128_1_0_0_1_n_n.rhsIdx i q 0).val = (q ⟨0, by decide⟩).val :=
  dot_S32x20_S20x128_S32x128_1_0_0_1_n_n.rhsIdx_val_of_single rfl i q
theorem rhs_20_128_1 (i : S32x128.Idx) (q : dot_S32x20_S20x128_S32x128_1_0_0_1_n_n.contr.Idx) :
    (dot_S32x20_S20x128_S32x128_1_0_0_1_n_n.rhsIdx i q 1).val = (i 1).val := by
  unfold DotDims.rhsIdx
  rw [dif_neg (show ¬(1 : Fin S20x128.rank) ∈ dot_S32x20_S20x128_S32x128_1_0_0_1_n_n.rhsBatch by decide), dif_pos (show (1 : Fin S20x128.rank) ∈ dot_S32x20_S20x128_S32x128_1_0_0_1_n_n.rhsNonContracting by decide)]
  rfl
/-- The 32×20 by 20×128 product into the zero accumulator, read at `(r, c)`. -/
theorem mm_20_128 (A : FVec Ideal S32x20 .f32) (B : FVec Ideal S20x128 .f32) (r : Fin 32) (c : Fin 128) :
    matmul dot_S32x20_S20x128_S32x128_1_0_0_1_n_n none A B (constant (F := Ideal) S32x128 .f32 0x00000000#32) (ix2 r c) = ∑ j : Fin 20, A (ix2 r j) * B (ix2 j c) :=
  mm_apply dot_S32x20_S20x128_S32x128_1_0_0_1_n_n rfl rfl lhs_20_128_0 lhs_20_128_1 rhs_20_128_0 rhs_20_128_1 A B r c

/-- An affine layer 20 → 128 read at `(r, c)`: the product's sum plus the bias row's entry. -/
theorem layer_20_128 (A : FVec Ideal S32x20 .f32) (W : FVec Ideal S20x128 .f32) (B : FVec Ideal S1x128 .f32) (r : Fin 32) (c : Fin 128) :
    addf (matmul dot_S32x20_S20x128_S32x128_1_0_0_1_n_n none A W (constant (F := Ideal) S32x128 .f32 0x00000000#32)) (broadcastTo S32x128 B broadcasts_S1x128_S32x128) (ix2 r c)
      = (∑ j : Fin 20, A (ix2 r j) * W (ix2 j c)) + B (ix2 0 c) :=
  congrArg₂ (· + ·) (mm_20_128 A W r c) (broadcastTo_1b_ab_apply B broadcasts_S1x128_S32x128 r c)

theorem lhs_128_64_0 (i : S32x64.Idx) (q : dot_S32x128_S128x64_S32x64_1_0_0_1_n_n.contr.Idx) :
    (dot_S32x128_S128x64_S32x64_1_0_0_1_n_n.lhsIdx i q 0).val = (i 0).val := by
  unfold DotDims.lhsIdx
  rw [dif_neg (show ¬(0 : Fin S32x128.rank) ∈ dot_S32x128_S128x64_S32x64_1_0_0_1_n_n.lhsBatch by decide), dif_pos (show (0 : Fin S32x128.rank) ∈ dot_S32x128_S128x64_S32x64_1_0_0_1_n_n.lhsNonContracting by decide)]
  rfl
theorem lhs_128_64_1 (i : S32x64.Idx) (q : dot_S32x128_S128x64_S32x64_1_0_0_1_n_n.contr.Idx) :
    (dot_S32x128_S128x64_S32x64_1_0_0_1_n_n.lhsIdx i q 1).val = (q ⟨0, by decide⟩).val :=
  dot_S32x128_S128x64_S32x64_1_0_0_1_n_n.lhsIdx_val_of_single rfl i q
theorem rhs_128_64_0 (i : S32x64.Idx) (q : dot_S32x128_S128x64_S32x64_1_0_0_1_n_n.contr.Idx) :
    (dot_S32x128_S128x64_S32x64_1_0_0_1_n_n.rhsIdx i q 0).val = (q ⟨0, by decide⟩).val :=
  dot_S32x128_S128x64_S32x64_1_0_0_1_n_n.rhsIdx_val_of_single rfl i q
theorem rhs_128_64_1 (i : S32x64.Idx) (q : dot_S32x128_S128x64_S32x64_1_0_0_1_n_n.contr.Idx) :
    (dot_S32x128_S128x64_S32x64_1_0_0_1_n_n.rhsIdx i q 1).val = (i 1).val := by
  unfold DotDims.rhsIdx
  rw [dif_neg (show ¬(1 : Fin S128x64.rank) ∈ dot_S32x128_S128x64_S32x64_1_0_0_1_n_n.rhsBatch by decide), dif_pos (show (1 : Fin S128x64.rank) ∈ dot_S32x128_S128x64_S32x64_1_0_0_1_n_n.rhsNonContracting by decide)]
  rfl
/-- The 32×128 by 128×64 product into the zero accumulator, read at `(r, c)`. -/
theorem mm_128_64 (A : FVec Ideal S32x128 .f32) (B : FVec Ideal S128x64 .f32) (r : Fin 32) (c : Fin 64) :
    matmul dot_S32x128_S128x64_S32x64_1_0_0_1_n_n none A B (constant (F := Ideal) S32x64 .f32 0x00000000#32) (ix2 r c) = ∑ j : Fin 128, A (ix2 r j) * B (ix2 j c) :=
  mm_apply dot_S32x128_S128x64_S32x64_1_0_0_1_n_n rfl rfl lhs_128_64_0 lhs_128_64_1 rhs_128_64_0 rhs_128_64_1 A B r c

/-- An affine layer 128 → 64 read at `(r, c)`: the product's sum plus the bias row's entry. -/
theorem layer_128_64 (A : FVec Ideal S32x128 .f32) (W : FVec Ideal S128x64 .f32) (B : FVec Ideal S1x64 .f32) (r : Fin 32) (c : Fin 64) :
    addf (matmul dot_S32x128_S128x64_S32x64_1_0_0_1_n_n none A W (constant (F := Ideal) S32x64 .f32 0x00000000#32)) (broadcastTo S32x64 B broadcasts_S1x64_S32x64) (ix2 r c)
      = (∑ j : Fin 128, A (ix2 r j) * W (ix2 j c)) + B (ix2 0 c) :=
  congrArg₂ (· + ·) (mm_128_64 A W r c) (broadcastTo_1b_ab_apply B broadcasts_S1x64_S32x64 r c)

theorem lhs_64_16_0 (i : S32x16.Idx) (q : dot_S32x64_S64x16_S32x16_1_0_0_1_n_n.contr.Idx) :
    (dot_S32x64_S64x16_S32x16_1_0_0_1_n_n.lhsIdx i q 0).val = (i 0).val := by
  unfold DotDims.lhsIdx
  rw [dif_neg (show ¬(0 : Fin S32x64.rank) ∈ dot_S32x64_S64x16_S32x16_1_0_0_1_n_n.lhsBatch by decide), dif_pos (show (0 : Fin S32x64.rank) ∈ dot_S32x64_S64x16_S32x16_1_0_0_1_n_n.lhsNonContracting by decide)]
  rfl
theorem lhs_64_16_1 (i : S32x16.Idx) (q : dot_S32x64_S64x16_S32x16_1_0_0_1_n_n.contr.Idx) :
    (dot_S32x64_S64x16_S32x16_1_0_0_1_n_n.lhsIdx i q 1).val = (q ⟨0, by decide⟩).val :=
  dot_S32x64_S64x16_S32x16_1_0_0_1_n_n.lhsIdx_val_of_single rfl i q
theorem rhs_64_16_0 (i : S32x16.Idx) (q : dot_S32x64_S64x16_S32x16_1_0_0_1_n_n.contr.Idx) :
    (dot_S32x64_S64x16_S32x16_1_0_0_1_n_n.rhsIdx i q 0).val = (q ⟨0, by decide⟩).val :=
  dot_S32x64_S64x16_S32x16_1_0_0_1_n_n.rhsIdx_val_of_single rfl i q
theorem rhs_64_16_1 (i : S32x16.Idx) (q : dot_S32x64_S64x16_S32x16_1_0_0_1_n_n.contr.Idx) :
    (dot_S32x64_S64x16_S32x16_1_0_0_1_n_n.rhsIdx i q 1).val = (i 1).val := by
  unfold DotDims.rhsIdx
  rw [dif_neg (show ¬(1 : Fin S64x16.rank) ∈ dot_S32x64_S64x16_S32x16_1_0_0_1_n_n.rhsBatch by decide), dif_pos (show (1 : Fin S64x16.rank) ∈ dot_S32x64_S64x16_S32x16_1_0_0_1_n_n.rhsNonContracting by decide)]
  rfl
/-- The 32×64 by 64×16 product into the zero accumulator, read at `(r, c)`. -/
theorem mm_64_16 (A : FVec Ideal S32x64 .f32) (B : FVec Ideal S64x16 .f32) (r : Fin 32) (c : Fin 16) :
    matmul dot_S32x64_S64x16_S32x16_1_0_0_1_n_n none A B (constant (F := Ideal) S32x16 .f32 0x00000000#32) (ix2 r c) = ∑ j : Fin 64, A (ix2 r j) * B (ix2 j c) :=
  mm_apply dot_S32x64_S64x16_S32x16_1_0_0_1_n_n rfl rfl lhs_64_16_0 lhs_64_16_1 rhs_64_16_0 rhs_64_16_1 A B r c

/-- An affine layer 64 → 16 read at `(r, c)`: the product's sum plus the bias row's entry. -/
theorem layer_64_16 (A : FVec Ideal S32x64 .f32) (W : FVec Ideal S64x16 .f32) (B : FVec Ideal S1x16 .f32) (r : Fin 32) (c : Fin 16) :
    addf (matmul dot_S32x64_S64x16_S32x16_1_0_0_1_n_n none A W (constant (F := Ideal) S32x16 .f32 0x00000000#32)) (broadcastTo S32x16 B broadcasts_S1x16_S32x16) (ix2 r c)
      = (∑ j : Fin 64, A (ix2 r j) * W (ix2 j c)) + B (ix2 0 c) :=
  congrArg₂ (· + ·) (mm_64_16 A W r c) (broadcastTo_1b_ab_apply B broadcasts_S1x16_S32x16 r c)

theorem lhs_16_1_0 (i : S32x1.Idx) (q : dot_S32x16_S16x1_S32x1_1_0_0_1_n_n.contr.Idx) :
    (dot_S32x16_S16x1_S32x1_1_0_0_1_n_n.lhsIdx i q 0).val = (i 0).val := by
  unfold DotDims.lhsIdx
  rw [dif_neg (show ¬(0 : Fin S32x16.rank) ∈ dot_S32x16_S16x1_S32x1_1_0_0_1_n_n.lhsBatch by decide), dif_pos (show (0 : Fin S32x16.rank) ∈ dot_S32x16_S16x1_S32x1_1_0_0_1_n_n.lhsNonContracting by decide)]
  rfl
theorem lhs_16_1_1 (i : S32x1.Idx) (q : dot_S32x16_S16x1_S32x1_1_0_0_1_n_n.contr.Idx) :
    (dot_S32x16_S16x1_S32x1_1_0_0_1_n_n.lhsIdx i q 1).val = (q ⟨0, by decide⟩).val :=
  dot_S32x16_S16x1_S32x1_1_0_0_1_n_n.lhsIdx_val_of_single rfl i q
theorem rhs_16_1_0 (i : S32x1.Idx) (q : dot_S32x16_S16x1_S32x1_1_0_0_1_n_n.contr.Idx) :
    (dot_S32x16_S16x1_S32x1_1_0_0_1_n_n.rhsIdx i q 0).val = (q ⟨0, by decide⟩).val :=
  dot_S32x16_S16x1_S32x1_1_0_0_1_n_n.rhsIdx_val_of_single rfl i q
theorem rhs_16_1_1 (i : S32x1.Idx) (q : dot_S32x16_S16x1_S32x1_1_0_0_1_n_n.contr.Idx) :
    (dot_S32x16_S16x1_S32x1_1_0_0_1_n_n.rhsIdx i q 1).val = (i 1).val := by
  unfold DotDims.rhsIdx
  rw [dif_neg (show ¬(1 : Fin S16x1.rank) ∈ dot_S32x16_S16x1_S32x1_1_0_0_1_n_n.rhsBatch by decide), dif_pos (show (1 : Fin S16x1.rank) ∈ dot_S32x16_S16x1_S32x1_1_0_0_1_n_n.rhsNonContracting by decide)]
  rfl
/-- The 32×16 by 16×1 product into the zero accumulator, read at `(r, c)`. -/
theorem mm_16_1 (A : FVec Ideal S32x16 .f32) (B : FVec Ideal S16x1 .f32) (r : Fin 32) (c : Fin 1) :
    matmul dot_S32x16_S16x1_S32x1_1_0_0_1_n_n none A B (constant (F := Ideal) S32x1 .f32 0x00000000#32) (ix2 r c) = ∑ j : Fin 16, A (ix2 r j) * B (ix2 j c) :=
  mm_apply dot_S32x16_S16x1_S32x1_1_0_0_1_n_n rfl rfl lhs_16_1_0 lhs_16_1_1 rhs_16_1_0 rhs_16_1_1 A B r c

/-- An affine layer 16 → 1 read at `(r, c)`: the product's sum plus the bias row's entry. -/
theorem layer_16_1 (A : FVec Ideal S32x16 .f32) (W : FVec Ideal S16x1 .f32) (B : FVec Ideal S1x1 .f32) (r : Fin 32) (c : Fin 1) :
    addf (matmul dot_S32x16_S16x1_S32x1_1_0_0_1_n_n none A W (constant (F := Ideal) S32x1 .f32 0x00000000#32)) (broadcastTo S32x1 B broadcasts_S1x1_S32x1) (ix2 r c)
      = (∑ j : Fin 16, A (ix2 r j) * W (ix2 j c)) + B (ix2 0 c) :=
  congrArg₂ (· + ·) (mm_16_1 A W r c) (broadcastTo_1b_ab_apply B broadcasts_S1x1_S32x1 r c)

theorem lhs_4_1_0 (i : S32x1.Idx) (q : dot_S32x4_S4x1_S32x1_1_0_0_1_n_n.contr.Idx) :
    (dot_S32x4_S4x1_S32x1_1_0_0_1_n_n.lhsIdx i q 0).val = (i 0).val := by
  unfold DotDims.lhsIdx
  rw [dif_neg (show ¬(0 : Fin S32x4.rank) ∈ dot_S32x4_S4x1_S32x1_1_0_0_1_n_n.lhsBatch by decide), dif_pos (show (0 : Fin S32x4.rank) ∈ dot_S32x4_S4x1_S32x1_1_0_0_1_n_n.lhsNonContracting by decide)]
  rfl
theorem lhs_4_1_1 (i : S32x1.Idx) (q : dot_S32x4_S4x1_S32x1_1_0_0_1_n_n.contr.Idx) :
    (dot_S32x4_S4x1_S32x1_1_0_0_1_n_n.lhsIdx i q 1).val = (q ⟨0, by decide⟩).val :=
  dot_S32x4_S4x1_S32x1_1_0_0_1_n_n.lhsIdx_val_of_single rfl i q
theorem rhs_4_1_0 (i : S32x1.Idx) (q : dot_S32x4_S4x1_S32x1_1_0_0_1_n_n.contr.Idx) :
    (dot_S32x4_S4x1_S32x1_1_0_0_1_n_n.rhsIdx i q 0).val = (q ⟨0, by decide⟩).val :=
  dot_S32x4_S4x1_S32x1_1_0_0_1_n_n.rhsIdx_val_of_single rfl i q
theorem rhs_4_1_1 (i : S32x1.Idx) (q : dot_S32x4_S4x1_S32x1_1_0_0_1_n_n.contr.Idx) :
    (dot_S32x4_S4x1_S32x1_1_0_0_1_n_n.rhsIdx i q 1).val = (i 1).val := by
  unfold DotDims.rhsIdx
  rw [dif_neg (show ¬(1 : Fin S4x1.rank) ∈ dot_S32x4_S4x1_S32x1_1_0_0_1_n_n.rhsBatch by decide), dif_pos (show (1 : Fin S4x1.rank) ∈ dot_S32x4_S4x1_S32x1_1_0_0_1_n_n.rhsNonContracting by decide)]
  rfl
/-- The 32×4 by 4×1 product into the zero accumulator, read at `(r, c)`. -/
theorem mm_4_1 (A : FVec Ideal S32x4 .f32) (B : FVec Ideal S4x1 .f32) (r : Fin 32) (c : Fin 1) :
    matmul dot_S32x4_S4x1_S32x1_1_0_0_1_n_n none A B (constant (F := Ideal) S32x1 .f32 0x00000000#32) (ix2 r c) = ∑ j : Fin 4, A (ix2 r j) * B (ix2 j c) :=
  mm_apply dot_S32x4_S4x1_S32x1_1_0_0_1_n_n rfl rfl lhs_4_1_0 lhs_4_1_1 rhs_4_1_0 rhs_4_1_1 A B r c

/-- An affine layer 4 → 1 read at `(r, c)`: the product's sum plus the bias row's entry. -/
theorem layer_4_1 (A : FVec Ideal S32x4 .f32) (W : FVec Ideal S4x1 .f32) (B : FVec Ideal S1x1 .f32) (r : Fin 32) (c : Fin 1) :
    addf (matmul dot_S32x4_S4x1_S32x1_1_0_0_1_n_n none A W (constant (F := Ideal) S32x1 .f32 0x00000000#32)) (broadcastTo S32x1 B broadcasts_S1x1_S32x1) (ix2 r c)
      = (∑ j : Fin 4, A (ix2 r j) * W (ix2 j c)) + B (ix2 0 c) :=
  congrArg₂ (· + ·) (mm_4_1 A W r c) (broadcastTo_1b_ab_apply B broadcasts_S1x1_S32x1 r c)

/-- Rectifying against the broadcast zero, read at an index. -/
theorem relu_apply {s : Shape} (X : FVec Ideal s .f32) (i : s.Idx) :
    maximumf X (broadcast s (Scalar.ofBits .f32 0x00000000#32)) i = max (X i) 0 :=
  congrArg (max (X i)) Ideal.ofBits_zero_f32

/-- The kernel's term for one block's share of the readout, from the flattened block, the matrix and the bias row. -/
abbrev shareTerm (X : FVec Ideal S4096x80 .f32) (W : FVec Ideal S80x40 .f32) (B : FVec Ideal S1x40 .f32) : FVec Ideal S32x40 .f32 :=
  multiReduction (F := Ideal) .add [1] S32x40
    (shapeCast S32x128x40
      (maximumf (addf (matmul dot_S4096x80_S80x40_S4096x40_1_0_0_1_n_n none X W (constant (F := Ideal) S4096x40 .f32 0x00000000#32))
          (broadcastTo S4096x40 B broadcasts_S1x40_S4096x40))
        (broadcast S4096x40 (Scalar.ofBits .f32 0x00000000#32)))
      shapeCasts_S4096x40_S32x128x40)
    0x00000000#32 reduces_S32x128x40_S32x40 (.inl rfl) rfl

/-- Channel `o'` of graph-row `r` after the four blocks: what the first two left, plus the third block's share read
    off its flattened form, plus the fourth block's share. -/
def acc4 (v28 : FVec Ideal S32x40 .f32) (v31 : FVec Ideal S4096x80 .f32) (v33 : FVec Ideal S80x40 .f32) (v35 : FVec Ideal S1x40 .f32)
    (v44 : FVec Ideal S32x128x80 .f32) (v47 : FVec Ideal S80x40 .f32) (v50 : FVec Ideal S1x40 .f32) (r : Fin 32) (o' : Fin 40) : EReal :=
  (v28 (ix2 r o') + ∑ n' : Fin 128, max ((∑ f : Fin 80, v31 (ix2 (⟨128 * r.val + n'.val, by omega⟩ : Fin 4096) f) * v33 (ix2 f o')) + v35 (ix2 0 o')) 0)
    + Cert.Spec.kpart (fun a b c => v44 (ix3 a b c)) (fun a b => v47 (ix2 a b)) (fun a => v50 (ix2 0 a)) r o'

theorem acc4_apply (v28 : FVec Ideal S32x40 .f32) (v31 : FVec Ideal S4096x80 .f32) (v33 : FVec Ideal S80x40 .f32) (v35 : FVec Ideal S1x40 .f32)
    (v44 : FVec Ideal S32x128x80 .f32) (v47 : FVec Ideal S80x40 .f32) (v50 : FVec Ideal S1x40 .f32) (r : Fin 32) (o' : Fin 40) :
    addf (addf v28 (shareTerm v31 v33 v35)) (shareTerm (shapeCast S4096x80 v44 shapeCasts_S32x128x80_S4096x80) v47 v50) (ix2 r o')
      = acc4 v28 v31 v33 v35 v44 v47 v50 r o' := by
  refine (addf_apply _ _ _).trans ?_
  refine congrArg₂ (· + ·) ((addf_apply _ _ _).trans (congrArg (v28 (ix2 r o') + ·) (blockShare v31 v33 v35 r o'))) ?_
  refine (blockShare _ v47 v50 r o').trans ?_
  unfold Cert.Spec.kpart
  refine Finset.sum_congr rfl fun n' _ => ?_
  refine congrArg (max · 0) (congrArg (· + v50 (ix2 0 o')) (Finset.sum_congr rfl fun f _ => ?_))
  exact congrArg (· * v47 (ix2 f o')) (flat_apply v44 r n' f)

/-- The value handed to the dense head, read at `(r, j)`: the folded readout through the first dense layer, before rectifying. -/
theorem pay6_apply (v28 : FVec Ideal S32x40 .f32) (v31 : FVec Ideal S4096x80 .f32) (v33 : FVec Ideal S80x40 .f32) (v35 : Vec Ideal S1x40 .f32) (v44 : Vec Ideal S32x128x80 .f32) (v47 : Vec Ideal S80x40 .f32) (v50 : Vec Ideal S1x40 .f32) (v64 : Vec Ideal S20x128 .f32) (v66 : Vec Ideal S1x128 .f32) (r : Fin 32) (j : Fin 128) :
    k0_pay6 (F := Ideal) v28 v31 v33 v35 v44 v47 v50 v64 v66 (ix2 r j)
      = (∑ o : Fin 20, (acc4 v28 v31 v33 v35 v44 v47 v50 r (Fin.castLE (by decide) o) + acc4 v28 v31 v33 v35 v44 v47 v50 r ⟨20 + o.val, by omega⟩) * v64 (ix2 o j)) + v66 (ix2 0 j) := by
  unfold k0_pay6
  simp only [shapeCast_self]
  refine (layer_20_128 _ v64 v66 r j).trans ?_
  refine congrArg (· + v66 (ix2 0 j)) (Finset.sum_congr rfl fun o _ => congrArg (· * v64 (ix2 o j)) ?_)
  refine (addf_apply _ _ _).trans ?_
  refine congrArg₂ (· + ·) ?_ ?_
  · refine (slice2_axis1_apply 0 _ slices_S32x40_o0_0_S32x20 r o (Fin.castLE (by decide) o) (by simp)).trans ?_
    exact acc4_apply v28 v31 v33 v35 v44 v47 v50 r _
  · refine (slice2_axis1_apply 20 _ slices_S32x40_o0_20_S32x20 r o ⟨20 + o.val, by omega⟩ rfl).trans ?_
    exact acc4_apply v28 v31 v33 v35 v44 v47 v50 r _

/-- The dense head after its first layer's sums `c0` (before rectifying), with the physics columns `ph` appended before the last layer. -/
def headTail (c0 : Fin 128 → EReal) (ph : Fin 3 → EReal) (w1 : Fin 128 → Fin 64 → EReal) (b1 : Fin 64 → EReal)
    (w5 : Fin 64 → Fin 16 → EReal) (b5 : Fin 16 → EReal) (w6 : Fin 16 → EReal) (b6 : EReal) (w7 : Fin 4 → EReal) (b7 : EReal) : EReal :=
  let c : Fin 128 → EReal := fun j => max (c0 j) 0
  let d1 : Fin 64 → EReal := fun j => max ((∑ k : Fin 128, c k * w1 k j) + b1 j) 0
  let d5 : Fin 16 → EReal := fun j => (∑ k : Fin 64, d1 k * w5 k j) + b5 j
  let mv : EReal := (∑ k : Fin 16, d5 k * w6 k) + b6
  (∑ k : Fin 4, (Fin.cases (motive := fun _ => EReal) mv ph k) * w7 k) + b7

/-- The three physics columns: the slice of columns 37-39 of each graph's first pair-row, its unit axis dropped. -/
theorem phys_apply (v63 : FVec Ideal S32x128x80 .f32) (r : Fin 32) (k' : Fin 3) :
    shapeCast S32x3 (extractStridedSlice S32x1x3 ![0, 0, 37] v63 slices_S32x128x80_o0_0_37_S32x1x3) shapeCasts_S32x1x3_S32x3 (ix2 r k')
      = v63 (ix3 r (0 : Fin 128) (⟨37 + k'.val, by omega⟩ : Fin 80)) := by
  refine (shapeCast_apply _ shapeCasts_S32x1x3_S32x3 (ix2 r k') (ix3 r (0 : Fin 1) k') ?_).trans ?_
  · rw [Shape.rowMajor_val_three, Shape.rowMajor_val_two]
    show (r.val * 1 + 0) * 3 + k'.val = r.val * 3 + k'.val
    omega
  · exact extractStridedSlice_apply _ v63 slices_S32x128x80_o0_0_37_S32x1x3 (ix3 r (0 : Fin 1) k') (ix3 r (0 : Fin 128) (⟨37 + k'.val, by omega⟩ : Fin 80)) (fun a => by
      match a with
      | ⟨0, _⟩ => exact (Nat.zero_add _).symm
      | ⟨1, _⟩ => rfl
      | ⟨2, _⟩ => rfl)

/-- The kernel's output value at row `r`, from the first-layer sums `v69` and the first block `v63`. -/
theorem pay1_apply (v63 : FVec Ideal S32x128x80 .f32) (v69 : FVec Ideal S32x128 .f32) (v72 : Vec Ideal S128x64 .f32) (v74 : Vec Ideal S1x64 .f32) (v80 : Vec Ideal S64x16 .f32) (v82 : Vec Ideal S1x16 .f32) (v86 : Vec Ideal S16x1 .f32) (v88 : Vec Ideal S1x1 .f32) (v95 : Vec Ideal S4x1 .f32) (v97 : Vec Ideal S1x1 .f32) (r : Fin 32) :
    k0_pay1 (F := Ideal) v63 v69 (Scalar.ofBits .f32 0x00000000#32) v72 v74 v80 v82 v86 v88 v95 v97 (ix2 r 0)
      = headTail (fun j => v69 (ix2 r j)) (fun k : Fin 3 => v63 (ix3 r (0 : Fin 128) (⟨37 + k.val, by omega⟩ : Fin 80)))
          (fun a b => v72 (ix2 a b)) (fun a => v74 (ix2 0 a)) (fun a b => v80 (ix2 a b)) (fun a => v82 (ix2 0 a))
          (fun a => v86 (ix2 a 0)) (v88 (ix2 0 0)) (fun a => v95 (ix2 a 0)) (v97 (ix2 0 0)) := by
  unfold k0_pay1 headTail
  simp only [shapeCast_self]
  refine (layer_4_1 _ v95 v97 r 0).trans ?_
  refine congrArg (· + v97 (ix2 0 0)) (Finset.sum_congr rfl fun k _ => congrArg (· * v95 (ix2 k 0)) ?_)
  refine Fin.cases ?_ (fun k' => ?_) k
  · refine (concatenate_pair_apply_left 1 _ _ concatenates_S32x1_S32x3_S32x4_d1 (ix2 r 0) rfl (ix2 r 0) (fun b => by
      match b with
      | ⟨0, _⟩ => rfl
      | ⟨1, _⟩ => rfl)).trans ?_
    rw [Fin.cases_zero]
    simp only [shapeCast_self]
    refine (layer_16_1 _ v86 v88 r 0).trans ?_
    refine congrArg (· + v88 (ix2 0 0)) (Finset.sum_congr rfl fun k5 _ => congrArg (· * v86 (ix2 k5 0)) ?_)
    refine (layer_64_16 _ v80 v82 r k5).trans ?_
    refine congrArg (· + v82 (ix2 0 k5)) (Finset.sum_congr rfl fun k1 _ => congrArg (· * v80 (ix2 k1 k5)) ?_)
    refine (relu_apply _ _).trans (congrArg (max · 0) ?_)
    refine (layer_128_64 _ v72 v74 r k1).trans ?_
    refine congrArg (· + v74 (ix2 0 k1)) (Finset.sum_congr rfl fun kc _ => congrArg (· * v72 (ix2 kc k1)) ?_)
    exact relu_apply _ _
  · refine (concatenate_pair_apply_right 1 _ _ concatenates_S32x1_S32x3_S32x4_d1 (ix2 r k'.succ) rfl rfl (ix2 r k') (fun b hb => ?_) ?_).trans ?_
    · match b with
      | ⟨0, _⟩ => rfl
      | ⟨1, _⟩ => exact absurd rfl hb
    · rfl
    rw [Fin.cases_succ]
    exact phys_apply v63 r k'

theorem hz2 : (![0, 0] : Fin 2 → Nat) = fun _ => 0 := funext fun a => by fin_cases a <;> rfl
theorem hz3 : (![0, 0, 0] : Fin 3 → Nat) = fun _ => 0 := funext fun a => by fin_cases a <;> rfl

/-- With the first three blocks' values in place, the accumulated channel is the four shares added in the kernel's order. -/
theorem acc4_eq_kparts (x0 x1 x2 x3 : Vec Ideal S32x128x80 .f32) (x4 : Vec Ideal S80x40 .f32) (x5 : Vec Ideal S1x40 .f32) (r : Fin 32) (o' : Fin 40) :
    acc4 (k0_pay2 (F := Ideal) x0 x4 x5 x1 x4 x5) (k0_pay3 (F := Ideal) x2) x4 x5 x3 x4 x5 r o'
      = Cert.Spec.kparts (fun a b c => x0 (ix3 a b c)) (fun a b c => x1 (ix3 a b c)) (fun a b c => x2 (ix3 a b c)) (fun a b c => x3 (ix3 a b c))
          (fun a b => x4 (ix2 a b)) (fun a => x5 (ix2 0 a)) r o' := by
  unfold acc4 Cert.Spec.kparts
  rw [pay2_apply]
  refine congrArg₂ (· + ·) (congrArg₂ (· + ·) rfl ?_) rfl
  unfold Cert.Spec.kpart
  refine Finset.sum_congr rfl fun n' _ => ?_
  refine congrArg (max · 0) (congrArg (· + x5 (ix2 0 o')) (Finset.sum_congr rfl fun f _ => ?_))
  exact congrArg (· * x4 (ix2 f o')) (pay3_apply x2 r n' f)

end Head

open Head

/-- The output block at row `r` is the specification's head of the kernel's readout of that row. -/
theorem out_apply (x0 : Vec Ideal S32x128x80 .f32) (x1 : Vec Ideal S32x128x80 .f32) (x2 : Vec Ideal S32x128x80 .f32) (x3 : Vec Ideal S32x128x80 .f32) (x4 : Vec Ideal S80x40 .f32) (x5 : Vec Ideal S1x40 .f32) (x6 : Vec Ideal S20x128 .f32) (x7 : Vec Ideal S1x128 .f32) (x8 : Vec Ideal S128x64 .f32) (x9 : Vec Ideal S1x64 .f32) (x10 : Vec Ideal S64x16 .f32) (x11 : Vec Ideal S1x16 .f32) (x12 : Vec Ideal S16x1 .f32) (x13 : Vec Ideal S1x1 .f32) (x14 : Vec Ideal S4x1 .f32) (x15 : Vec Ideal S1x1 .f32) (r : Fin 32) :
    Cert.KernelIdeal.Hand.out0_16 (F := Ideal) x0 x1 x2 x3 x4 x5 x6 x7 x8 x9 x10 x11 x12 x13 x14 x15 (ix2 r 0)
      = Cert.Spec.head (Cert.Spec.kg (fun a b c => x0 (ix3 a b c)) (fun a b c => x1 (ix3 a b c)) (fun a b c => x2 (ix3 a b c)) (fun a b c => x3 (ix3 a b c)) (fun a b => x4 (ix2 a b)) (fun a => x5 (ix2 0 a)) r)
          (fun k : Fin 3 => x0 (ix3 r (0 : Fin 128) (⟨37 + k.val, by omega⟩ : Fin 80)))
          (fun a b => x6 (ix2 a b)) (fun a => x7 (ix2 0 a)) (fun a b => x8 (ix2 a b)) (fun a => x9 (ix2 0 a)) (fun a b => x10 (ix2 a b)) (fun a => x11 (ix2 0 a))
          (fun a => x12 (ix2 a 0)) (x13 (ix2 0 0)) (fun a => x14 (ix2 a 0)) (x15 (ix2 0 0)) := by
  unfold Cert.KernelIdeal.Hand.out0_16
  rw [View.canon_unit_zero hz2]
  simp only [View.ld_unit_zero (S := S32x128x80) hz3, View.ld_unit_zero (S := S80x40) hz2, View.ld_unit_zero (S := S1x40) hz2,
    View.ld_unit_zero (S := S20x128) hz2, View.ld_unit_zero (S := S1x128) hz2, View.ld_unit_zero (S := S128x64) hz2,
    View.ld_unit_zero (S := S1x64) hz2, View.ld_unit_zero (S := S64x16) hz2, View.ld_unit_zero (S := S1x16) hz2,
    View.ld_unit_zero (S := S16x1) hz2, View.ld_unit_zero (S := S1x1) hz2, View.ld_unit_zero (S := S4x1) hz2]
  rw [pay5_eq, pay4_eq]
  refine (pay1_apply x0 _ x8 x9 x10 x11 x12 x13 x14 x15 r).trans ?_
  have hc : (fun j : Fin 128 => k0_pay6 (F := Ideal) (k0_pay2 (F := Ideal) x0 x4 x5 x1 x4 x5) (k0_pay3 (F := Ideal) x2) x4 x5 x3 x4 x5 x6 x7 (ix2 r j))
      = fun j : Fin 128 => (∑ o : Fin 20, Cert.Spec.kg (fun a b c => x0 (ix3 a b c)) (fun a b c => x1 (ix3 a b c)) (fun a b c => x2 (ix3 a b c)) (fun a b c => x3 (ix3 a b c)) (fun a b => x4 (ix2 a b)) (fun a => x5 (ix2 0 a)) r o * x6 (ix2 o j)) + x7 (ix2 0 j) := by
    funext j
    refine (pay6_apply _ _ x4 x5 x3 x4 x5 x6 x7 r j).trans ?_
    refine congrArg (· + x7 (ix2 0 j)) (Finset.sum_congr rfl fun o _ => congrArg (· * x6 (ix2 o j)) ?_)
    unfold Cert.Spec.kg
    exact congrArg₂ (· + ·) (acc4_eq_kparts x0 x1 x2 x3 x4 x5 r _) (acc4_eq_kparts x0 x1 x2 x3 x4 x5 r _)
  rw [hc]
  rfl

end Cert.KernelIdeal.KVal

end
-- ==== Proof.KI.HostVal.lean ====
/- What the host operations before the region leave in the arrays the kernel's windows stage, read at an index:
   the two-atoms-per-row view of the input (a reshape: pair-row n', column f is atom 2 n' + f / 40, feature f % 40),
   the 80×40 block-diagonal matrix (the rule matrix padded with three zero rows, beside a zero block, above a zero
   block beside the padded matrix again), the rule bias twice as a 1×40 row, and the five head biases as 1×n rows. -/
import proofs.«144514_g55645596287706_cont_9to1_m_505_7_alg».proof.Proof.KI.Base
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

set_option maxRecDepth 16384

noncomputable section

open Idealize.ShloMosaic Idealize.ShloMosaic.TcCoe Idealize.ShloMosaic.ValueIdx
open Idealize.SL.Sem
open scoped BigOperators

namespace Cert.KernelIdeal.HostVal

open Cert.KernelIdeal Cert.KernelIdeal.Gen Cert.KernelIdeal.Hand

variable (m : (ℓ : Loc nD τ sig) → Buf (Elt Ideal) ℓ) (c : Dev nD)

section Stack
variable {α : Type}

/-- Two matrices stacked by rows, read at an entry whose row lies below the first height: the first matrix's entry. -/
theorem stackRows_lt {a₁ a₂ n b : ℕ} (x₁ : (⟨2, ![a₁, b]⟩ : Shape).Idx → α) (x₂ : (⟨2, ![a₂, b]⟩ : Shape).Idx → α)
    (h : Shape.Concatenates [(⟨2, ![a₁, b]⟩ : Shape), ⟨2, ![a₂, b]⟩] ⟨2, ![n, b]⟩ (0 : Fin 2))
    (i : Fin n) (j : Fin b) (hi : i.val < a₁) :
    concatenate (⟨2, ![n, b]⟩ : Shape) (0 : Fin 2) [⟨⟨2, ![a₁, b]⟩, x₁⟩, ⟨⟨2, ![a₂, b]⟩, x₂⟩] h (ix2 i j)
      = x₁ (ix2 (⟨i.val, hi⟩ : Fin a₁) j) :=
  concatenate_pair_apply_left (t := ⟨2, ![n, b]⟩) (s₁ := ⟨2, ![a₁, b]⟩) (s₂ := ⟨2, ![a₂, b]⟩) (0 : Fin 2) _ _ h _ rfl
    (ix2 (⟨i.val, hi⟩ : Fin a₁) j) (by
      intro d
      match d with
      | ⟨0, _⟩ => rfl
      | ⟨1, _⟩ => rfl)

/-- Two matrices stacked by rows, read at an entry whose row lies at or past the first height: the second matrix's
    entry, the first height less. -/
theorem stackRows_ge {a₁ a₂ n b : ℕ} (x₁ : (⟨2, ![a₁, b]⟩ : Shape).Idx → α) (x₂ : (⟨2, ![a₂, b]⟩ : Shape).Idx → α)
    (h : Shape.Concatenates [(⟨2, ![a₁, b]⟩ : Shape), ⟨2, ![a₂, b]⟩] ⟨2, ![n, b]⟩ (0 : Fin 2)) (hn : n = a₁ + a₂)
    (i : Fin n) (j : Fin b) (hi : a₁ ≤ i.val) :
    concatenate (⟨2, ![n, b]⟩ : Shape) (0 : Fin 2) [⟨⟨2, ![a₁, b]⟩, x₁⟩, ⟨⟨2, ![a₂, b]⟩, x₂⟩] h (ix2 i j)
      = x₂ (ix2 (⟨i.val - a₁, by omega⟩ : Fin a₂) j) :=
  concatenate_pair_apply_right (t := ⟨2, ![n, b]⟩) (s₁ := ⟨2, ![a₁, b]⟩) (s₂ := ⟨2, ![a₂, b]⟩) (0 : Fin 2) _ _ h _ rfl rfl
    (ix2 (⟨i.val - a₁, by omega⟩ : Fin a₂) j) (by
      intro d hd
      match d with
      | ⟨0, _⟩ => exact absurd rfl hd
      | ⟨1, _⟩ => rfl) (by
      show i.val - a₁ + a₁ = i.val; omega)

/-- Two matrices set side by side, read at an entry whose column lies below the first width: the first matrix's entry. -/
theorem stackCols_lt {a b₁ b₂ n : ℕ} (x₁ : (⟨2, ![a, b₁]⟩ : Shape).Idx → α) (x₂ : (⟨2, ![a, b₂]⟩ : Shape).Idx → α)
    (h : Shape.Concatenates [(⟨2, ![a, b₁]⟩ : Shape), ⟨2, ![a, b₂]⟩] ⟨2, ![a, n]⟩ (1 : Fin 2))
    (i : Fin a) (j : Fin n) (hj : j.val < b₁) :
    concatenate (⟨2, ![a, n]⟩ : Shape) (1 : Fin 2) [⟨⟨2, ![a, b₁]⟩, x₁⟩, ⟨⟨2, ![a, b₂]⟩, x₂⟩] h (ix2 i j)
      = x₁ (ix2 i (⟨j.val, hj⟩ : Fin b₁)) :=
  concatenate_pair_apply_left (t := ⟨2, ![a, n]⟩) (s₁ := ⟨2, ![a, b₁]⟩) (s₂ := ⟨2, ![a, b₂]⟩) (1 : Fin 2) _ _ h _ rfl
    (ix2 i (⟨j.val, hj⟩ : Fin b₁)) (by
      intro d
      match d with
      | ⟨0, _⟩ => rfl
      | ⟨1, _⟩ => rfl)

/-- Two matrices set side by side, read at an entry whose column lies at or past the first width: the second
    matrix's entry, the first width less. -/
theorem stackCols_ge {a b₁ b₂ n : ℕ} (x₁ : (⟨2, ![a, b₁]⟩ : Shape).Idx → α) (x₂ : (⟨2, ![a, b₂]⟩ : Shape).Idx → α)
    (h : Shape.Concatenates [(⟨2, ![a, b₁]⟩ : Shape), ⟨2, ![a, b₂]⟩] ⟨2, ![a, n]⟩ (1 : Fin 2)) (hn : n = b₁ + b₂)
    (i : Fin a) (j : Fin n) (hj : b₁ ≤ j.val) :
    concatenate (⟨2, ![a, n]⟩ : Shape) (1 : Fin 2) [⟨⟨2, ![a, b₁]⟩, x₁⟩, ⟨⟨2, ![a, b₂]⟩, x₂⟩] h (ix2 i j)
      = x₂ (ix2 i (⟨j.val - b₁, by omega⟩ : Fin b₂)) :=
  concatenate_pair_apply_right (t := ⟨2, ![a, n]⟩) (s₁ := ⟨2, ![a, b₁]⟩) (s₂ := ⟨2, ![a, b₂]⟩) (1 : Fin 2) _ _ h _ rfl rfl
    (ix2 i (⟨j.val - b₁, by omega⟩ : Fin b₂)) (by
      intro d hd
      match d with
      | ⟨0, _⟩ => rfl
      | ⟨1, _⟩ => exact absurd rfl hd) (by
      show j.val - b₁ + b₁ = j.val; omega)

end Stack

/-- The three padding rows are zero. -/
theorem zero3x20_apply (i : S3x20.Idx) :
    (broadcastInDim S3x20 ![] bcast_S_S3x20 (constant (F := Ideal) S_ .f32 0x00000000#32) : S3x20.Idx → EReal) i = 0 :=
  Ideal.ofBits_zero_f32

/-- The off-diagonal block is zero. -/
theorem zero40x20_apply (i : S40x20.Idx) :
    (broadcastInDim S40x20 ![] bcast_S_S40x20 (constant (F := Ideal) S_ .f32 0x00000000#32) : S40x20.Idx → EReal) i = 0 :=
  Ideal.ofBits_zero_f32

/-- The two-atoms-per-row view. -/
theorem v8_apply (b : Fin 1024) (n' : Fin 512) (f : Fin 80) :
    (V m c main_v8 : S1024x512x80.Idx → EReal) (ix3 b n' f)
      = (m ((c : Thread nD τ).loc main_arg0) : S1024x1024x40.Idx → EReal)
          (ix3 b (⟨2 * n'.val + f.val / 40, by omega⟩ : Fin 1024) (⟨f.val % 40, by omega⟩ : Fin 40)) := by
  have e : (V m c main_v8 : S1024x512x80.Idx → EReal)
      = shapeCast S1024x512x80 (m ((c : Thread nD τ).loc main_arg0) : S1024x1024x40.Idx → EReal)
          shapeCasts_S1024x1024x40_S1024x512x80 := by
    dsimp only [Hand.V, hostOps0]; after_results; rfl
  rw [e]
  refine shapeCast_apply (s := S1024x1024x40) (t := S1024x512x80) _ _ _ _ ?_
  rw [Shape.rowMajor_val_three, Shape.rowMajor_val_three]
  show (b.val * 1024 + (2 * n'.val + f.val / 40)) * 40 + f.val % 40 = (b.val * 512 + n'.val) * 80 + f.val
  omega

/-- The block-diagonal matrix. -/
theorem v5_apply (f : Fin 80) (o' : Fin 40) :
    (V m c main_v5 : S80x40.Idx → EReal) (ix2 f o')
      = (if h : f.val < 37 ∧ o'.val < 20 then
          (m ((c : Thread nD τ).loc main_arg1) : S37x20.Idx → EReal) (ix2 (⟨f.val, h.1⟩ : Fin 37) (⟨o'.val, h.2⟩ : Fin 20))
        else if h : (40 ≤ f.val ∧ f.val < 77) ∧ 20 ≤ o'.val then
          (m ((c : Thread nD τ).loc main_arg1) : S37x20.Idx → EReal) (ix2 (⟨f.val - 40, by omega⟩ : Fin 37) (⟨o'.val - 20, by omega⟩ : Fin 20))
        else 0 : EReal) := by
  have e : (V m c main_v5 : S80x40.Idx → EReal)
      = concatenate S80x40 0 [⟨S40x40, (concatenate S40x40 1 [⟨S40x20, (concatenate S40x20 0 [⟨S37x20, (m ((c : Thread nD τ).loc main_arg1) : S37x20.Idx → EReal)⟩, ⟨S3x20, (broadcastInDim S3x20 ![] bcast_S_S3x20 (constant (F := Ideal) S_ .f32 0x00000000#32))⟩] concatenates_S37x20_S3x20_S40x20_d0)⟩, ⟨S40x20, (broadcastInDim S40x20 ![] bcast_S_S40x20 (constant (F := Ideal) S_ .f32 0x00000000#32))⟩] concatenates_S40x20_S40x20_S40x40_d1)⟩, ⟨S40x40, (concatenate S40x40 1 [⟨S40x20, (broadcastInDim S40x20 ![] bcast_S_S40x20 (constant (F := Ideal) S_ .f32 0x00000000#32))⟩, ⟨S40x20, (concatenate S40x20 0 [⟨S37x20, (m ((c : Thread nD τ).loc main_arg1) : S37x20.Idx → EReal)⟩, ⟨S3x20, (broadcastInDim S3x20 ![] bcast_S_S3x20 (constant (F := Ideal) S_ .f32 0x00000000#32))⟩] concatenates_S37x20_S3x20_S40x20_d0)⟩] concatenates_S40x20_S40x20_S40x40_d1)⟩] concatenates_S40x40_S40x40_S80x40_d0 := by
    dsimp only [Hand.V, hostOps0]; after_results
  rw [e]
  by_cases hf : f.val < 40
  · refine (stackRows_lt (a₁ := 40) (a₂ := 40) (n := 80) (b := 40) _ _ concatenates_S40x40_S40x40_S80x40_d0 f o' hf).trans ?_
    by_cases ho : o'.val < 20
    · refine (stackCols_lt (a := 40) (b₁ := 20) (b₂ := 20) (n := 40) _ _ concatenates_S40x20_S40x20_S40x40_d1 (⟨f.val, hf⟩ : Fin 40) o' ho).trans ?_
      by_cases hf' : f.val < 37
      · refine (stackRows_lt (a₁ := 37) (a₂ := 3) (n := 40) (b := 20) _ _ concatenates_S37x20_S3x20_S40x20_d0 (⟨f.val, hf⟩ : Fin 40) (⟨o'.val, ho⟩ : Fin 20) hf').trans ?_
        rw [dif_pos (show f.val < 37 ∧ o'.val < 20 from ⟨hf', ho⟩)]
      · refine (stackRows_ge (a₁ := 37) (a₂ := 3) (n := 40) (b := 20) _ _ concatenates_S37x20_S3x20_S40x20_d0 rfl (⟨f.val, hf⟩ : Fin 40) (⟨o'.val, ho⟩ : Fin 20) (by show 37 ≤ f.val; omega)).trans ?_
        refine (zero3x20_apply _).trans ?_
        rw [dif_neg (show ¬ (f.val < 37 ∧ o'.val < 20) by omega), dif_neg (show ¬ ((40 ≤ f.val ∧ f.val < 77) ∧ 20 ≤ o'.val) by omega)]
    · refine (stackCols_ge (a := 40) (b₁ := 20) (b₂ := 20) (n := 40) _ _ concatenates_S40x20_S40x20_S40x40_d1 rfl (⟨f.val, hf⟩ : Fin 40) o' (by omega)).trans ?_
      refine (zero40x20_apply _).trans ?_
      rw [dif_neg (show ¬ (f.val < 37 ∧ o'.val < 20) by omega), dif_neg (show ¬ ((40 ≤ f.val ∧ f.val < 77) ∧ 20 ≤ o'.val) by omega)]
  · refine (stackRows_ge (a₁ := 40) (a₂ := 40) (n := 80) (b := 40) _ _ concatenates_S40x40_S40x40_S80x40_d0 rfl f o' (by omega)).trans ?_
    by_cases ho : o'.val < 20
    · refine (stackCols_lt (a := 40) (b₁ := 20) (b₂ := 20) (n := 40) _ _ concatenates_S40x20_S40x20_S40x40_d1 (⟨f.val - 40, by omega⟩ : Fin 40) o' ho).trans ?_
      refine (zero40x20_apply _).trans ?_
      rw [dif_neg (show ¬ (f.val < 37 ∧ o'.val < 20) by omega), dif_neg (show ¬ ((40 ≤ f.val ∧ f.val < 77) ∧ 20 ≤ o'.val) by omega)]
    · refine (stackCols_ge (a := 40) (b₁ := 20) (b₂ := 20) (n := 40) _ _ concatenates_S40x20_S40x20_S40x40_d1 rfl (⟨f.val - 40, by omega⟩ : Fin 40) o' (by omega)).trans ?_
      by_cases hf' : f.val < 77
      · refine (stackRows_lt (a₁ := 37) (a₂ := 3) (n := 40) (b := 20) _ _ concatenates_S37x20_S3x20_S40x20_d0 (⟨f.val - 40, by omega⟩ : Fin 40) (⟨o'.val - 20, by omega⟩ : Fin 20) (by show f.val - 40 < 37; omega)).trans ?_
        rw [dif_neg (show ¬ (f.val < 37 ∧ o'.val < 20) by omega), dif_pos (show (40 ≤ f.val ∧ f.val < 77) ∧ 20 ≤ o'.val by omega)]
      · refine (stackRows_ge (a₁ := 37) (a₂ := 3) (n := 40) (b := 20) _ _ concatenates_S37x20_S3x20_S40x20_d0 rfl (⟨f.val - 40, by omega⟩ : Fin 40) (⟨o'.val - 20, by omega⟩ : Fin 20) (by show 37 ≤ f.val - 40; omega)).trans ?_
        refine (zero3x20_apply _).trans ?_
        rw [dif_neg (show ¬ (f.val < 37 ∧ o'.val < 20) by omega), dif_neg (show ¬ ((40 ≤ f.val ∧ f.val < 77) ∧ 20 ≤ o'.val) by omega)]

/-- The doubled bias row. -/
theorem v7_apply (o' : Fin 40) :
    (V m c main_v7 : S1x40.Idx → EReal) (ix2 0 o')
      = (m ((c : Thread nD τ).loc main_arg2) : S20.Idx → EReal) (ix1 (⟨o'.val % 20, by omega⟩ : Fin 20)) := by
  have e : (V m c main_v7 : S1x40.Idx → EReal)
      = shapeCast S1x40 (concatenate S40 0 [⟨S20, (m ((c : Thread nD τ).loc main_arg2) : S20.Idx → EReal)⟩,
          ⟨S20, (m ((c : Thread nD τ).loc main_arg2) : S20.Idx → EReal)⟩] concatenates_S20_S20_S40_d0) shapeCasts_S40_S1x40 := by
    dsimp only [Hand.V, hostOps0]; after_results; rfl
  rw [e]
  refine (shapeCast_a_1a_apply _ _ 0 o').trans ?_
  by_cases h : o'.val < 20
  · refine (concatenate_pair_apply_left (t := S40) (s₁ := S20) (s₂ := S20) (0 : Fin 1) _ _ _ _ rfl
      (ix1 (⟨o'.val, h⟩ : Fin 20)) (by
        intro b
        match b with
        | ⟨0, _⟩ => rfl)).trans ?_
    exact congrArg _ (congrArg ix1 (Fin.ext (by show o'.val = o'.val % 20; omega)))
  · refine (concatenate_pair_apply_right (t := S40) (s₁ := S20) (s₂ := S20) (0 : Fin 1) _ _ _ _ rfl rfl
      (ix1 (⟨o'.val - 20, by omega⟩ : Fin 20)) (by
        intro b hb
        match b with
        | ⟨0, _⟩ => exact absurd rfl hb) (by
        show o'.val - 20 + 20 = o'.val; omega)).trans ?_
    exact congrArg _ (congrArg ix1 (Fin.ext (by show o'.val - 20 = o'.val % 20; omega)))

theorem v14_apply (j : Fin 128) :
    (V m c main_v14 : S1x128.Idx → EReal) (ix2 0 j) = (m ((c : Thread nD τ).loc main_arg4) : S128.Idx → EReal) (ix1 j) := by
  have e : (V m c main_v14 : S1x128.Idx → EReal)
      = shapeCast S1x128 (m ((c : Thread nD τ).loc main_arg4) : S128.Idx → EReal) shapeCasts_S128_S1x128 := by
    dsimp only [Hand.V, hostOps0]; after_results; rfl
  rw [e]
  exact shapeCast_a_1a_apply _ _ 0 j

theorem v15_apply (j : Fin 64) :
    (V m c main_v15 : S1x64.Idx → EReal) (ix2 0 j) = (m ((c : Thread nD τ).loc main_arg6) : S64.Idx → EReal) (ix1 j) := by
  have e : (V m c main_v15 : S1x64.Idx → EReal)
      = shapeCast S1x64 (m ((c : Thread nD τ).loc main_arg6) : S64.Idx → EReal) shapeCasts_S64_S1x64 := by
    dsimp only [Hand.V, hostOps0]; after_results; rfl
  rw [e]
  exact shapeCast_a_1a_apply _ _ 0 j

theorem v16_apply (j : Fin 16) :
    (V m c main_v16 : S1x16.Idx → EReal) (ix2 0 j) = (m ((c : Thread nD τ).loc main_arg8) : S16.Idx → EReal) (ix1 j) := by
  have e : (V m c main_v16 : S1x16.Idx → EReal)
      = shapeCast S1x16 (m ((c : Thread nD τ).loc main_arg8) : S16.Idx → EReal) shapeCasts_S16_S1x16 := by
    dsimp only [Hand.V, hostOps0]; after_results; rfl
  rw [e]
  exact shapeCast_a_1a_apply _ _ 0 j

theorem v17_apply :
    (V m c main_v17 : S1x1.Idx → EReal) (ix2 0 0) = (m ((c : Thread nD τ).loc main_arg10) : S1.Idx → EReal) (ix1 0) := by
  have e : (V m c main_v17 : S1x1.Idx → EReal)
      = shapeCast S1x1 (m ((c : Thread nD τ).loc main_arg10) : S1.Idx → EReal) shapeCasts_S1_S1x1 := by
    dsimp only [Hand.V, hostOps0]; after_results; rfl
  rw [e]
  exact shapeCast_a_1a_apply _ _ 0 0

theorem v18_apply :
    (V m c main_v18 : S1x1.Idx → EReal) (ix2 0 0) = (m ((c : Thread nD τ).loc main_arg12) : S1.Idx → EReal) (ix1 0) := by
  have e : (V m c main_v18 : S1x1.Idx → EReal)
      = shapeCast S1x1 (m ((c : Thread nD τ).loc main_arg12) : S1.Idx → EReal) shapeCasts_S1_S1x1 := by
    dsimp only [Hand.V, hostOps0]; after_results; rfl
  rw [e]
  exact shapeCast_a_1a_apply _ _ 0 0

end Cert.KernelIdeal.HostVal

end
-- ==== Proof.SpecAlg.lean ====
/- The kernel's arrangement of the readout is the reference's: the block-diagonal matrix sends the first atom of a
   pair-row to channels 0-19 and the second to channels 20-39 (its zero rows and zero blocks contribute nothing), so
   adding channel o + 20 to channel o and summing the four blocks of 128 pair-rows is the sum over all 1024 atoms. -/
import proofs.«144514_g55645596287706_cont_9to1_m_505_7_alg».proof.Proof.Spec
import Mathlib.Algebra.BigOperators.Fin
import Mathlib.Data.EReal.Operations

noncomputable section

namespace Cert.Spec

open scoped BigOperators

/-- Through the block-diagonal matrix, a channel below 20 sees only the 37 feature columns of the first atom of a
    pair-row: every other column meets a zero entry. -/
private theorem inner_lo (wr : Fin 37 → Fin 20 → EReal) (wbd : Fin 80 → Fin 40 → EReal)
    (hw : ∀ (f : Fin 80) (o' : Fin 40), wbd f o' =
      if h : f.val < 37 ∧ o'.val < 20 then wr ⟨f.val, h.1⟩ ⟨o'.val, h.2⟩
      else if h : (40 ≤ f.val ∧ f.val < 77) ∧ 20 ≤ o'.val then wr ⟨f.val - 40, by omega⟩ ⟨o'.val - 20, by omega⟩
      else 0)
    (X : Fin 80 → EReal) (o : Fin 20) :
    (∑ f : Fin 80, X f * wbd f (Fin.castLE (by decide) o))
      = ∑ f : Fin 37, X (Fin.castLE (by decide) f) * wr f o := by
  symm
  apply Fintype.sum_of_injective (fun f : Fin 37 => (Fin.castLE (by decide) f : Fin 80))
  · intro a c h
    exact Fin.ext (by simpa [Fin.ext_iff] using h)
  · intro f hf
    have h37 : ¬ f.val < 37 := fun h => hf ⟨⟨f.val, h⟩, Fin.ext rfl⟩
    have ho : (Fin.castLE (by decide : 20 ≤ 40) o).val = o.val := rfl
    rw [hw, dif_neg (fun h => h37 h.1), dif_neg (fun h => by have := h.2; omega), mul_zero]
  · intro f
    have ho : (Fin.castLE (by decide : 20 ≤ 40) o).val = o.val := rfl
    have hf : (Fin.castLE (by decide : 37 ≤ 80) f).val = f.val := rfl
    rw [hw, dif_pos ⟨by omega, by omega⟩]
    rfl

/-- A channel from 20 on sees only the 37 feature columns of the second atom of a pair-row. -/
private theorem inner_hi (wr : Fin 37 → Fin 20 → EReal) (wbd : Fin 80 → Fin 40 → EReal)
    (hw : ∀ (f : Fin 80) (o' : Fin 40), wbd f o' =
      if h : f.val < 37 ∧ o'.val < 20 then wr ⟨f.val, h.1⟩ ⟨o'.val, h.2⟩
      else if h : (40 ≤ f.val ∧ f.val < 77) ∧ 20 ≤ o'.val then wr ⟨f.val - 40, by omega⟩ ⟨o'.val - 20, by omega⟩
      else 0)
    (X : Fin 80 → EReal) (o : Fin 20) :
    (∑ f : Fin 80, X f * wbd f ⟨20 + o.val, by omega⟩)
      = ∑ f : Fin 37, X ⟨40 + f.val, by omega⟩ * wr f o := by
  symm
  apply Fintype.sum_of_injective (fun f : Fin 37 => (⟨40 + f.val, by omega⟩ : Fin 80))
  · intro a c h
    exact Fin.ext (by simpa [Fin.ext_iff] using h)
  · intro f hf
    have h77 : ¬ (40 ≤ f.val ∧ f.val < 77) := fun h => hf ⟨⟨f.val - 40, by omega⟩, Fin.ext (by simp only []; omega)⟩
    rw [hw, dif_neg (fun h => by have := h.2; simp only [] at this; omega), dif_neg (fun h => h77 h.1), mul_zero]
  · intro f
    rw [hw, dif_neg (fun h => by have := h.1; simp only [] at this; omega),
      dif_pos ⟨⟨by simp only []; omega, by simp only []; omega⟩, by simp only []; omega⟩]
    congr 2 <;> exact Fin.ext (by simp only []; omega)

/-- A block's share of a channel below 20 is the hidden feature summed over the first atoms of its pair-rows. -/
private theorem kpart_lo (x : Fin 1024 → Fin 1024 → Fin 40 → EReal) (wr : Fin 37 → Fin 20 → EReal)
    (br : Fin 20 → EReal) (xq : Fin 32 → Fin 128 → Fin 80 → EReal) (wbd : Fin 80 → Fin 40 → EReal)
    (bbd : Fin 40 → EReal) (b : Fin 1024) (r : Fin 32) (base : ℕ) (hbase : base + 128 ≤ 512)
    (hq : ∀ (n' : Fin 128) (f : Fin 80),
      xq r n' f = x b ⟨2 * (base + n'.val) + f.val / 40, by omega⟩ ⟨f.val % 40, by omega⟩)
    (hw : ∀ (f : Fin 80) (o' : Fin 40), wbd f o' =
      if h : f.val < 37 ∧ o'.val < 20 then wr ⟨f.val, h.1⟩ ⟨o'.val, h.2⟩
      else if h : (40 ≤ f.val ∧ f.val < 77) ∧ 20 ≤ o'.val then wr ⟨f.val - 40, by omega⟩ ⟨o'.val - 20, by omega⟩
      else 0)
    (hb : ∀ o' : Fin 40, bbd o' = br ⟨o'.val % 20, by omega⟩) (o : Fin 20) :
    kpart xq wbd bbd r (Fin.castLE (by decide) o)
      = ∑ n' : Fin 128, hid x wr br b ⟨2 * (base + n'.val), by omega⟩ o := by
  unfold kpart hid
  refine Finset.sum_congr rfl (fun n' _ => ?_)
  rw [inner_lo wr wbd hw, hb]
  have hbr : (⟨(Fin.castLE (by decide : 20 ≤ 40) o).val % 20, by omega⟩ : Fin 20) = o :=
    Fin.ext (by simp only [Fin.coe_castLE]; omega)
  rw [hbr]
  congr 2
  refine Finset.sum_congr rfl (fun f _ => ?_)
  rw [hq]
  congr 2 <;> exact Fin.ext (by simp only [Fin.coe_castLE]; omega)

/-- A block's share of a channel from 20 on is the hidden feature summed over the second atoms of its pair-rows. -/
private theorem kpart_hi (x : Fin 1024 → Fin 1024 → Fin 40 → EReal) (wr : Fin 37 → Fin 20 → EReal)
    (br : Fin 20 → EReal) (xq : Fin 32 → Fin 128 → Fin 80 → EReal) (wbd : Fin 80 → Fin 40 → EReal)
    (bbd : Fin 40 → EReal) (b : Fin 1024) (r : Fin 32) (base : ℕ) (hbase : base + 128 ≤ 512)
    (hq : ∀ (n' : Fin 128) (f : Fin 80),
      xq r n' f = x b ⟨2 * (base + n'.val) + f.val / 40, by omega⟩ ⟨f.val % 40, by omega⟩)
    (hw : ∀ (f : Fin 80) (o' : Fin 40), wbd f o' =
      if h : f.val < 37 ∧ o'.val < 20 then wr ⟨f.val, h.1⟩ ⟨o'.val, h.2⟩
      else if h : (40 ≤ f.val ∧ f.val < 77) ∧ 20 ≤ o'.val then wr ⟨f.val - 40, by omega⟩ ⟨o'.val - 20, by omega⟩
      else 0)
    (hb : ∀ o' : Fin 40, bbd o' = br ⟨o'.val % 20, by omega⟩) (o : Fin 20) :
    kpart xq wbd bbd r ⟨20 + o.val, by omega⟩
      = ∑ n' : Fin 128, hid x wr br b ⟨2 * (base + n'.val) + 1, by omega⟩ o := by
  unfold kpart hid
  refine Finset.sum_congr rfl (fun n' _ => ?_)
  rw [inner_hi wr wbd hw, hb]
  have hbr : (⟨(⟨20 + o.val, by omega⟩ : Fin 40).val % 20, by omega⟩ : Fin 20) = o :=
    Fin.ext (by simp only []; omega)
  rw [hbr]
  congr 2
  refine Finset.sum_congr rfl (fun f _ => ?_)
  rw [hq]
  congr 2 <;> exact Fin.ext (by simp only [Fin.coe_castLE]; omega)

/-- Atom `2 (128 q + n') + p` from block `q`, pair-row `n'` and parity `p`. -/
private def atomEquiv : Fin 4 × Fin 128 × Fin 2 ≃ Fin 1024 where
  toFun p := ⟨2 * (128 * p.1.val + p.2.1.val) + p.2.2.val, by omega⟩
  invFun n := (⟨n.val / 256, by omega⟩, ⟨n.val / 2 % 128, by omega⟩, ⟨n.val % 2, by omega⟩)
  left_inv := by
    rintro ⟨q, n', p⟩
    refine Prod.ext (Fin.ext ?_) (Prod.ext (Fin.ext ?_) (Fin.ext ?_)) <;> simp only [] <;> omega
  right_inv := by
    intro n
    refine Fin.ext ?_
    simp only []
    omega

/-- The sum over the 1024 atoms, split by parity and by block of 128 pair-rows. -/
private theorem sum_atoms (H : Fin 1024 → EReal) :
    ∑ n : Fin 1024, H n =
      ((((∑ n' : Fin 128, H ⟨2 * (0 + n'.val), by omega⟩) + ∑ n' : Fin 128, H ⟨2 * (128 + n'.val), by omega⟩)
          + ∑ n' : Fin 128, H ⟨2 * (256 + n'.val), by omega⟩) + ∑ n' : Fin 128, H ⟨2 * (384 + n'.val), by omega⟩)
      + ((((∑ n' : Fin 128, H ⟨2 * (0 + n'.val) + 1, by omega⟩)
            + ∑ n' : Fin 128, H ⟨2 * (128 + n'.val) + 1, by omega⟩)
          + ∑ n' : Fin 128, H ⟨2 * (256 + n'.val) + 1, by omega⟩)
        + ∑ n' : Fin 128, H ⟨2 * (384 + n'.val) + 1, by omega⟩) := by
  rw [← atomEquiv.sum_comp, Fintype.sum_prod_type]
  simp only [Fintype.sum_prod_type, Fin.sum_univ_four, Fin.sum_univ_two, Finset.sum_add_distrib]
  have e00 : ∀ n' : Fin 128, atomEquiv (0, n', 0) = ⟨2 * (0 + n'.val), by omega⟩ := fun n' => Fin.ext (by simp [atomEquiv])
  have e01 : ∀ n' : Fin 128, atomEquiv (0, n', 1) = ⟨2 * (0 + n'.val) + 1, by omega⟩ := fun n' => Fin.ext (by simp [atomEquiv])
  have e10 : ∀ n' : Fin 128, atomEquiv (1, n', 0) = ⟨2 * (128 + n'.val), by omega⟩ := fun n' => Fin.ext (by simp [atomEquiv])
  have e11 : ∀ n' : Fin 128, atomEquiv (1, n', 1) = ⟨2 * (128 + n'.val) + 1, by omega⟩ := fun n' => Fin.ext (by simp [atomEquiv])
  have e20 : ∀ n' : Fin 128, atomEquiv (2, n', 0) = ⟨2 * (256 + n'.val), by omega⟩ := fun n' => Fin.ext (by simp [atomEquiv])
  have e21 : ∀ n' : Fin 128, atomEquiv (2, n', 1) = ⟨2 * (256 + n'.val) + 1, by omega⟩ := fun n' => Fin.ext (by simp [atomEquiv])
  have e30 : ∀ n' : Fin 128, atomEquiv (3, n', 0) = ⟨2 * (384 + n'.val), by omega⟩ := fun n' => Fin.ext (by simp [atomEquiv])
  have e31 : ∀ n' : Fin 128, atomEquiv (3, n', 1) = ⟨2 * (384 + n'.val) + 1, by omega⟩ := fun n' => Fin.ext (by simp [atomEquiv])
  simp only [e00, e01, e10, e11, e20, e21, e30, e31]

/-- The kernel's readout of row `r` of a grid point is the reference's readout of the graph `b` that row holds, when
    the four blocks are that graph's pair-rows (`hq`: block `q`, pair-row `n'`, column `f` is atom
    `2 (128 q + n') + f / 40`, feature `f % 40`), the 80×40 matrix is the block-diagonal copy of the rule matrix with
    zeros elsewhere (`hw`) and the 40-wide bias is the rule bias twice (`hb`). -/
theorem kg_eq_readout
    (x : Fin 1024 → Fin 1024 → Fin 40 → EReal) (wr : Fin 37 → Fin 20 → EReal) (br : Fin 20 → EReal)
    (x0 x1 x2 x3 : Fin 32 → Fin 128 → Fin 80 → EReal) (wbd : Fin 80 → Fin 40 → EReal) (bbd : Fin 40 → EReal)
    (b : Fin 1024) (r : Fin 32)
    (h0 : ∀ (n' : Fin 128) (f : Fin 80), x0 r n' f = x b ⟨2 * (0 + n'.val) + f.val / 40, by omega⟩ ⟨f.val % 40, by omega⟩)
    (h1 : ∀ (n' : Fin 128) (f : Fin 80), x1 r n' f = x b ⟨2 * (128 + n'.val) + f.val / 40, by omega⟩ ⟨f.val % 40, by omega⟩)
    (h2 : ∀ (n' : Fin 128) (f : Fin 80), x2 r n' f = x b ⟨2 * (256 + n'.val) + f.val / 40, by omega⟩ ⟨f.val % 40, by omega⟩)
    (h3 : ∀ (n' : Fin 128) (f : Fin 80), x3 r n' f = x b ⟨2 * (384 + n'.val) + f.val / 40, by omega⟩ ⟨f.val % 40, by omega⟩)
    (hw : ∀ (f : Fin 80) (o' : Fin 40), wbd f o' =
      if h : f.val < 37 ∧ o'.val < 20 then wr ⟨f.val, h.1⟩ ⟨o'.val, h.2⟩
      else if h : (40 ≤ f.val ∧ f.val < 77) ∧ 20 ≤ o'.val then wr ⟨f.val - 40, by omega⟩ ⟨o'.val - 20, by omega⟩
      else 0)
    (hb : ∀ o' : Fin 40, bbd o' = br ⟨o'.val % 20, by omega⟩)
    (o : Fin 20) :
    kg x0 x1 x2 x3 wbd bbd r o = readout x wr br b o := by
  unfold kg kparts readout
  rw [kpart_lo x wr br x0 wbd bbd b r 0 (by omega) h0 hw hb o, kpart_lo x wr br x1 wbd bbd b r 128 (by omega) h1 hw hb o,
    kpart_lo x wr br x2 wbd bbd b r 256 (by omega) h2 hw hb o, kpart_lo x wr br x3 wbd bbd b r 384 (by omega) h3 hw hb o,
    kpart_hi x wr br x0 wbd bbd b r 0 (by omega) h0 hw hb o, kpart_hi x wr br x1 wbd bbd b r 128 (by omega) h1 hw hb o,
    kpart_hi x wr br x2 wbd bbd b r 256 (by omega) h2 hw hb o, kpart_hi x wr br x3 wbd bbd b r 384 (by omega) h3 hw hb o]
  exact (sum_atoms (fun n => hid x wr br b n o)).symm

end Cert.Spec

end
-- ==== Proof.RefRun.lean ====
/- The reference program's run and its stages read at an index, as generated; re-exported for the modules that compare it with the kernel. -/
import proofs.«144514_g55645596287706_cont_9to1_m_505_7_alg».proof.Proof.Gen.ReferenceIdeal.Run
import proofs.«144514_g55645596287706_cont_9to1_m_505_7_alg».proof.Proof.Gen.ReferenceIdeal.Read
-- ==== Proof.RefValue.lean ====
/- The reference's result, read at a graph: its host operations one by one (slices, the rule layer as one
   contraction, the broadcast biases, the rectifications, the sum over atoms, the four dense layers and the
   concatenation with the physics columns) are the specification's readout and head. -/
import proofs.«144514_g55645596287706_cont_9to1_m_505_7_alg».proof.Proof.RefRun
import proofs.«144514_g55645596287706_cont_9to1_m_505_7_alg».proof.Proof.Spec
import Idealize.ShloMosaic.Lib.ValueIdx
import Idealize.ShloMosaic.Lib.Pipeline.Value
import Idealize.ShloMosaic.PureOps.Ideal.Laws

set_option maxRecDepth 16384

noncomputable section

open Idealize.ShloMosaic Idealize.ShloMosaic.TcCoe Idealize.ShloMosaic.ValueIdx
open Idealize.SL.Sem
open scoped BigOperators

namespace Cert.ReferenceIdeal.RefValue

open Cert.ReferenceIdeal Cert.ReferenceIdeal.Read

/-! ## The head's layers, named -/

/-- The first dense layer of the head, rectified. -/
private def lC (g : Fin 20 → EReal) (wc : Fin 20 → Fin 128 → EReal) (bc : Fin 128 → EReal) (j : Fin 128) : EReal :=
  max ((∑ o : Fin 20, g o * wc o j) + bc j) 0
/-- The second dense layer, rectified. -/
private def lD1 (c : Fin 128 → EReal) (w1 : Fin 128 → Fin 64 → EReal) (b1 : Fin 64 → EReal) (j : Fin 64) : EReal :=
  max ((∑ k : Fin 128, c k * w1 k j) + b1 j) 0
/-- The third dense layer, affine. -/
private def lD5 (d1 : Fin 64 → EReal) (w5 : Fin 64 → Fin 16 → EReal) (b5 : Fin 16 → EReal) (j : Fin 16) : EReal :=
  (∑ k : Fin 64, d1 k * w5 k j) + b5 j
/-- The fourth dense layer: one value per graph. -/
private def lMv (d5 : Fin 16 → EReal) (w6 : Fin 16 → EReal) (b6 : EReal) : EReal :=
  (∑ k : Fin 16, d5 k * w6 k) + b6

/-- The head is the last affine map of the four merged columns. -/
private theorem head_eq (g : Fin 20 → EReal) (ph : Fin 3 → EReal) (wc : Fin 20 → Fin 128 → EReal) (bc : Fin 128 → EReal)
    (w1 : Fin 128 → Fin 64 → EReal) (b1 : Fin 64 → EReal) (w5 : Fin 64 → Fin 16 → EReal) (b5 : Fin 16 → EReal)
    (w6 : Fin 16 → EReal) (b6 : EReal) (w7 : Fin 4 → EReal) (b7 : EReal) :
    Cert.Spec.head g ph wc bc w1 b1 w5 b5 w6 b6 w7 b7
      = (∑ k : Fin 4, (Fin.cases (motive := fun _ => EReal) (lMv (lD5 (lD1 (lC g wc bc) w1 b1) w5 b5) w6 b6) ph k) * w7 k) + b7 := rfl

/-! ## The reference's stages at explicit coordinates -/

/-- The rectified rule layer at atom `n` of graph `b`, feature `o`. -/
private theorem hid_apply (a0 : (⟨S1024x1024x40, .f32⟩ : BufTy).Contents (Elt Ideal)) (a1 : (⟨S37x20, .f32⟩ : BufTy).Contents (Elt Ideal)) (a2 : (⟨S20, .f32⟩ : BufTy).Contents (Elt Ideal)) (b n : Fin 1024) (o : Fin 20) :
    val_main_v7 (F := Ideal) a0 a1 a2 (ix3 b n o) = Cert.Spec.hid (fun a b c => a0 (ix3 a b c)) (fun a b => a1 (ix2 a b)) (fun a => a2 (ix1 a)) b n o := by
  rw [val_main_v7_apply, val_main_v6_apply, val_main_v3_apply, val_main_v5_apply, val_main_v4_apply,
    val_main_call0_v0_apply, val_main_call0_cst_apply]
  simp only [val_main_v2_apply, Ideal.addf_def, Ideal.maximumf_def, Ideal.ofBits_def, Ideal.ofBits_zero_f32]
  unfold Cert.Spec.hid
  refine congrArg₂ max (congrArg₂ (· + ·) (Finset.sum_congr rfl fun k _ => ?_) ?_) rfl
  · refine congrArg₂ (· * ·) (congrArg a0 ?_) (congrArg a1 ?_)
    · exact funext fun a => by match a with | ⟨0, _⟩ => rfl | ⟨1, _⟩ => rfl | ⟨2, _⟩ => rfl
    · exact funext fun a => by match a with | ⟨0, _⟩ => rfl | ⟨1, _⟩ => rfl
  · exact congrArg a2 (funext fun a => by match a with | ⟨0, _⟩ => rfl)

/-- The sum over the atoms is the readout. -/
private theorem readout_apply (a0 : (⟨S1024x1024x40, .f32⟩ : BufTy).Contents (Elt Ideal)) (a1 : (⟨S37x20, .f32⟩ : BufTy).Contents (Elt Ideal)) (a2 : (⟨S20, .f32⟩ : BufTy).Contents (Elt Ideal)) (b : Fin 1024) (o : Fin 20) :
    val_main_v8 (F := Ideal) a0 a1 a2 (ix2 b o) = Cert.Spec.readout (fun a b c => a0 (ix3 a b c)) (fun a b => a1 (ix2 a b)) (fun a => a2 (ix1 a)) b o := by
  rw [val_main_v8_apply, val_main_cst_apply, Ideal.ofBits_def, Ideal.ofBits_zero_f32, zero_add]
  unfold Cert.Spec.readout
  refine Finset.sum_congr rfl fun n _ => ?_
  rw [show idx_main_v8 (ix2 b o) n = ix3 b n o from funext fun a => by match a with | ⟨0, _⟩ => rfl | ⟨1, _⟩ => rfl | ⟨2, _⟩ => rfl]
  exact hid_apply a0 a1 a2 b n o

/-- The first dense layer at `(b, j)`. -/
private theorem conv_apply (a0 : (⟨S1024x1024x40, .f32⟩ : BufTy).Contents (Elt Ideal)) (a1 : (⟨S37x20, .f32⟩ : BufTy).Contents (Elt Ideal)) (a2 : (⟨S20, .f32⟩ : BufTy).Contents (Elt Ideal)) (a3 : (⟨S20x128, .f32⟩ : BufTy).Contents (Elt Ideal)) (a4 : (⟨S128, .f32⟩ : BufTy).Contents (Elt Ideal)) (b : Fin 1024) (j : Fin 128) :
    val_main_v13 (F := Ideal) a0 a1 a2 a3 a4 (ix2 b j) = lC (Cert.Spec.readout (fun a b c => a0 (ix3 a b c)) (fun a b => a1 (ix2 a b)) (fun a => a2 (ix1 a)) b) (fun a b => a3 (ix2 a b)) (fun a => a4 (ix1 a)) j := by
  rw [val_main_v13_apply, val_main_v12_apply, val_main_v9_apply, val_main_v11_apply, val_main_v10_apply,
    val_main_call1_v0_apply, val_main_call1_cst_apply]
  simp only [Ideal.addf_def, Ideal.maximumf_def, Ideal.ofBits_def, Ideal.ofBits_zero_f32]
  unfold lC
  refine congrArg₂ max (congrArg₂ (· + ·) (Finset.sum_congr rfl fun k _ => ?_) ?_) rfl
  · rw [show lidx_main_v9 (ix2 b j) k = ix2 b k from funext fun a => by match a with | ⟨0, _⟩ => rfl | ⟨1, _⟩ => rfl, readout_apply]
    exact congrArg (_ * a3 ·) (funext fun a => by match a with | ⟨0, _⟩ => rfl | ⟨1, _⟩ => rfl)
  · exact congrArg a4 (funext fun a => by match a with | ⟨0, _⟩ => rfl)

/-- The second dense layer at `(b, j)`. -/
private theorem dense1_apply (a0 : (⟨S1024x1024x40, .f32⟩ : BufTy).Contents (Elt Ideal)) (a1 : (⟨S37x20, .f32⟩ : BufTy).Contents (Elt Ideal)) (a2 : (⟨S20, .f32⟩ : BufTy).Contents (Elt Ideal)) (a3 : (⟨S20x128, .f32⟩ : BufTy).Contents (Elt Ideal)) (a4 : (⟨S128, .f32⟩ : BufTy).Contents (Elt Ideal)) (a5 : (⟨S128x64, .f32⟩ : BufTy).Contents (Elt Ideal)) (a6 : (⟨S64, .f32⟩ : BufTy).Contents (Elt Ideal)) (b : Fin 1024) (j : Fin 64) :
    val_main_v18 (F := Ideal) a0 a1 a2 a3 a4 a5 a6 (ix2 b j) = lD1 (lC (Cert.Spec.readout (fun a b c => a0 (ix3 a b c)) (fun a b => a1 (ix2 a b)) (fun a => a2 (ix1 a)) b) (fun a b => a3 (ix2 a b)) (fun a => a4 (ix1 a))) (fun a b => a5 (ix2 a b)) (fun a => a6 (ix1 a)) j := by
  rw [val_main_v18_apply, val_main_v17_apply, val_main_v14_apply, val_main_v16_apply, val_main_v15_apply,
    val_main_call2_v0_apply, val_main_call2_cst_apply]
  simp only [Ideal.addf_def, Ideal.maximumf_def, Ideal.ofBits_def, Ideal.ofBits_zero_f32]
  unfold lD1
  refine congrArg₂ max (congrArg₂ (· + ·) (Finset.sum_congr rfl fun k _ => ?_) ?_) rfl
  · rw [show lidx_main_v14 (ix2 b j) k = ix2 b k from funext fun a => by match a with | ⟨0, _⟩ => rfl | ⟨1, _⟩ => rfl, conv_apply]
    exact congrArg (_ * a5 ·) (funext fun a => by match a with | ⟨0, _⟩ => rfl | ⟨1, _⟩ => rfl)
  · exact congrArg a6 (funext fun a => by match a with | ⟨0, _⟩ => rfl)

/-- The third dense layer at `(b, j)`. -/
private theorem dense5_apply (a0 : (⟨S1024x1024x40, .f32⟩ : BufTy).Contents (Elt Ideal)) (a1 : (⟨S37x20, .f32⟩ : BufTy).Contents (Elt Ideal)) (a2 : (⟨S20, .f32⟩ : BufTy).Contents (Elt Ideal)) (a3 : (⟨S20x128, .f32⟩ : BufTy).Contents (Elt Ideal)) (a4 : (⟨S128, .f32⟩ : BufTy).Contents (Elt Ideal)) (a5 : (⟨S128x64, .f32⟩ : BufTy).Contents (Elt Ideal)) (a6 : (⟨S64, .f32⟩ : BufTy).Contents (Elt Ideal)) (a7 : (⟨S64x16, .f32⟩ : BufTy).Contents (Elt Ideal)) (a8 : (⟨S16, .f32⟩ : BufTy).Contents (Elt Ideal)) (b : Fin 1024) (j : Fin 16) :
    val_main_v22 (F := Ideal) a0 a1 a2 a3 a4 a5 a6 a7 a8 (ix2 b j) = lD5 (lD1 (lC (Cert.Spec.readout (fun a b c => a0 (ix3 a b c)) (fun a b => a1 (ix2 a b)) (fun a => a2 (ix1 a)) b) (fun a b => a3 (ix2 a b)) (fun a => a4 (ix1 a))) (fun a b => a5 (ix2 a b)) (fun a => a6 (ix1 a))) (fun a b => a7 (ix2 a b)) (fun a => a8 (ix1 a)) j := by
  rw [val_main_v22_apply, val_main_v19_apply, val_main_v21_apply, val_main_v20_apply]
  simp only [Ideal.addf_def]
  unfold lD5
  refine congrArg₂ (· + ·) (Finset.sum_congr rfl fun k _ => ?_) ?_
  · rw [show lidx_main_v19 (ix2 b j) k = ix2 b k from funext fun a => by match a with | ⟨0, _⟩ => rfl | ⟨1, _⟩ => rfl, dense1_apply]
    exact congrArg (_ * a7 ·) (funext fun a => by match a with | ⟨0, _⟩ => rfl | ⟨1, _⟩ => rfl)
  · exact congrArg a8 (funext fun a => by match a with | ⟨0, _⟩ => rfl)

/-- The fourth dense layer at graph `b`. -/
private theorem dense6_apply (a0 : (⟨S1024x1024x40, .f32⟩ : BufTy).Contents (Elt Ideal)) (a1 : (⟨S37x20, .f32⟩ : BufTy).Contents (Elt Ideal)) (a2 : (⟨S20, .f32⟩ : BufTy).Contents (Elt Ideal)) (a3 : (⟨S20x128, .f32⟩ : BufTy).Contents (Elt Ideal)) (a4 : (⟨S128, .f32⟩ : BufTy).Contents (Elt Ideal)) (a5 : (⟨S128x64, .f32⟩ : BufTy).Contents (Elt Ideal)) (a6 : (⟨S64, .f32⟩ : BufTy).Contents (Elt Ideal)) (a7 : (⟨S64x16, .f32⟩ : BufTy).Contents (Elt Ideal)) (a8 : (⟨S16, .f32⟩ : BufTy).Contents (Elt Ideal)) (a9 : (⟨S16x1, .f32⟩ : BufTy).Contents (Elt Ideal)) (a10 : (⟨S1, .f32⟩ : BufTy).Contents (Elt Ideal)) (b : Fin 1024) :
    val_main_v26 (F := Ideal) a0 a1 a2 a3 a4 a5 a6 a7 a8 a9 a10 (ix2 b 0) = lMv (lD5 (lD1 (lC (Cert.Spec.readout (fun a b c => a0 (ix3 a b c)) (fun a b => a1 (ix2 a b)) (fun a => a2 (ix1 a)) b) (fun a b => a3 (ix2 a b)) (fun a => a4 (ix1 a))) (fun a b => a5 (ix2 a b)) (fun a => a6 (ix1 a))) (fun a b => a7 (ix2 a b)) (fun a => a8 (ix1 a))) (fun a => a9 (ix2 a 0)) (a10 (ix1 0)) := by
  rw [val_main_v26_apply, val_main_v23_apply, val_main_v25_apply, val_main_v24_apply]
  simp only [Ideal.addf_def]
  unfold lMv
  refine congrArg₂ (· + ·) (Finset.sum_congr rfl fun k _ => ?_) ?_
  · rw [show lidx_main_v23 (ix2 b 0) k = ix2 b k from funext fun a => by match a with | ⟨0, _⟩ => rfl | ⟨1, _⟩ => rfl, dense5_apply]
    exact congrArg (_ * a9 ·) (funext fun a => by match a with | ⟨0, _⟩ => rfl | ⟨1, _⟩ => rfl)
  · exact congrArg a10 (funext fun a => by match a with | ⟨0, _⟩ => rfl)

/-- The four merged columns at `(b, k)`: column 0 is the fourth layer's value, column `j + 1` is physics column `j`,
    feature `37 + j` of atom 0. -/
private theorem merged_apply (a0 : (⟨S1024x1024x40, .f32⟩ : BufTy).Contents (Elt Ideal)) (a1 : (⟨S37x20, .f32⟩ : BufTy).Contents (Elt Ideal)) (a2 : (⟨S20, .f32⟩ : BufTy).Contents (Elt Ideal)) (a3 : (⟨S20x128, .f32⟩ : BufTy).Contents (Elt Ideal)) (a4 : (⟨S128, .f32⟩ : BufTy).Contents (Elt Ideal)) (a5 : (⟨S128x64, .f32⟩ : BufTy).Contents (Elt Ideal)) (a6 : (⟨S64, .f32⟩ : BufTy).Contents (Elt Ideal)) (a7 : (⟨S64x16, .f32⟩ : BufTy).Contents (Elt Ideal)) (a8 : (⟨S16, .f32⟩ : BufTy).Contents (Elt Ideal)) (a9 : (⟨S16x1, .f32⟩ : BufTy).Contents (Elt Ideal)) (a10 : (⟨S1, .f32⟩ : BufTy).Contents (Elt Ideal)) (b : Fin 1024) (k : Fin 4) :
    val_main_v27 (F := Ideal) a0 a1 a2 a3 a4 a5 a6 a7 a8 a9 a10 (ix2 b k)
      = Fin.cases (motive := fun _ => EReal) (lMv (lD5 (lD1 (lC (Cert.Spec.readout (fun a b c => a0 (ix3 a b c)) (fun a b => a1 (ix2 a b)) (fun a => a2 (ix1 a)) b) (fun a b => a3 (ix2 a b)) (fun a => a4 (ix1 a))) (fun a b => a5 (ix2 a b)) (fun a => a6 (ix1 a))) (fun a b => a7 (ix2 a b)) (fun a => a8 (ix1 a))) (fun a => a9 (ix2 a 0)) (a10 (ix1 0))) (fun k : Fin 3 => a0 (ix3 b (0 : Fin 1024) (⟨37 + k.val, by omega⟩ : Fin 40))) k := by
  unfold val_main_v27
  cases k using Fin.cases with
  | zero =>
    rw [concatenate_pair_apply_left (s₁ := S1024x1) (s₂ := S1024x3) (1 : Fin S1024x4.rank) _ _ Facts₀.concatenates_S1024x1_S1024x3_S1024x4_d1
      (ix2 b (0 : Fin 4)) rfl (ix2 b (0 : Fin 1)) (fun c => by match c with | ⟨0, _⟩ => rfl | ⟨1, _⟩ => rfl)]
    exact dense6_apply a0 a1 a2 a3 a4 a5 a6 a7 a8 a9 a10 b
  | succ j =>
    rw [concatenate_pair_apply_right (s₁ := S1024x1) (s₂ := S1024x3) (1 : Fin S1024x4.rank) _ _ Facts₀.concatenates_S1024x1_S1024x3_S1024x4_d1
      (ix2 b j.succ) rfl rfl (ix2 b j)
      (fun c hc => by match c, hc with | ⟨0, _⟩, _ => rfl | ⟨1, _⟩, hc => exact absurd rfl hc) rfl]
    rw [val_main_v1_apply, val_main_v0_apply]
    show a0 _ = a0 _
    refine congrArg a0 (funext fun a => Fin.ext ?_)
    match a with
    | ⟨0, _⟩ => show (b.val * 3 + j.val) / 3 = b.val; omega
    | ⟨1, _⟩ => rfl
    | ⟨2, _⟩ => show 37 + (b.val * 3 + j.val) % 3 = 37 + j.val; omega

/-- The reference's result at graph `b` is the head of the readout of `b` and its physics columns. -/
theorem ref_apply
    (a0 : (⟨S1024x1024x40, .f32⟩ : BufTy).Contents (Elt Ideal)) (a1 : (⟨S37x20, .f32⟩ : BufTy).Contents (Elt Ideal))
    (a2 : (⟨S20, .f32⟩ : BufTy).Contents (Elt Ideal)) (a3 : (⟨S20x128, .f32⟩ : BufTy).Contents (Elt Ideal))
    (a4 : (⟨S128, .f32⟩ : BufTy).Contents (Elt Ideal)) (a5 : (⟨S128x64, .f32⟩ : BufTy).Contents (Elt Ideal))
    (a6 : (⟨S64, .f32⟩ : BufTy).Contents (Elt Ideal)) (a7 : (⟨S64x16, .f32⟩ : BufTy).Contents (Elt Ideal))
    (a8 : (⟨S16, .f32⟩ : BufTy).Contents (Elt Ideal)) (a9 : (⟨S16x1, .f32⟩ : BufTy).Contents (Elt Ideal))
    (a10 : (⟨S1, .f32⟩ : BufTy).Contents (Elt Ideal)) (a11 : (⟨S4x1, .f32⟩ : BufTy).Contents (Elt Ideal))
    (a12 : (⟨S1, .f32⟩ : BufTy).Contents (Elt Ideal)) (b : Fin 1024) :
    val_main_v31 (F := Ideal) a0 a1 a2 a3 a4 a5 a6 a7 a8 a9 a10 a11 a12 (ix2 b 0)
      = Cert.Spec.head (Cert.Spec.readout (fun a b c => a0 (ix3 a b c)) (fun a b => a1 (ix2 a b)) (fun a => a2 (ix1 a)) b)
          (fun k : Fin 3 => a0 (ix3 b (0 : Fin 1024) (⟨37 + k.val, by omega⟩ : Fin 40)))
          (fun a b => a3 (ix2 a b)) (fun a => a4 (ix1 a)) (fun a b => a5 (ix2 a b)) (fun a => a6 (ix1 a)) (fun a b => a7 (ix2 a b)) (fun a => a8 (ix1 a))
          (fun a => a9 (ix2 a 0)) (a10 (ix1 0)) (fun a => a11 (ix2 a 0)) (a12 (ix1 0)) := by
  rw [val_main_v31_apply, val_main_v28_apply, val_main_v30_apply, val_main_v29_apply, head_eq]
  simp only [Ideal.addf_def]
  refine congrArg₂ (· + ·) (Finset.sum_congr rfl fun k _ => ?_) ?_
  · rw [show lidx_main_v28 (ix2 b 0) k = ix2 b k from funext fun a => by match a with | ⟨0, _⟩ => rfl | ⟨1, _⟩ => rfl, merged_apply]
    exact congrArg (_ * a11 ·) (funext fun a => by match a with | ⟨0, _⟩ => rfl | ⟨1, _⟩ => rfl)
  · exact congrArg a12 (funext fun a => by match a with | ⟨0, _⟩ => rfl)

end Cert.ReferenceIdeal.RefValue

end
-- ==== Proof.KI.Value.lean ====
/- The kernel's result is the reference's. After the region's 32 grid points, row b of the result array is row b % 32
   of what point b / 32 left, which is the dense head of the kernel's readout of that row; the blocks it reads are the
   arrays the host operations built (the two-atoms-per-row view, the block-diagonal matrix, the doubled bias, the bias
   rows), so the kernel's readout is the sum over all 1024 atoms of the graph, and the head's weights are the argument
   arrays themselves: index by index the reference's last stage. -/
import proofs.«144514_g55645596287706_cont_9to1_m_505_7_alg».proof.Proof.KI.Run
import proofs.«144514_g55645596287706_cont_9to1_m_505_7_alg».proof.Proof.KI.Blocks
import proofs.«144514_g55645596287706_cont_9to1_m_505_7_alg».proof.Proof.KI.PayHead
import proofs.«144514_g55645596287706_cont_9to1_m_505_7_alg».proof.Proof.KI.HostVal
import proofs.«144514_g55645596287706_cont_9to1_m_505_7_alg».proof.Proof.SpecAlg
import proofs.«144514_g55645596287706_cont_9to1_m_505_7_alg».proof.Proof.RefValue

set_option maxRecDepth 16384

noncomputable section

open Idealize.ShloMosaic Idealize.ShloMosaic.TcCoe Idealize.ShloMosaic.ValueIdx
open Idealize.SL.Sem
open scoped BigOperators

namespace Cert.KernelIdeal.KValue

open Cert.KernelIdeal Cert.KernelIdeal.Gen Cert.KernelIdeal.Hand

variable (m : (ℓ : Loc nD τ sig) → Buf (Elt Ideal) ℓ) (c : Dev nD)

/-- The result array after the run is the reference's last stage of the thirteen argument arrays. -/
theorem result_eq :
    ((dats m 0 c).arrAt 16 cfg0.N : S1024x1.Idx → EReal)
      = Cert.ReferenceIdeal.Read.val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  funext i
  obtain ⟨b, rfl⟩ : ∃ b : Fin 1024, i = ix2 b (0 : Fin 1) :=
    ⟨i 0, (eq_ix2 i).trans (congrArg (ix2 (i 0)) (Fin.eq_zero (i 1)))⟩
  have hN : cfg0.N = 32 := N_0
  have htN : b.val / 32 < cfg0.N := by rw [hN]; omega
  let t : Fin cfg0.N := ⟨b.val / 32, htN⟩
  have ht : t.val < 32 := by show b.val / 32 < 32; omega
  have hb : (⟨32 * t.val + (b.val % 32), by omega⟩ : Fin 1024) = b := Fin.ext (by show 32 * (b.val / 32) + b.val % 32 = b.val; omega)
  rw [Blocks.final_apply m c b t rfl, Cert.KernelIdeal.KVal.out_apply, Cert.ReferenceIdeal.RefValue.ref_apply]
  -- the readout
  have hg : Cert.Spec.kg (fun p q s => (iblk m c 0 t) (ix3 p q s)) (fun p q s => (iblk m c 1 t) (ix3 p q s)) (fun p q s => (iblk m c 2 t) (ix3 p q s)) (fun p q s => (iblk m c 3 t) (ix3 p q s)) (fun p q => (iblk m c 4 t) (ix2 p q)) (fun p => (iblk m c 5 t) (ix2 0 p)) (⟨b.val % 32, by omega⟩ : Fin 32)
      = Cert.Spec.readout (fun p q s => (m ((c : Thread nD τ).loc main_arg0)) (ix3 p q s)) (fun p q => (m ((c : Thread nD τ).loc main_arg1)) (ix2 p q)) (fun p => (m ((c : Thread nD τ).loc main_arg2)) (ix1 p)) b :=
    funext fun o => Cert.Spec.kg_eq_readout (fun p q s => (m ((c : Thread nD τ).loc main_arg0)) (ix3 p q s)) (fun p q => (m ((c : Thread nD τ).loc main_arg1)) (ix2 p q)) (fun p => (m ((c : Thread nD τ).loc main_arg2)) (ix1 p)) (fun p q s => (iblk m c 0 t) (ix3 p q s)) (fun p q s => (iblk m c 1 t) (ix3 p q s)) (fun p q s => (iblk m c 2 t) (ix3 p q s)) (fun p q s => (iblk m c 3 t) (ix3 p q s)) (fun p q => (iblk m c 4 t) (ix2 p q)) (fun p => (iblk m c 5 t) (ix2 0 p)) b (⟨b.val % 32, by omega⟩ : Fin 32)
      (fun n' f => by
        show iblk m c 0 t (ix3 _ n' f) = _
        rw [Blocks.iblk0_apply m c t ht, HostVal.v8_apply, hb])
      (fun n' f => by
        show iblk m c 1 t (ix3 _ n' f) = _
        rw [Blocks.iblk1_apply m c t ht, HostVal.v8_apply, hb])
      (fun n' f => by
        show iblk m c 2 t (ix3 _ n' f) = _
        rw [Blocks.iblk2_apply m c t ht, HostVal.v8_apply, hb])
      (fun n' f => by
        show iblk m c 3 t (ix3 _ n' f) = _
        rw [Blocks.iblk3_apply m c t ht, HostVal.v8_apply, hb])
      (fun f o' => by
        show iblk m c 4 t (ix2 f o') = _
        rw [Blocks.iblk4_eq m c t]; exact HostVal.v5_apply m c f o')
      (fun o' => by
        show iblk m c 5 t (ix2 0 o') = _
        rw [Blocks.iblk5_eq m c t]; exact HostVal.v7_apply m c o')
      o
  -- the physics columns
  have hp : (fun k : Fin 3 => iblk m c 0 t (ix3 (⟨b.val % 32, by omega⟩ : Fin 32) (0 : Fin 128) (⟨37 + k.val, by omega⟩ : Fin 80)))
      = (fun k : Fin 3 => (m ((c : Thread nD τ).loc main_arg0)) (ix3 b (0 : Fin 1024) (⟨37 + k.val, by omega⟩ : Fin 40))) :=
    funext fun k => by
      rw [Blocks.iblk0_apply m c t ht, HostVal.v8_apply, hb]
      congr 1
      funext a
      match a with
      | ⟨0, _⟩ => rfl
      | ⟨1, _⟩ => exact Fin.ext (by show 2 * (0 + 0) + (37 + k.val) / 40 = 0; omega)
      | ⟨2, _⟩ => exact Fin.ext (by show (37 + k.val) % 40 = 37 + k.val; omega)
  -- the head's weights and biases
  have h6 : (fun p q => (iblk m c 6 t) (ix2 p q)) = (fun p q => (m ((c : Thread nD τ).loc main_arg3)) (ix2 p q)) := by rw [Blocks.iblk6_eq m c t, V_main_arg3]
  have h7 : (fun p => (iblk m c 7 t) (ix2 0 p)) = (fun p => (m ((c : Thread nD τ).loc main_arg4)) (ix1 p)) := funext fun j => by rw [Blocks.iblk7_eq m c t]; exact HostVal.v14_apply m c j
  have h8 : (fun p q => (iblk m c 8 t) (ix2 p q)) = (fun p q => (m ((c : Thread nD τ).loc main_arg5)) (ix2 p q)) := by rw [Blocks.iblk8_eq m c t, V_main_arg5]
  have h9 : (fun p => (iblk m c 9 t) (ix2 0 p)) = (fun p => (m ((c : Thread nD τ).loc main_arg6)) (ix1 p)) := funext fun j => by rw [Blocks.iblk9_eq m c t]; exact HostVal.v15_apply m c j
  have h10 : (fun p q => (iblk m c 10 t) (ix2 p q)) = (fun p q => (m ((c : Thread nD τ).loc main_arg7)) (ix2 p q)) := by rw [Blocks.iblk10_eq m c t, V_main_arg7]
  have h11 : (fun p => (iblk m c 11 t) (ix2 0 p)) = (fun p => (m ((c : Thread nD τ).loc main_arg8)) (ix1 p)) := funext fun j => by rw [Blocks.iblk11_eq m c t]; exact HostVal.v16_apply m c j
  have h12 : (fun p => (iblk m c 12 t) (ix2 p 0)) = (fun p => (m ((c : Thread nD τ).loc main_arg9)) (ix2 p 0)) := by rw [Blocks.iblk12_eq m c t, V_main_arg9]
  have h13 : iblk m c 13 t (ix2 0 0) = (m ((c : Thread nD τ).loc main_arg10)) (ix1 0) := by rw [Blocks.iblk13_eq m c t]; exact HostVal.v17_apply m c
  have h14 : (fun p => (iblk m c 14 t) (ix2 p 0)) = (fun p => (m ((c : Thread nD τ).loc main_arg11)) (ix2 p 0)) := by rw [Blocks.iblk14_eq m c t, V_main_arg11]
  have h15 : iblk m c 15 t (ix2 0 0) = (m ((c : Thread nD τ).loc main_arg12)) (ix1 0) := by rw [Blocks.iblk15_eq m c t]; exact HostVal.v18_apply m c
  rw [hg, hp, h6, h7, h8, h9, h10, h11, h12, h13, h14, h15]

end Cert.KernelIdeal.KValue

end
-- ==== Proof.lean ====
/- Equivalence of the fused graph-network kernel with its reference over the extended reals.

   The kernel views the [1024, 1024, 40] input two atoms to a row and multiplies each row by a block-diagonal copy of
   the 37×20 rule matrix (zero rows under the 37 atom features, zero blocks off the diagonal), so that one product
   gives both atoms' 20 hidden features; it rectifies, sums the 512 pair-rows of a graph in four blocks of 128, adds
   channel o + 20 to channel o, and runs the dense head (four affine layers, the three physics columns of atom 0
   appended before the last) in the same grid point, 32 graphs at a time. The reference slices the 37 features,
   contracts them with the rule matrix, rectifies, sums over the 1024 atoms and runs the same head. A product with a
   zero weight is zero on every extended real and sums of extended reals may be regrouped freely, so the two readouts
   are one function of the arguments, with no use of the inputs' finiteness; the heads are the same layers.

   The frames: the kernel region's four input windows on the two-atoms-per-row array each hold a quarter of it; the
   region's body is loads, pure arithmetic and one covering store, and neither it nor the host operations before it
   write an argument array. The reference is host operations only. Nothing is rewritten between the word-level kernel
   and its idealization. -/
import proofs.«144514_g55645596287706_cont_9to1_m_505_7_alg».proof.Defs
import proofs.«144514_g55645596287706_cont_9to1_m_505_7_alg».proof.Proof.Gen.Kernel
import proofs.«144514_g55645596287706_cont_9to1_m_505_7_alg».proof.Proof.Gen.KernelIdeal
import proofs.«144514_g55645596287706_cont_9to1_m_505_7_alg».proof.Proof.Gen.ReferenceIdeal
import proofs.«144514_g55645596287706_cont_9to1_m_505_7_alg».proof.Proof.Gen.Pre_finite_inputs
import proofs.«144514_g55645596287706_cont_9to1_m_505_7_alg».proof.Proof.K.Run
import proofs.«144514_g55645596287706_cont_9to1_m_505_7_alg».proof.Proof.KI.Value
import Idealize.ShloMosaic.Adequacy
import Idealize.ShloMosaic.Init

noncomputable section

namespace Cert.Proof

open Idealize.ShloMosaic Idealize.SL.Sem

/-- The word-level kernel runs to its end and leaves its arguments as they were. -/
theorem frame_k : Cert.frame_Kernel :=
  fun m ρ _ => Cert.Kernel.Hand.frame m ρ

/-- So does the idealized kernel. -/
theorem frame_ki : Cert.frame_KernelIdeal :=
  fun m ρ _ => Cert.KernelIdeal.Hand.frame m ρ

/-- The reference is host operations only: its run with the result dropped. -/
theorem frame_ri : Cert.frame_ReferenceIdeal :=
  fun m ρ _ => (θ_run Cert.ReferenceIdeal.defs _ _).mono (fun _ h c => (h c).2) (Cert.ReferenceIdeal.Value.run (F := Ideal) m ρ)

/-- From memories agreeing on the arguments both programs end with the same result array: the kernel's, after its
    32 write-backs, is the reference's last stage of the arguments. -/
theorem algebraic : Cert.algebraic_KernelIdeal_ReferenceIdeal := by
  intro m ρ m' ρ' _ hagree
  refine ⟨fun c => (Cert.KernelIdeal.Hand.dats m 0 c).arrAt 16 Cert.KernelIdeal.cfg0.N, Cert.KernelIdeal.Hand.run_named m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v31_eq, (hagree c).1, (hagree c).2.1, (hagree c).2.2.1, (hagree c).2.2.2.1,
    (hagree c).2.2.2.2.1, (hagree c).2.2.2.2.2.1, (hagree c).2.2.2.2.2.2.1, (hagree c).2.2.2.2.2.2.2.1,
    (hagree c).2.2.2.2.2.2.2.2.1, (hagree c).2.2.2.2.2.2.2.2.2.1, (hagree c).2.2.2.2.2.2.2.2.2.2.1,
    (hagree c).2.2.2.2.2.2.2.2.2.2.2.1, (hagree c).2.2.2.2.2.2.2.2.2.2.2.2]
  exact (Cert.KernelIdeal.KValue.result_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
